-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S1024x512 : Shape := ⟨2, ![1024, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_arg6 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4096x512 .f32) (main_arg1 : FVec F S4096x512 .f32) (main_arg2 : FVec F S4096x4096 .f32) (main_arg3 : FVec F S1024x512 .f32) (main_arg4 : FVec F S512 .f32) (main_arg5 : FVec F S512 .f32) (main_arg6 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_v13 main_v16
-- ==== Kernel.lean ====
abbrev S4096x512 : Shape := ⟨2, ![4096, 512]⟩
abbrev S4096x4096 : Shape := ⟨2, ![4096, 4096]⟩
abbrev S1024x512 : Shape := ⟨2, ![1024, 512]⟩
abbrev S512 : Shape := ⟨1, ![512]⟩
abbrev S1x512 : Shape := ⟨2, ![1, 512]⟩
abbrev S256x4096 : Shape := ⟨2, ![256, 4096]⟩
abbrev S256x512 : Shape := ⟨2, ![256, 512]⟩
abbrev S512x512 : Shape := ⟨2, ![512, 512]⟩

abbrev nBuf : Space → Nat
  | .hbm => 11
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x4096, .f32⟩
  | .hbm, ⟨3, _⟩ => ⟨S1024x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S4096x512, .f32⟩
  | .local _ .vmem, ⟨0, _⟩ => ⟨S256x4096, .f32⟩
  | .local _ .vmem, ⟨1, _⟩ => ⟨S256x4096, .f32⟩
  | .local _ .vmem, ⟨2, _⟩ => ⟨S4096x512, .f32⟩
  | .local _ .vmem, ⟨3, _⟩ => ⟨S256x512, .f32⟩
  | .local _ .vmem, ⟨4, _⟩ => ⟨S256x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S4096x512, .f32⟩
  | .local _ .vmem, ⟨10, _⟩ => ⟨S4096x512, .bf16⟩
  | .local _ .vmem, ⟨11, _⟩ => ⟨S1x512, .f32⟩
  | .local _ .vmem, ⟨12, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v17 : BitVec 32 := Scalar.muli arg0 c256_i32
  let v18 : Index := Scalar.indexCast v17
  let c0_10 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S512_S1x512 : S512.ShapeCasts S1x512
  inb_S1024x512_S512x512_0_0 : ∀ a, (![0, 0] : Fin 2 → Nat) a + S512x512.size a ≤ S1024x512.size a
  h_S512x512 : 0 < S512x512.numel
  bitsLt_bf16_f32 : FTy.bits .bf16 < FTy.bits .f32
  inb_S4096x512_S512x512_0_0 : ∀ a, (![0, 0] : Fin 2 → Nat) a + S512x512.size a ≤ S4096x512.size a
  shapeCasts_S512x512_S512x512 : S512x512.ShapeCasts S512x512
  packedbf16_S4096x512_S512x512_0_0 : (Rect.unit (s := S4096x512) ![0, 0] S512x512.size inb_S4096x512_S512x512_0_0).PackedRows (EltTy.packing .bf16)
  inb_S4096x512_S512x512_512_0 : ∀ a, (![512, 0] : Fin 2 → Nat) a + S512x512.size a ≤ S4096x512.size a
  packedbf16_S4096x512_S512x512_512_0 : (Rect.unit (s := S4096x512) ![512, 0] S512x512.size inb_S4096x512_S512x512_512_0).PackedRows (EltTy.packing .bf16)
  inb_S4096x512_S512x512_1024_0 : ∀ a, (![1024, 0] : Fin 2 → Nat) a + S512x512.size a ≤ S4096x512.size a
  packedbf16_S4096x512_S512x512_1024_0 : (Rect.unit (s := S4096x512) ![1024, 0] S512x512.size inb_S4096x512_S512x512_1024_0).PackedRows (EltTy.packing .bf16)
  inb_S4096x512_S512x512_1536_0 : ∀ a, (![1536, 0] : Fin 2 → Nat) a + S512x512.size a ≤ S4096x512.size a
  packedbf16_S4096x512_S512x512_1536_0 : (Rect.unit (s := S4096x512) ![1536, 0] S512x512.size inb_S4096x512_S512x512_1536_0).PackedRows (EltTy.packing .bf16)
  inb_S4096x512_S512x512_2048_0 : ∀ a, (![2048, 0] : Fin 2 → Nat) a + S512x512.size a ≤ S4096x512.size a
  packedbf16_S4096x512_S512x512_2048_0 : (Rect.unit (s := S4096x512) ![2048, 0] S512x512.size inb_S4096x512_S512x512_2048_0).PackedRows (EltTy.packing .bf16)
  inb_S4096x512_S512x512_2560_0 : ∀ a, (![2560, 0] : Fin 2 → Nat) a + S512x512.size a ≤ S4096x512.size a
  packedbf16_S4096x512_S512x512_2560_0 : (Rect.unit (s := S4096x512) ![2560, 0] S512x512.size inb_S4096x512_S512x512_2560_0).PackedRows (EltTy.packing .bf16)
  inb_S4096x512_S512x512_3072_0 : ∀ a, (![3072, 0] : Fin 2 → Nat) a + S512x512.size a ≤ S4096x512.size a
  packedbf16_S4096x512_S512x512_3072_0 : (Rect.unit (s := S4096x512) ![3072, 0] S512x512.size inb_S4096x512_S512x512_3072_0).PackedRows (EltTy.packing .bf16)
  inb_S4096x512_S512x512_3584_0 : ∀ a, (![3584, 0] : Fin 2 → Nat) a + S512x512.size a ≤ S4096x512.size a
  packedbf16_S4096x512_S512x512_3584_0 : (Rect.unit (s := S4096x512) ![3584, 0] S512x512.size inb_S4096x512_S512x512_3584_0).PackedRows (EltTy.packing .bf16)
  inb_S256x4096_S256x4096_0_0 : ∀ a, (![0, 0] : Fin 2 → Nat) a + S256x4096.size a ≤ S256x4096.size a
  h_S256x4096 : 0 < S256x4096.numel
  inb_S4096x512_S4096x512_0_0 : ∀ a, (![0, 0] : Fin 2 → Nat) a + S4096x512.size a ≤ S4096x512.size a
  h_S4096x512 : 0 < S4096x512.numel
  inb_S256x512_S256x512_0_0 : ∀ a, (![0, 0] : Fin 2 → Nat) a + S256x512.size a ≤ S256x512.size a
  h_S256x512 : 0 < S256x512.numel
  inb_S1024x512_S512x512_512_0 : ∀ a, (![512, 0] : Fin 2 → Nat) a + S512x512.size a ≤ S1024x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  reduces_S256x512_S512 : S256x512.Reduces [0] S512
  inb_S4096x512_S256x512_0_0 : ∀ a, (![0, 0] : Fin 2 → Nat) a + S256x512.size a ≤ S4096x512.size a
  shapeCasts_S256x512_S256x512 : S256x512.ShapeCasts S256x512
  inb_S4096x512_S256x512_256_0 : ∀ a, (![256, 0] : Fin 2 → Nat) a + S256x512.size a ≤ S4096x512.size a
  inb_S4096x512_S256x512_512_0 : ∀ a, (![512, 0] : Fin 2 → Nat) a + S256x512.size a ≤ S4096x512.size a
  inb_S4096x512_S256x512_768_0 : ∀ a, (![768, 0] : Fin 2 → Nat) a + S256x512.size a ≤ S4096x512.size a
  inb_S4096x512_S256x512_1024_0 : ∀ a, (![1024, 0] : Fin 2 → Nat) a + S256x512.size a ≤ S4096x512.size a
  inb_S4096x512_S256x512_1280_0 : ∀ a, (![1280, 0] : Fin 2 → Nat) a + S256x512.size a ≤ S4096x512.size a
  inb_S4096x512_S256x512_1536_0 : ∀ a, (![1536, 0] : Fin 2 → Nat) a + S256x512.size a ≤ S4096x512.size a
  inb_S4096x512_S256x512_1792_0 : ∀ a, (![1792, 0] : Fin 2 → Nat) a + S256x512.size a ≤ S4096x512.size a
  inb_S4096x512_S256x512_2048_0 : ∀ a, (![2048, 0] : Fin 2 → Nat) a + S256x512.size a ≤ S4096x512.size a
  inb_S4096x512_S256x512_2304_0 : ∀ a, (![2304, 0] : Fin 2 → Nat) a + S256x512.size a ≤ S4096x512.size a
  inb_S4096x512_S256x512_2560_0 : ∀ a, (![2560, 0] : Fin 2 → Nat) a + S256x512.size a ≤ S4096x512.size a
  inb_S4096x512_S256x512_2816_0 : ∀ a, (![2816, 0] : Fin 2 → Nat) a + S256x512.size a ≤ S4096x512.size a
  inb_S4096x512_S256x512_3072_0 : ∀ a, (![3072, 0] : Fin 2 → Nat) a + S256x512.size a ≤ S4096x512.size a
  inb_S4096x512_S256x512_3328_0 : ∀ a, (![3328, 0] : Fin 2 → Nat) a + S256x512.size a ≤ S4096x512.size a
  inb_S4096x512_S256x512_3584_0 : ∀ a, (![3584, 0] : Fin 2 → Nat) a + S256x512.size a ≤ S4096x512.size a
  inb_S4096x512_S256x512_3840_0 : ∀ a, (![3840, 0] : Fin 2 → Nat) a + S256x512.size a ≤ S4096x512.size a
  dot_S512x512_S512x512_S512x512_1_0_0_1_n_n_wf : DotDims.WF S512x512 S512x512 S512x512 [1] [0] [0] [1] [] []
  dot_S256x4096_S4096x512_S256x512_1_0_0_1_n_n_wf : DotDims.WF S256x4096 S4096x512 S256x512 [1] [0] [0] [1] [] []
  dot_S256x512_S512x512_S256x512_1_0_0_1_n_n_wf : DotDims.WF S256x512 S512x512 S256x512 [1] [0] [0] [1] [] []
  hrank0 : 0 < grid0.rank
  k0_off1_inb : ∀ i : grid0.Coords, ∀ a, (k0_off1 i) a + S256x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S4096x512.size a
  hwx0_2 : ∀ i : grid0.Coords, EltTy.bits .f32 = 32 ∨ (Rect.block (s := S4096x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x512.size a ≤ S4096x512.size a
  hwx0_7 : ∀ i : grid0.Coords, EltTy.bits .f32 = 32 ∨ (Rect.block (s := S4096x512) S4096x512.size (cc0_transform_7 i) (hinb0_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg2) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S4096x512.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S1024x512 : Shape := ⟨2, ![1024, 512]⟩
abbrev S512 : Shape := ⟨1, ![512]⟩
abbrev S4096x1024 : Shape := ⟨2, ![4096, 1024]⟩
abbrev S1x512 : Shape := ⟨2, ![1, 512]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x4096, .f32⟩
  | .hbm, ⟨3, _⟩ => ⟨S1024x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4096x512, .f32⟩
  | .hbm, ⟨8, _⟩ => ⟨S4096x1024, .f32⟩
  | .hbm, ⟨9, _⟩ => ⟨S4096x512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .i32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S1x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S1x512, .f32⟩
  | .hbm, ⟨49, _⟩ => ⟨S4096x512, .f32⟩
  | .hbm, ⟨50, _⟩ => ⟨S4096x512, .f32⟩
  | .hbm, ⟨51, _⟩ => ⟨S1x512, .f32⟩
  | .hbm, ⟨52, _⟩ => ⟨S4096x512, .f32⟩
  | .hbm, ⟨53, _⟩ => ⟨S4096x512, .f32⟩
  | .hbm, ⟨54, _⟩ => ⟨S1x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096x512, .f32⟩
  | .hbm, ⟨59, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_1 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_2 : Ref sig .tc := ⟨.hbm, 57, rfl⟩
abbrev main_v25 : Ref sig .tc := ⟨.hbm, 58, rfl⟩
abbrev main_v26 : Ref sig .tc := ⟨.hbm, 59, rfl⟩

abbrev nD : Nat := 1
abbrev τ : Topo := Topo.v7x

variable {F : FTy → Type} [FloatOps F]

class Facts₀ : Prop where
  concatenates_S4096x512_S4096x512_S4096x1024_d1 : Shape.Concatenates [S4096x512, S4096x512] S4096x1024 1
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S512_d0 : S4096x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S4096x512 : S_.BroadcastsInDim S4096x512 (![] : Fin 0 → Fin S4096x512.rank)
  dot_S4096x4096_S4096x512_S4096x512_1_0_0_1_n_n_wf : DotDims.WF S4096x4096 S4096x512 S4096x512 [1] [0] [0] [1] [] []
  dot_S4096x1024_S1024x512_S4096x512_1_0_0_1_n_n_wf : DotDims.WF S4096x1024 S1024x512 S4096x512 [1] [0] [0] [1] [] []

variable [Facts₀]

def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf

class Facts : Prop extends Facts₀ where

variable [Facts]
-- ==== Proof.KB.Shared.lean ====
/-
  What every case of the kernel body's run is stated over: which of the body's four conditionals a grid point takes
  (decided once over the sixteen points), the staging memref each window hands the body at a point, the three
  scratch buffers the body keeps between points (the staged product x1 W1, the running column sums of y and of y squared),
  and the launch's invariant opened on those three.
-/
import proofs.«180622_g18880676233904_cont_8to1_729_6_alg».proof.Proof.Gen.Kernel.Frame
import proofs.«180622_g18880676233904_cont_8to1_729_6_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The four conditionals, by grid point -/

/-- The body stages x1 W1 into its first scratch: taken at point 0 only. -/
abbrev atFirst (i : grid0.Coords) : Prop := (Scalar.cmpi .ne (Scalar.extui (Scalar.cmpi .eq (BitVec.ofNat 32 (i 0).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The body adds this block's column sums to the running ones: taken from point 1 on. -/
abbrev pastFirst (i : grid0.Coords) : Prop := (Scalar.cmpi .ne (Scalar.extui (Scalar.cmpi .sgt (BitVec.ofNat 32 (i 0).val) 0#32)) 0#32) = 1#1
theorem pastFirst_iff : ∀ t : Fin cfg0.N, pastFirst (grid0.coords t) ↔ 1 ≤ t.val :=
  (by decide +kernel : ∀ t : Fin grid0.N, pastFirst (grid0.coords t) ↔ 1 ≤ t.val)

/-- The body normalizes the whole resident output: taken at point 15 only. -/
abbrev atLast (i : grid0.Coords) : Prop := (Scalar.cmpi .ne (Scalar.extui (Scalar.cmpi .eq (BitVec.ofNat 32 (i 0).val) 15#32)) 0#32) = 1#1
theorem atLast_iff : ∀ t : Fin cfg0.N, atLast (grid0.coords t) ↔ t.val % 16 = 15 :=
  (by decide +kernel : ∀ t : Fin grid0.N, atLast (grid0.coords t) ↔ t.val % 16 = 15)

/-! ## The memrefs the body is called with -/

abbrev stg0 (t : Fin cfg0.N) : Memref sig .tc .vmem S256x4096 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S4096x512 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S256x512 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1024x512 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S1x512 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x512 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S1x512 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S4096x512 .f32 := win0_7.stage (cfg0.slots t 7)
abbrev hstg7 (t : Fin cfg0.N) : (stg7 t).IsWhole := hstage0_7 ((cfg0.slots t 7).cast nbuf0_7)

/-- The scratch holding the staged product x1 W1, -/
abbrev scT : Memref sig .tc .vmem S4096x512 .bf16 := Memref.whole cc0_scratch0
/-- the running column sums of y, -/
abbrev scSum : Memref sig .tc .vmem S1x512 .f32 := Memref.whole cc0_scratch1
/-- and of y squared. -/
abbrev scSq : Memref sig .tc .vmem S1x512 .f32 := Memref.whole cc0_scratch2

/-- What the launch hands the region, with the three scratch buffers as whole memrefs owned at some contents. -/
theorem launchInv_eq (c : Dev nD) :
    (Pipeline.ΦA spec0 c : sProp 𝕄)
      = iprop(iprop((∃ d, owns (c : Thread nD τ) scT fullShare d) ∗ (∃ d, owns (c : Thread nD τ) scSum fullShare d) ∗ (∃ d, owns (c : Thread nD τ) scSq fullShare d)) ∗ (∃ r, prngReg c r)) := by
  unfold Pipeline.ΦA; rw [scopedRest0_eq]; simp only [scT, scSum, scSq, owns_whole]; try rfl

end Cert.Kernel.Hand

end
-- ==== Proof.KB.RunA.lean ====
/-
  The kernel body at the first grid point: x1 W1 is staged, the block of y is stored and the column sums are started.
  The run hands back each buffer it stores into as the list of its stores (latest first) over what the buffer held.
  The scratch buffers' stores do not depend on what the resident output was found with, so they are named first;
  the output's stores are named for each contents y0 it may be found with, over y0, so that the rows this point
  does not touch are known to be kept.
-/
import proofs.«180622_g18880676233904_cont_8to1_729_6_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 4000000 in
/-- The stores of the body, with the proof that the body runs to any
    continuation that accepts the buffers so written. -/
noncomputable def runA (c : Dev nD) (i : grid0.Coords) (arg1 : Memref sig .tc .vmem S256x4096 .f32) (harg1 : arg1.IsWhole) (arg2 : Memref sig .tc .vmem S4096x512 .f32) (harg2 : arg2.IsWhole) (arg3 : Memref sig .tc .vmem S256x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hFirst : atFirst i) (hPast : ¬pastFirst i) (hLast : ¬atLast i)
    (x0 : Vec F S256x4096 .f32) (x1 : Vec F S4096x512 .f32) (x2 : Vec F S256x512 .f32) (x3 : Vec F S1024x512 .f32) (x4 : Vec F S1x512 .f32) (x5 : Vec F S1x512 .f32) (x6 : Vec F S1x512 .f32) :
    Σ' (LT : List (View.Piece (Elt F) S4096x512 .bf16)), Σ' (LS : List (View.Piece (Elt F) S1x512 .f32)), Σ' (LQ : List (View.Piece (Elt F) S1x512 .f32)), ∀ (y0 : Vec F S4096x512 .f32), { LO : List (View.Piece (Elt F) S4096x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y0 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y0) LO) ∗ (∃ f, arg9.view.loc (c : Thread nD τ) ↦[arg9.view.set]{fullShare} arg9.view.writes (Elt F) f LT) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun y0 => ⟨?_, fun E K => ?run⟩⟩
  case run =>
    simp only [cc0__fused_kernel_eq_skeleton]; unfold cc0__fused_kernel_skel
    simp only [k0_part6_eq_skeleton, k0_part1_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%d9, %g9, -, H9⟩, ⟨%d10, %g10, -, H10⟩, ⟨%d11, %g11, -, H11⟩, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8
    sl_exec (disch := first | exact hFirst | exact hPast | exact hLast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexists _; iexact H9
    isplitl [H10]; · iexists _; iexact H10
    iexists _; iexact H11

end Cert.Kernel.Hand

end
-- ==== Proof.KB.RunB.lean ====
/-
  The kernel body at a middle grid point (1 to 14): the block of y is stored and the column sums are advanced.
  The run hands back each buffer it stores into as the list of its stores (latest first) over what the buffer held.
  The scratch buffers' stores do not depend on what the resident output was found with, so they are named first;
  the output's stores are named for each contents y0 it may be found with, over y0, so that the rows this point
  does not touch are known to be kept.
-/
import proofs.«180622_g18880676233904_cont_8to1_729_6_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 4000000 in
/-- The stores of the body, from scratch contents t0 (the staged product), s0 and q0 (the running sums), with the proof that the body runs to any
    continuation that accepts the buffers so written. -/
noncomputable def runB (c : Dev nD) (i : grid0.Coords) (arg1 : Memref sig .tc .vmem S256x4096 .f32) (harg1 : arg1.IsWhole) (arg2 : Memref sig .tc .vmem S4096x512 .f32) (harg2 : arg2.IsWhole) (arg3 : Memref sig .tc .vmem S256x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hFirst : ¬atFirst i) (hPast : pastFirst i) (hLast : ¬atLast i)
    (x0 : Vec F S256x4096 .f32) (x1 : Vec F S4096x512 .f32) (x2 : Vec F S256x512 .f32) (x3 : Vec F S1024x512 .f32) (x4 : Vec F S1x512 .f32) (x5 : Vec F S1x512 .f32) (x6 : Vec F S1x512 .f32) (t0 : Vec F S4096x512 .bf16) (s0 : Vec F S1x512 .f32) (q0 : Vec F S1x512 .f32) :
    Σ' (LS : List (View.Piece (Elt F) S1x512 .f32)), Σ' (LQ : List (View.Piece (Elt F) S1x512 .f32)), ∀ (y0 : Vec F S4096x512 .f32), { LO : List (View.Piece (Elt F) S4096x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y0 ∗ owns (c : Thread nD τ) arg9 fullShare t0 ∗ owns (c : Thread nD τ) arg10 fullShare s0 ∗ owns (c : Thread nD τ) arg11 fullShare q0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y0) LO) ∗ owns (c : Thread nD τ) arg9 fullShare t0 ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, fun y0 => ⟨?_, fun E K => ?run⟩⟩
  case run =>
    simp only [cc0__fused_kernel_eq_skeleton]; unfold cc0__fused_kernel_skel
    simp only [k0_part6_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11
    sl_exec (disch := first | exact hFirst | exact hPast | exact hLast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    isplitl [H10]; · iexists _; iexact H10
    iexists _; iexact H11

end Cert.Kernel.Hand

end
-- ==== Proof.KB.RunC.lean ====
/-
  The kernel body at the last grid point: the block of y is stored, the column sums are completed, and every block of the resident output is normalized and clamped at zero.
  The run hands back each buffer it stores into as the list of its stores (latest first) over what the buffer held.
  The scratch buffers' stores do not depend on what the resident output was found with, so they are named first;
  the output's stores are named for each contents y0 it may be found with, over y0, so that the rows this point
  does not touch are known to be kept.
-/
import proofs.«180622_g18880676233904_cont_8to1_729_6_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 4000000 in
/-- The stores of the body, from scratch contents t0 (the staged product), s0 and q0 (the running sums), with the proof that the body runs to any
    continuation that accepts the buffers so written. -/
noncomputable def runC (c : Dev nD) (i : grid0.Coords) (arg1 : Memref sig .tc .vmem S256x4096 .f32) (harg1 : arg1.IsWhole) (arg2 : Memref sig .tc .vmem S4096x512 .f32) (harg2 : arg2.IsWhole) (arg3 : Memref sig .tc .vmem S256x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hFirst : ¬atFirst i) (hPast : pastFirst i) (hLast : atLast i)
    (x0 : Vec F S256x4096 .f32) (x1 : Vec F S4096x512 .f32) (x2 : Vec F S256x512 .f32) (x3 : Vec F S1024x512 .f32) (x4 : Vec F S1x512 .f32) (x5 : Vec F S1x512 .f32) (x6 : Vec F S1x512 .f32) (t0 : Vec F S4096x512 .bf16) (s0 : Vec F S1x512 .f32) (q0 : Vec F S1x512 .f32) :
    Σ' (LS : List (View.Piece (Elt F) S1x512 .f32)), Σ' (LQ : List (View.Piece (Elt F) S1x512 .f32)), ∀ (y0 : Vec F S4096x512 .f32), { LO : List (View.Piece (Elt F) S4096x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y0 ∗ owns (c : Thread nD τ) arg9 fullShare t0 ∗ owns (c : Thread nD τ) arg10 fullShare s0 ∗ owns (c : Thread nD τ) arg11 fullShare q0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y0) LO) ∗ owns (c : Thread nD τ) arg9 fullShare t0 ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, fun y0 => ⟨?_, fun E K => ?run⟩⟩
  case run =>
    simp only [cc0__fused_kernel_eq_skeleton]; unfold cc0__fused_kernel_skel
    simp only [k0_part6_eq_skeleton, k0_part2_eq_skeleton, k0_part3_eq_skeleton, k0_part4_eq_skeleton, k0_part5_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11
    sl_exec (disch := first | exact hFirst | exact hPast | exact hLast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    isplitl [H10]; · iexists _; iexact H10
    iexists _; iexact H11

end Cert.Kernel.Hand

end
-- ==== Proof.KB.Frame.lean ====
/-
  The kernel's pipeline as one induction over its sixteen grid points.

  Between points the body keeps three scratch buffers (the product x1 W1 staged at point 0, and the running column sums
  of y and of y squared) and the output's one staging buffer, which is resident: point t stores rows 256 t .. 256 t + 255
  of y into it, and point 15 then rewrites every row by the normalization. The scratch contents after each point are
  functions of the inputs alone (scrAt, by recursion on the point); what a point makes of the resident buffer is a
  function of what it found there (outAt), because the rows it does not store are kept. The pipeline's proof data is
  therefore relational: an input's buffer is left as found, the output's buffer goes from Y to outAt t Y.
-/
import proofs.«180622_g18880676233904_cont_8to1_729_6_alg».proof.Proof.KB.RunA
import proofs.«180622_g18880676233904_cont_8to1_729_6_alg».proof.Proof.KB.RunB
import proofs.«180622_g18880676233904_cont_8to1_729_6_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt16 (t : Fin cfg0.N) : t.val < 16 := lt_of_lt_of_eq t.isLt (show cfg0.N = 16 from N_0)

/-! ## The body's run at a point, case by case -/

/-- Point 0. -/
abbrev atA (c : Dev nD) (t : Fin cfg0.N) (h0 : t.val % 16 = 0) :=
  runA (F := F) c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scT (Memref.isWhole_whole _) scSum (Memref.isWhole_whole _) scSq (Memref.isWhole_whole _)
    ((atFirst_iff t).mpr h0) (fun h => by have := (pastFirst_iff t).mp h; have := lt16 t; omega) (fun h => by have := (atLast_iff t).mp h; omega)
    (iblk m c 0 t) (iblk m c 1 t) (iblk m c 2 t) (iblk m c 3 t) (iblk m c 4 t) (iblk m c 5 t) (iblk m c 6 t)

/-- Points 1 to 14, from the scratch contents the point before left. -/
abbrev atB (c : Dev nD) (t : Fin cfg0.N) (h0 : ¬t.val % 16 = 0) (h3 : ¬t.val % 16 = 15)
    (t0 : Vec F S4096x512 .bf16) (s0 : Vec F S1x512 .f32) (q0 : Vec F S1x512 .f32) :=
  runB (F := F) c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scT (Memref.isWhole_whole _) scSum (Memref.isWhole_whole _) scSq (Memref.isWhole_whole _)
    (fun h => h0 ((atFirst_iff t).mp h)) ((pastFirst_iff t).mpr (by omega)) (fun h => h3 ((atLast_iff t).mp h))
    (iblk m c 0 t) (iblk m c 1 t) (iblk m c 2 t) (iblk m c 3 t) (iblk m c 4 t) (iblk m c 5 t) (iblk m c 6 t) t0 s0 q0

/-- Point 15, likewise. -/
abbrev atC (c : Dev nD) (t : Fin cfg0.N) (h3 : t.val % 16 = 15)
    (t0 : Vec F S4096x512 .bf16) (s0 : Vec F S1x512 .f32) (q0 : Vec F S1x512 .f32) :=
  runC (F := F) c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scT (Memref.isWhole_whole _) scSum (Memref.isWhole_whole _) scSq (Memref.isWhole_whole _)
    (fun h => by have := (atFirst_iff t).mp h; omega) ((pastFirst_iff t).mpr (by omega)) ((atLast_iff t).mpr h3)
    (iblk m c 0 t) (iblk m c 1 t) (iblk m c 2 t) (iblk m c 3 t) (iblk m c 4 t) (iblk m c 5 t) (iblk m c 6 t) t0 s0 q0

/-! ## What the scratch buffers hold after each point -/

/-- The staged product, the running sum and the running sum of squares after the body at point n. -/
def scrAt (c : Dev nD) : (n : ℕ) → n < cfg0.N → Vec F S4096x512 .bf16 × Vec F S1x512 .f32 × Vec F S1x512 .f32
  | 0, hn =>
    (scT.view.read (Elt F) (scT.view.writes (Elt F) scT.view.junk (atA m c ⟨0, hn⟩ (Nat.zero_mod _)).1),
     scSum.view.read (Elt F) (scSum.view.writes (Elt F) scSum.view.junk (atA m c ⟨0, hn⟩ (Nat.zero_mod _)).2.1),
     scSq.view.read (Elt F) (scSq.view.writes (Elt F) scSq.view.junk (atA m c ⟨0, hn⟩ (Nat.zero_mod _)).2.2.1))
  | n + 1, hn =>
    if h3 : (n + 1) % 16 = 15 then
      ((scrAt c n (Nat.lt_of_succ_lt hn)).1,
       scSum.view.read (Elt F) (scSum.view.writes (Elt F) scSum.view.junk (atC m c ⟨n + 1, hn⟩ h3 (scrAt c n (Nat.lt_of_succ_lt hn)).1 (scrAt c n (Nat.lt_of_succ_lt hn)).2.1 (scrAt c n (Nat.lt_of_succ_lt hn)).2.2).1),
       scSq.view.read (Elt F) (scSq.view.writes (Elt F) scSq.view.junk (atC m c ⟨n + 1, hn⟩ h3 (scrAt c n (Nat.lt_of_succ_lt hn)).1 (scrAt c n (Nat.lt_of_succ_lt hn)).2.1 (scrAt c n (Nat.lt_of_succ_lt hn)).2.2).2.1))
    else
      ((scrAt c n (Nat.lt_of_succ_lt hn)).1,
       scSum.view.read (Elt F) (scSum.view.writes (Elt F) scSum.view.junk (atB m c ⟨n + 1, hn⟩ (by have : n + 1 < 16 := lt_of_lt_of_eq hn (show cfg0.N = 16 from N_0); show ¬(n + 1) % 16 = 0; omega) h3 (scrAt c n (Nat.lt_of_succ_lt hn)).1 (scrAt c n (Nat.lt_of_succ_lt hn)).2.1 (scrAt c n (Nat.lt_of_succ_lt hn)).2.2).1),
       scSq.view.read (Elt F) (scSq.view.writes (Elt F) scSq.view.junk (atB m c ⟨n + 1, hn⟩ (by have : n + 1 < 16 := lt_of_lt_of_eq hn (show cfg0.N = 16 from N_0); show ¬(n + 1) % 16 = 0; omega) h3 (scrAt c n (Nat.lt_of_succ_lt hn)).1 (scrAt c n (Nat.lt_of_succ_lt hn)).2.1 (scrAt c n (Nat.lt_of_succ_lt hn)).2.2).2.1))

/-- The scratch contents a point after the first starts from. -/
abbrev scrBefore (c : Dev nD) (t : Fin cfg0.N) := scrAt m c (t.val - 1) (Nat.lt_of_le_of_lt (Nat.sub_le _ _) t.isLt)

/-! ## What a point makes of the resident output buffer -/

/-- The output's staging buffer after the body at point t, if it held Y before: the point's stores over Y. -/
def outAt (c : Dev nD) (t : Fin cfg0.N) (Y : Vec F S4096x512 .f32) : Vec F S4096x512 .f32 :=
  if h0 : t.val % 16 = 0 then
    (stg7 t).view.read (Elt F) ((stg7 t).view.writes (Elt F) ((hstg7 t).unread Y) ((atA m c t h0).2.2.2 Y).1)
  else if h3 : t.val % 16 = 15 then
    (stg7 t).view.read (Elt F) ((stg7 t).view.writes (Elt F) ((hstg7 t).unread Y)
      ((atC m c t h3 (scrBefore m c t).1 (scrBefore m c t).2.1 (scrBefore m c t).2.2).2.2 Y).1)
  else
    (stg7 t).view.read (Elt F) ((stg7 t).view.writes (Elt F) ((hstg7 t).unread Y)
      ((atB m c t h0 h3 (scrBefore m c t).1 (scrBefore m c t).2.1 (scrBefore m c t).2.2).2.2 Y).1)

/-! ## The invariant and the proof data -/

/-- Before the first point the scratch buffers hold anything; before point n + 1 they hold what point n left. -/
def inv (c : Dev nD) : (n : ℕ) → n ≤ cfg0.N → sProp 𝕄
  | 0, _ => Pipeline.ΦA spec0 c
  | n + 1, hn => iprop(iprop(owns (c : Thread nD τ) scT fullShare (scrAt m c n hn).1 ∗ owns (c : Thread nD τ) scSum fullShare (scrAt m c n hn).2.1 ∗ owns (c : Thread nD τ) scSq fullShare (scrAt m c n hn).2.2) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scT fullShare (scrAt m c n hn).1 ∗ owns (c : Thread nD τ) scSum fullShare (scrAt m c n hn).2.1 ∗ owns (c : Thread nD τ) scSq fullShare (scrAt m c n hn).2.2) ∗ (∃ r, prngReg c r)) := rfl

theorem inv_pos (c : Dev nD) (n : ℕ) (h : n ≤ cfg0.N) (hz : n ≠ 0) :
    inv m c n h = iprop(iprop(owns (c : Thread nD τ) scT fullShare (scrAt m c (n - 1) (by omega)).1 ∗ owns (c : Thread nD τ) scSum fullShare (scrAt m c (n - 1) (by omega)).2.1 ∗ owns (c : Thread nD τ) scSq fullShare (scrAt m c (n - 1) (by omega)).2.2) ∗ (∃ r, prngReg c r)) := by
  cases n with
  | zero => exact absurd rfl hz
  | succ n => rfl

/-- The output window's relation: what the point leaves is its stores over what it found. -/
def outRel (c : Dev nD) : (w : Fin cfg0.W) → Option (Fin cfg0.N → (Y X : (cfg0.win w).block.Idx → Elt F (cfg0.win w).elt) → Prop)
  | ⟨7, _⟩ => some fun t Y X => X = outAt m c t Y
  | _ => none

/-- The proof data on core c: the arrays as the region finds them; every input buffer left as found; the output buffer
    by outRel; the scratch in the invariant; full shares, nothing owed. -/
def rdat (c : Dev nD) : RDat τ (Elt F) Unit ℕ (UR sig nD τ) ℕ cfg0 c :=
  ({ A := fun w => V m c (Pipeline.arrRef spec0 w)
     after := fun _ _ Y X => X = Y
     Φ := fun t => inv m c t.val (Nat.le_of_lt_succ t.isLt)
     q := fun _ => fullShare
     owed := fun _ => 0 } : RDat τ (Elt F) Unit ℕ (UR sig nD τ) ℕ cfg0 c).override (outRel m c)

theorem rdat_A (c : Dev nD) (w : Fin cfg0.W) : (rdat m c).A w = V m c (Pipeline.arrRef spec0 w) := rfl

theorem rdat_Φ (c : Dev nD) (t : Fin (cfg0.N + 1)) : (rdat m c).Φ t = inv m c t.val (Nat.le_of_lt_succ t.isLt) := rfl

/-- Every window but the output's keeps the base relation. -/
theorem outRel_in (c : Dev nD) (w : Fin cfg0.W) (hw : w.val ≠ 7) : outRel m c w = none := by
  obtain ⟨k, hk⟩ := w
  match k, hk, hw with
  | 0, _, _ => rfl
  | 1, _, _ => rfl
  | 2, _, _ => rfl
  | 3, _, _ => rfl
  | 4, _, _ => rfl
  | 5, _, _ => rfl
  | 6, _, _ => rfl
  | 7, _, hw => exact absurd rfl hw
  | k + 8, hk, _ => exact absurd hk (by show ¬(k + 8 < 8); omega)

theorem rdat_after_in (c : Dev nD) (w : Fin cfg0.W) (hw : w.val ≠ 7) (t : Fin cfg0.N) (Y X : (cfg0.win w).block.Idx → Elt F (cfg0.win w).elt) :
    (rdat m c).after w t Y X ↔ X = Y := by
  unfold rdat
  rw [RDat.override_after_of_eq_none _ (outRel_in m c w hw)]

theorem rdat_after_out (c : Dev nD) (t : Fin cfg0.N) (Y X : Vec F S4096x512 .f32) :
    (rdat m c).after 7 t Y X ↔ X = outAt m c t Y := by
  unfold rdat
  rw [RDat.override_after_of_eq_some _ (show outRel m c 7 = some (fun t Y X => X = outAt m c t Y) from rfl)]

end Cert.Kernel.Hand

end
-- ==== Proof.KB.Body.lean ====
/-
  The body obligation of the pipeline's proof data: at every grid point, from the invariant and the eight current staging
  buffers at contents they may hold, the kernel body runs to the invariant at the next point with every input buffer
  as found and the output buffer at the point's stores over what it held.
-/
import proofs.«180622_g18880676233904_cont_8to1_729_6_alg».proof.Proof.KB.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The inputs' current buffers hold their blocks

An input window's relation leaves its buffer as found, so wherever the body is handed the buffer it holds what a
fetch puts there, and for these uncut windows that is the array's block at the point. -/

theorem finds_0 (c : Dev nD) (t : Fin cfg0.N) (Y) (h : (rdat m c).Finds 0 t Y) : Y = iblk m c 0 t := by
  obtain ⟨d, hd⟩ := (rdat m c).finds_in_eq_fetched 0 rfl (fun _ _ _ => rfl)
    (fun t Y X h => (rdat_after_in m c 0 (by decide) t Y X).mp h) t Y h
  rw [hd]; unfold RDat.fetched RDat.blockOf iblk; rw [rdat_A]; try rfl
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl)
    (fun t Y X h => (rdat_after_in m c 1 (by decide) t Y X).mp h) t Y h
  rw [hd]; unfold RDat.fetched RDat.blockOf iblk; rw [rdat_A]; try rfl
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl)
    (fun t Y X h => (rdat_after_in m c 2 (by decide) t Y X).mp h) t Y h
  rw [hd]; unfold RDat.fetched RDat.blockOf iblk; rw [rdat_A]; try rfl
theorem finds_3 (c : Dev nD) (t : Fin cfg0.N) (Y) (h : (rdat m c).Finds 3 t Y) : Y = iblk m c 3 t := by
  obtain ⟨d, hd⟩ := (rdat m c).finds_in_eq_fetched 3 rfl (fun _ _ _ => rfl)
    (fun t Y X h => (rdat_after_in m c 3 (by decide) t Y X).mp h) t Y h
  rw [hd]; unfold RDat.fetched RDat.blockOf iblk; rw [rdat_A]; try rfl
theorem finds_4 (c : Dev nD) (t : Fin cfg0.N) (Y) (h : (rdat m c).Finds 4 t Y) : Y = iblk m c 4 t := by
  obtain ⟨d, hd⟩ := (rdat m c).finds_in_eq_fetched 4 rfl (fun _ _ _ => rfl)
    (fun t Y X h => (rdat_after_in m c 4 (by decide) t Y X).mp h) t Y h
  rw [hd]; unfold RDat.fetched RDat.blockOf iblk; rw [rdat_A]; try rfl
theorem finds_5 (c : Dev nD) (t : Fin cfg0.N) (Y) (h : (rdat m c).Finds 5 t Y) : Y = iblk m c 5 t := by
  obtain ⟨d, hd⟩ := (rdat m c).finds_in_eq_fetched 5 rfl (fun _ _ _ => rfl)
    (fun t Y X h => (rdat_after_in m c 5 (by decide) t Y X).mp h) t Y h
  rw [hd]; unfold RDat.fetched RDat.blockOf iblk; rw [rdat_A]; try rfl
theorem finds_6 (c : Dev nD) (t : Fin cfg0.N) (Y) (h : (rdat m c).Finds 6 t Y) : Y = iblk m c 6 t := by
  obtain ⟨d, hd⟩ := (rdat m c).finds_in_eq_fetched 6 rfl (fun _ _ _ => rfl)
    (fun t Y X h => (rdat_after_in m c 6 (by decide) t Y X).mp h) t Y h
  rw [hd]; unfold RDat.fetched RDat.blockOf iblk; rw [rdat_A]; try rfl

/-! ## The output buffer and the scratch buffers after a point, case by case -/

theorem outAt_A (c : Dev nD) (t : Fin cfg0.N) (h0 : t.val % 16 = 0) (Y : Vec F S4096x512 .f32) :
    outAt m c t Y = (stg7 t).view.read (Elt F) ((stg7 t).view.writes (Elt F) ((hstg7 t).unread Y) ((atA m c t h0).2.2.2 Y).1) := by
  unfold outAt; rw [dif_pos h0]

theorem outAt_B (c : Dev nD) (t : Fin cfg0.N) (h0 : ¬t.val % 16 = 0) (h3 : ¬t.val % 16 = 15) (Y : Vec F S4096x512 .f32) :
    outAt m c t Y = (stg7 t).view.read (Elt F) ((stg7 t).view.writes (Elt F) ((hstg7 t).unread Y) ((atB m c t h0 h3 (scrBefore m c t).1 (scrBefore m c t).2.1 (scrBefore m c t).2.2).2.2 Y).1) := by
  unfold outAt; rw [dif_neg h0, dif_neg h3]

theorem outAt_C (c : Dev nD) (t : Fin cfg0.N) (h0 : ¬t.val % 16 = 0) (h3 : t.val % 16 = 15) (Y : Vec F S4096x512 .f32) :
    outAt m c t Y = (stg7 t).view.read (Elt F) ((stg7 t).view.writes (Elt F) ((hstg7 t).unread Y) ((atC m c t h3 (scrBefore m c t).1 (scrBefore m c t).2.1 (scrBefore m c t).2.2).2.2 Y).1) := by
  unfold outAt; rw [dif_neg h0, dif_pos h3]

/-- After point 0 the three scratch buffers hold that point's stores. -/
theorem scrAt_A (c : Dev nD) (t : Fin cfg0.N) (h0 : t.val % 16 = 0) :
    scrAt m c t.val t.isLt =
      (scT.view.read (Elt F) (scT.view.writes (Elt F) scT.view.junk (atA m c t h0).1),
       scSum.view.read (Elt F) (scSum.view.writes (Elt F) scSum.view.junk (atA m c t h0).2.1),
       scSq.view.read (Elt F) (scSq.view.writes (Elt F) scSq.view.junk (atA m c t h0).2.2.1)) := by
  have hN := lt16 t
  obtain ⟨n, hn⟩ := t
  have h0' : n % 16 = 0 := h0
  have hN' : n < 16 := hN
  have hz : n = 0 := by omega
  subst hz
  rfl

/-- After a middle point the staged product is as before and the two running sums hold the point's stores. -/
theorem scrAt_B (c : Dev nD) (t : Fin cfg0.N) (h0 : ¬t.val % 16 = 0) (h3 : ¬t.val % 16 = 15) :
    scrAt m c t.val t.isLt =
      ((scrBefore m c t).1,
       scSum.view.read (Elt F) (scSum.view.writes (Elt F) scSum.view.junk (atB m c t h0 h3 (scrBefore m c t).1 (scrBefore m c t).2.1 (scrBefore m c t).2.2).1),
       scSq.view.read (Elt F) (scSq.view.writes (Elt F) scSq.view.junk (atB m c t h0 h3 (scrBefore m c t).1 (scrBefore m c t).2.1 (scrBefore m c t).2.2).2.1)) := by
  obtain ⟨n, hn⟩ := t
  cases n with
  | zero => exact absurd (Nat.zero_mod 16) h0
  | succ n =>
    have h3' : ¬(n + 1) % 16 = 15 := h3
    show scrAt m c (n + 1) hn = _
    rw [scrAt, dif_neg h3']
    try rfl

/-- After the last point likewise. -/
theorem scrAt_C (c : Dev nD) (t : Fin cfg0.N) (h3 : t.val % 16 = 15) :
    scrAt m c t.val t.isLt =
      ((scrBefore m c t).1,
       scSum.view.read (Elt F) (scSum.view.writes (Elt F) scSum.view.junk (atC m c t h3 (scrBefore m c t).1 (scrBefore m c t).2.1 (scrBefore m c t).2.2).1),
       scSq.view.read (Elt F) (scSq.view.writes (Elt F) scSq.view.junk (atC m c t h3 (scrBefore m c t).1 (scrBefore m c t).2.1 (scrBefore m c t).2.2).2.1)) := by
  obtain ⟨n, hn⟩ := t
  cases n with
  | zero => exact absurd (show (0 : ℕ) % 16 = 15 from h3) (by decide)
  | succ n =>
    have h3' : (n + 1) % 16 = 15 := h3
    show scrAt m c (n + 1) hn = _
    rw [scrAt, dif_pos h3']
    try rfl

theorem scrAt_A_T (c : Dev nD) (t : Fin cfg0.N) (h0 : t.val % 16 = 0) :
    (scrAt m c t.val t.isLt).1 = scT.view.read (Elt F) (scT.view.writes (Elt F) scT.view.junk (atA m c t h0).1) := by rw [scrAt_A m c t h0]
theorem scrAt_A_S (c : Dev nD) (t : Fin cfg0.N) (h0 : t.val % 16 = 0) :
    (scrAt m c t.val t.isLt).2.1 = scSum.view.read (Elt F) (scSum.view.writes (Elt F) scSum.view.junk (atA m c t h0).2.1) := by rw [scrAt_A m c t h0]
theorem scrAt_A_Q (c : Dev nD) (t : Fin cfg0.N) (h0 : t.val % 16 = 0) :
    (scrAt m c t.val t.isLt).2.2 = scSq.view.read (Elt F) (scSq.view.writes (Elt F) scSq.view.junk (atA m c t h0).2.2.1) := by rw [scrAt_A m c t h0]

theorem scrAt_B_T (c : Dev nD) (t : Fin cfg0.N) (h0 : ¬t.val % 16 = 0) (h3 : ¬t.val % 16 = 15) :
    (scrAt m c t.val t.isLt).1 = (scrBefore m c t).1 := by rw [scrAt_B m c t h0 h3]
theorem scrAt_B_S (c : Dev nD) (t : Fin cfg0.N) (h0 : ¬t.val % 16 = 0) (h3 : ¬t.val % 16 = 15) :
    (scrAt m c t.val t.isLt).2.1 = scSum.view.read (Elt F) (scSum.view.writes (Elt F) scSum.view.junk (atB m c t h0 h3 (scrBefore m c t).1 (scrBefore m c t).2.1 (scrBefore m c t).2.2).1) := by rw [scrAt_B m c t h0 h3]
theorem scrAt_B_Q (c : Dev nD) (t : Fin cfg0.N) (h0 : ¬t.val % 16 = 0) (h3 : ¬t.val % 16 = 15) :
    (scrAt m c t.val t.isLt).2.2 = scSq.view.read (Elt F) (scSq.view.writes (Elt F) scSq.view.junk (atB m c t h0 h3 (scrBefore m c t).1 (scrBefore m c t).2.1 (scrBefore m c t).2.2).2.1) := by rw [scrAt_B m c t h0 h3]

theorem scrAt_C_T (c : Dev nD) (t : Fin cfg0.N) (h3 : t.val % 16 = 15) :
    (scrAt m c t.val t.isLt).1 = (scrBefore m c t).1 := by rw [scrAt_C m c t h3]
theorem scrAt_C_S (c : Dev nD) (t : Fin cfg0.N) (h3 : t.val % 16 = 15) :
    (scrAt m c t.val t.isLt).2.1 = scSum.view.read (Elt F) (scSum.view.writes (Elt F) scSum.view.junk (atC m c t h3 (scrBefore m c t).1 (scrBefore m c t).2.1 (scrBefore m c t).2.2).1) := by rw [scrAt_C m c t h3]
theorem scrAt_C_Q (c : Dev nD) (t : Fin cfg0.N) (h3 : t.val % 16 = 15) :
    (scrAt m c t.val t.isLt).2.2 = scSq.view.read (Elt F) (scSq.view.writes (Elt F) scSq.view.junk (atC m c t h3 (scrBefore m c t).1 (scrBefore m c t).2.1 (scrBefore m c t).2.2).2.1) := by rw [scrAt_C m c t h3]

/-! ## The scratch stores cover their buffers

Point 0 stages the product in eight slabs of 512 rows; every point stores each running sum whole. -/

theorem coverA_T (c : Dev nD) (t : Fin cfg0.N) (h0 : t.val % 16 = 0) :
    ∀ y : S4096x512.Idx, ∃ pc ∈ (atA m c t h0).1, y ∈ pc.1.set :=
  View.cover_of_tiledL (atA m c t h0).1 S512x512.size (by sl_kernel_rfl)

theorem coverA_S (c : Dev nD) (t : Fin cfg0.N) (h0 : t.val % 16 = 0) :
    ∀ y : S1x512.Idx, ∃ pc ∈ (atA m c t h0).2.1, y ∈ pc.1.set :=
  View.cover_of_tiledL (atA m c t h0).2.1 S1x512.size (by sl_kernel_rfl)

theorem coverA_Q (c : Dev nD) (t : Fin cfg0.N) (h0 : t.val % 16 = 0) :
    ∀ y : S1x512.Idx, ∃ pc ∈ (atA m c t h0).2.2.1, y ∈ pc.1.set :=
  View.cover_of_tiledL (atA m c t h0).2.2.1 S1x512.size (by sl_kernel_rfl)

theorem coverB_S (c : Dev nD) (t : Fin cfg0.N) (h0 : ¬t.val % 16 = 0) (h3 : ¬t.val % 16 = 15)
    (t0 : Vec F S4096x512 .bf16) (s0 : Vec F S1x512 .f32) (q0 : Vec F S1x512 .f32) :
    ∀ y : S1x512.Idx, ∃ pc ∈ (atB m c t h0 h3 t0 s0 q0).1, y ∈ pc.1.set :=
  View.cover_of_tiledL (atB m c t h0 h3 t0 s0 q0).1 S1x512.size (by sl_kernel_rfl)

theorem coverB_Q (c : Dev nD) (t : Fin cfg0.N) (h0 : ¬t.val % 16 = 0) (h3 : ¬t.val % 16 = 15)
    (t0 : Vec F S4096x512 .bf16) (s0 : Vec F S1x512 .f32) (q0 : Vec F S1x512 .f32) :
    ∀ y : S1x512.Idx, ∃ pc ∈ (atB m c t h0 h3 t0 s0 q0).2.1, y ∈ pc.1.set :=
  View.cover_of_tiledL (atB m c t h0 h3 t0 s0 q0).2.1 S1x512.size (by sl_kernel_rfl)

theorem coverC_S (c : Dev nD) (t : Fin cfg0.N) (h3 : t.val % 16 = 15)
    (t0 : Vec F S4096x512 .bf16) (s0 : Vec F S1x512 .f32) (q0 : Vec F S1x512 .f32) :
    ∀ y : S1x512.Idx, ∃ pc ∈ (atC m c t h3 t0 s0 q0).1, y ∈ pc.1.set :=
  View.cover_of_tiledL (atC m c t h3 t0 s0 q0).1 S1x512.size (by sl_kernel_rfl)

theorem coverC_Q (c : Dev nD) (t : Fin cfg0.N) (h3 : t.val % 16 = 15)
    (t0 : Vec F S4096x512 .bf16) (s0 : Vec F S1x512 .f32) (q0 : Vec F S1x512 .f32) :
    ∀ y : S1x512.Idx, ∃ pc ∈ (atC m c t h3 t0 s0 q0).2.1, y ∈ pc.1.set :=
  View.cover_of_tiledL (atC m c t h3 t0 s0 q0).2.1 S1x512.size (by sl_kernel_rfl)

/-! ## The body at a point -/

/-- What the body is handed at point t: the invariant, what the core owes, every input buffer at its block and
    the output buffer at y7. -/
def bodyPre (c : Dev nD) (t : Fin cfg0.N) (y7 : Vec F S4096x512 .f32) : sProp 𝕄 :=
  iprop(inv m c t.val (Nat.le_of_lt t.isLt) ∗ (rdat m c).owesAt () t.castSucc
    ∗ owns (c : Thread nD τ) (stg0 t) fullShare (iblk m c 0 t)
    ∗ owns (c : Thread nD τ) (stg1 t) fullShare (iblk m c 1 t)
    ∗ owns (c : Thread nD τ) (stg2 t) fullShare (iblk m c 2 t)
    ∗ owns (c : Thread nD τ) (stg3 t) fullShare (iblk m c 3 t)
    ∗ owns (c : Thread nD τ) (stg4 t) fullShare (iblk m c 4 t)
    ∗ owns (c : Thread nD τ) (stg5 t) fullShare (iblk m c 5 t)
    ∗ owns (c : Thread nD τ) (stg6 t) fullShare (iblk m c 6 t)
    ∗ owns (c : Thread nD τ) (stg7 t) fullShare y7)

/-- What it hands back: the next invariant, and every buffer at contents its window's relation allows. -/
def bodyPost (c : Dev nD) (t : Fin cfg0.N) (y7 : Vec F S4096x512 .f32) : sProp 𝕄 :=
  iprop((rdat m c).Φ t.succ ∗ (rdat m c).owesAt () t.succ
    ∗ (∃ X, ⌜(rdat m c).after 0 t (iblk m c 0 t) X⌝ ∗ owns (c : Thread nD τ) (stg0 t) fullShare X)
    ∗ (∃ X, ⌜(rdat m c).after 1 t (iblk m c 1 t) X⌝ ∗ owns (c : Thread nD τ) (stg1 t) fullShare X)
    ∗ (∃ X, ⌜(rdat m c).after 2 t (iblk m c 2 t) X⌝ ∗ owns (c : Thread nD τ) (stg2 t) fullShare X)
    ∗ (∃ X, ⌜(rdat m c).after 3 t (iblk m c 3 t) X⌝ ∗ owns (c : Thread nD τ) (stg3 t) fullShare X)
    ∗ (∃ X, ⌜(rdat m c).after 4 t (iblk m c 4 t) X⌝ ∗ owns (c : Thread nD τ) (stg4 t) fullShare X)
    ∗ (∃ X, ⌜(rdat m c).after 5 t (iblk m c 5 t) X⌝ ∗ owns (c : Thread nD τ) (stg5 t) fullShare X)
    ∗ (∃ X, ⌜(rdat m c).after 6 t (iblk m c 6 t) X⌝ ∗ owns (c : Thread nD τ) (stg6 t) fullShare X)
    ∗ (∃ X, ⌜(rdat m c).after 7 t y7 X⌝ ∗ owns (c : Thread nD τ) (stg7 t) fullShare X))

/-- From the scratch buffers at this point's contents, the inputs as found and the output buffer at stores LO
    over y7, where those stores read back as outAt, the post of the point. -/
theorem post_of (c : Dev nD) (t : Fin cfg0.N) (y7 : Vec F S4096x512 .f32) (LO : List (View.Piece (Elt F) S4096x512 .f32))
    (hLO : outAt m c t y7 = (stg7 t).view.read (Elt F) ((stg7 t).view.writes (Elt F) ((hstg7 t).unread y7) LO)) :
    iprop(iprop(iprop(owns (c : Thread nD τ) scT fullShare (scrAt m c t.val t.isLt).1 ∗ owns (c : Thread nD τ) scSum fullShare (scrAt m c t.val t.isLt).2.1 ∗ owns (c : Thread nD τ) scSq fullShare (scrAt m c t.val t.isLt).2.2) ∗ (∃ r, prngReg c r)) ∗ (rdat m c).owesAt () t.castSucc
    ∗ owns (c : Thread nD τ) (stg0 t) fullShare (iblk m c 0 t)
    ∗ owns (c : Thread nD τ) (stg1 t) fullShare (iblk m c 1 t)
    ∗ owns (c : Thread nD τ) (stg2 t) fullShare (iblk m c 2 t)
    ∗ owns (c : Thread nD τ) (stg3 t) fullShare (iblk m c 3 t)
    ∗ owns (c : Thread nD τ) (stg4 t) fullShare (iblk m c 4 t)
    ∗ owns (c : Thread nD τ) (stg5 t) fullShare (iblk m c 5 t)
    ∗ owns (c : Thread nD τ) (stg6 t) fullShare (iblk m c 6 t)
    ∗ ((stg7 t).view.loc (c : Thread nD τ) ↦[(stg7 t).view.set]{fullShare} (stg7 t).view.writes (Elt F) ((hstg7 t).unread y7) LO))
      ⊢ bodyPost m c t y7 := by
  unfold bodyPost
  rw [show (rdat m c).owesAt () t.succ = (rdat m c).owesAt () t.castSucc from rfl,
    show (rdat m c).Φ t.succ = inv m c (t.val + 1) t.isLt from rfl, inv_succ]
  iintro ⟨Hi, Ho, H0, H1, H2, H3, H4, H5, H6, H7⟩
  isplitl [Hi]; · iexact Hi
  isplitl [Ho]; · iexact Ho
  isplitl [H0]
  · iexists _; isplitr; swap; · iexact H0
    ipureintro; exact (rdat_after_in m c 0 (by decide) t _ _).mpr rfl
  isplitl [H1]
  · iexists _; isplitr; swap; · iexact H1
    ipureintro; exact (rdat_after_in m c 1 (by decide) t _ _).mpr rfl
  isplitl [H2]
  · iexists _; isplitr; swap; · iexact H2
    ipureintro; exact (rdat_after_in m c 2 (by decide) t _ _).mpr rfl
  isplitl [H3]
  · iexists _; isplitr; swap; · iexact H3
    ipureintro; exact (rdat_after_in m c 3 (by decide) t _ _).mpr rfl
  isplitl [H4]
  · iexists _; isplitr; swap; · iexact H4
    ipureintro; exact (rdat_after_in m c 4 (by decide) t _ _).mpr rfl
  isplitl [H5]
  · iexists _; isplitr; swap; · iexact H5
    ipureintro; exact (rdat_after_in m c 5 (by decide) t _ _).mpr rfl
  isplitl [H6]
  · iexists _; isplitr; swap; · iexact H6
    ipureintro; exact (rdat_after_in m c 6 (by decide) t _ _).mpr rfl
  iexists (outAt m c t y7); isplitr
  · ipureintro; exact (rdat_after_out m c t _ _).mpr rfl
  unfold owns; iexists _; isplitr; swap; · iexact H7
  ipureintro; exact hLO.symm

set_option maxHeartbeats 4000000 in
/-- Point 0: the scratch buffers come at whatever the launch left in them. -/
theorem body_A (c : Dev nD) (t : Fin cfg0.N) (h0 : t.val % 16 = 0) (y7 : Vec F S4096x512 .f32) :
    bodyPre m c t y7 ⊢ wp frame (wpE (defs₀ (F := F)) Variants.none c none) Set.univ (bodyAt0 t) (fun _ => bodyPost m c t y7) := by
  have hN := lt16 t
  have hz : t.val = 0 := by omega
  unfold bodyPre bodyAt0
  rw [inv_zero m c _ _ hz, launchInv_eq]
  iintro ⟨⟨⟨HS0, HS1, HS2⟩, Hg⟩, Ho, H0, H1, H2, H3, H4, H5, H6, H7⟩
  iapply ((atA m c t h0).2.2.2 y7).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, ⟨%f9, HS0⟩, ⟨%f10, HS1⟩, ⟨%f11, HS2⟩⟩
  iapply post_of m c t y7 _ (outAt_A m c t h0 y7)
  isplitl [HS0 HS1 HS2 Hg]
  · isplitl [HS0 HS1 HS2]
    · isplitl [HS0]
      · unfold owns; iexists _; isplitr; swap; · iexact HS0
        ipureintro; exact (View.read_writes_of_cover _ _ _ _ _ (coverA_T m c t h0)).trans (scrAt_A_T m c t h0).symm
      isplitl [HS1]
      · unfold owns; iexists _; isplitr; swap; · iexact HS1
        ipureintro; exact (View.read_writes_of_cover _ _ _ _ _ (coverA_S m c t h0)).trans (scrAt_A_S m c t h0).symm
      unfold owns; iexists _; isplitr; swap; · iexact HS2
      ipureintro; exact (View.read_writes_of_cover _ _ _ _ _ (coverA_Q m c t h0)).trans (scrAt_A_Q m c t h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- Points 1 to 14: the scratch buffers come at what the point before left. -/
theorem body_B (c : Dev nD) (t : Fin cfg0.N) (h0 : ¬t.val % 16 = 0) (h3 : ¬t.val % 16 = 15) (y7 : Vec F S4096x512 .f32) :
    bodyPre m c t y7 ⊢ wp frame (wpE (defs₀ (F := F)) Variants.none c none) Set.univ (bodyAt0 t) (fun _ => bodyPost m c t y7) := by
  have hN := lt16 t
  have hz : t.val ≠ 0 := by omega
  unfold bodyPre bodyAt0
  rw [inv_pos m c _ _ hz]
  iintro ⟨⟨⟨HS0, HS1, HS2⟩, Hg⟩, Ho, H0, H1, H2, H3, H4, H5, H6, H7⟩
  iapply ((atB m c t h0 h3 (scrBefore m c t).1 (scrBefore m c t).2.1 (scrBefore m c t).2.2).2.2 y7).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, ⟨%f10, HS1⟩, ⟨%f11, HS2⟩⟩
  iapply post_of m c t y7 _ (outAt_B m c t h0 h3 y7)
  isplitl [HS0 HS1 HS2 Hg]
  · isplitl [HS0 HS1 HS2]
    · isplitl [HS0]
      · rw [scrAt_B_T m c t h0 h3]; iexact HS0
      isplitl [HS1]
      · unfold owns; iexists _; isplitr; swap; · iexact HS1
        ipureintro; exact (View.read_writes_of_cover _ _ _ _ _ (coverB_S m c t h0 h3 _ _ _)).trans (scrAt_B_S m c t h0 h3).symm
      unfold owns; iexists _; isplitr; swap; · iexact HS2
      ipureintro; exact (View.read_writes_of_cover _ _ _ _ _ (coverB_Q m c t h0 h3 _ _ _)).trans (scrAt_B_Q m c t h0 h3).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- Point 15, likewise. -/
theorem body_C (c : Dev nD) (t : Fin cfg0.N) (h3 : t.val % 16 = 15) (y7 : Vec F S4096x512 .f32) :
    bodyPre m c t y7 ⊢ wp frame (wpE (defs₀ (F := F)) Variants.none c none) Set.univ (bodyAt0 t) (fun _ => bodyPost m c t y7) := by
  have hN := lt16 t
  have hz : t.val ≠ 0 := by omega
  have h0 : ¬t.val % 16 = 0 := by omega
  unfold bodyPre bodyAt0
  rw [inv_pos m c _ _ hz]
  iintro ⟨⟨⟨HS0, HS1, HS2⟩, Hg⟩, Ho, H0, H1, H2, H3, H4, H5, H6, H7⟩
  iapply ((atC m c t h3 (scrBefore m c t).1 (scrBefore m c t).2.1 (scrBefore m c t).2.2).2.2 y7).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, ⟨%f10, HS1⟩, ⟨%f11, HS2⟩⟩
  iapply post_of m c t y7 _ (outAt_C m c t h0 h3 y7)
  isplitl [HS0 HS1 HS2 Hg]
  · isplitl [HS0 HS1 HS2]
    · isplitl [HS0]
      · rw [scrAt_C_T m c t h3]; iexact HS0
      isplitl [HS1]
      · unfold owns; iexists _; isplitr; swap; · iexact HS1
        ipureintro; exact (View.read_writes_of_cover _ _ _ _ _ (coverC_S m c t h3 _ _ _)).trans (scrAt_C_S m c t h3).symm
      unfold owns; iexists _; isplitr; swap; · iexact HS2
      ipureintro; exact (View.read_writes_of_cover _ _ _ _ _ (coverC_Q m c t h3 _ _ _)).trans (scrAt_C_Q m c t h3).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point, from buffers known to hold the inputs' blocks. -/
theorem sound_body (c : Dev nD) (t : Fin cfg0.N)
    (y0 : Vec F S256x4096 .f32) (y1 : Vec F S4096x512 .f32) (y2 : Vec F S256x512 .f32) (y3 : Vec F S1024x512 .f32)
    (y4 : Vec F S1x512 .f32) (y5 : Vec F S1x512 .f32) (y6 : Vec F S1x512 .f32) (y7 : Vec F S4096x512 .f32)
    (e0 : y0 = iblk m c 0 t) (e1 : y1 = iblk m c 1 t) (e2 : y2 = iblk m c 2 t) (e3 : y3 = iblk m c 3 t)
    (e4 : y4 = iblk m c 4 t) (e5 : y5 = iblk m c 5 t) (e6 : y6 = iblk m c 6 t) :
    iprop((rdat m c).Φ t.castSucc ∗ (rdat m c).owesAt () t.castSucc
    ∗ owns (c : Thread nD τ) (stg0 t) fullShare y0
    ∗ owns (c : Thread nD τ) (stg1 t) fullShare y1
    ∗ owns (c : Thread nD τ) (stg2 t) fullShare y2
    ∗ owns (c : Thread nD τ) (stg3 t) fullShare y3
    ∗ owns (c : Thread nD τ) (stg4 t) fullShare y4
    ∗ owns (c : Thread nD τ) (stg5 t) fullShare y5
    ∗ owns (c : Thread nD τ) (stg6 t) fullShare y6
    ∗ owns (c : Thread nD τ) (stg7 t) fullShare y7)
      ⊢ wp frame (wpE (defs₀ (F := F)) Variants.none c none) Set.univ (bodyAt0 t) (fun _ =>
          iprop((rdat m c).Φ t.succ ∗ (rdat m c).owesAt () t.succ
    ∗ (∃ X, ⌜(rdat m c).after 0 t y0 X⌝ ∗ owns (c : Thread nD τ) (stg0 t) fullShare X)
    ∗ (∃ X, ⌜(rdat m c).after 1 t y1 X⌝ ∗ owns (c : Thread nD τ) (stg1 t) fullShare X)
    ∗ (∃ X, ⌜(rdat m c).after 2 t y2 X⌝ ∗ owns (c : Thread nD τ) (stg2 t) fullShare X)
    ∗ (∃ X, ⌜(rdat m c).after 3 t y3 X⌝ ∗ owns (c : Thread nD τ) (stg3 t) fullShare X)
    ∗ (∃ X, ⌜(rdat m c).after 4 t y4 X⌝ ∗ owns (c : Thread nD τ) (stg4 t) fullShare X)
    ∗ (∃ X, ⌜(rdat m c).after 5 t y5 X⌝ ∗ owns (c : Thread nD τ) (stg5 t) fullShare X)
    ∗ (∃ X, ⌜(rdat m c).after 6 t y6 X⌝ ∗ owns (c : Thread nD τ) (stg6 t) fullShare X)
    ∗ (∃ X, ⌜(rdat m c).after 7 t y7 X⌝ ∗ owns (c : Thread nD τ) (stg7 t) fullShare X))) := by
  subst e0 e1 e2 e3 e4 e5 e6
  by_cases h0 : t.val % 16 = 0
  · exact body_A m c t h0 y7
  · by_cases h3 : t.val % 16 = 15
    · exact body_C m c t h3 y7
    · exact body_B m c t h0 h3 y7

/-- What the launch hands the region is the invariant before the first point. -/
theorem inv_in (c : Dev nD) : Pipeline.ΦA spec0 c ⊢ (rdat m c).Φ 0 := by
  rw [show (rdat m c).Φ 0 = inv m c 0 (Nat.zero_le _) from rfl, inv_zero m c 0 _ rfl]

/-- After the last point the invariant gives the launch's back: the scratch contents are forgotten. -/
theorem inv_out (c : Dev nD) : (rdat m c).Φ (Fin.last cfg0.N) ⊢ Pipeline.ΦA spec0 c := by
  have hN : (Fin.last cfg0.N).val ≠ 0 := by rw [Fin.val_last]; have : cfg0.N = 16 := N_0; omega
  rw [rdat_Φ, inv_pos m c _ _ hN, launchInv_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The body obligation, at every point. -/
theorem body_obligation (c : Dev nD) : (rdat (F := F) m c).BodyObligation (defs₀ (F := F)) Variants.none () Set.univ := by
  unfold RDat.BodyObligation
  intro t Y hY
  rw [bigSep_W0, bigSep_W0]
  exact sound_body m c t (Y 0) (Y 1) (Y 2) (Y 3) (Y 4) (Y 5) (Y 6) (Y 7)
    (finds_0 m c t _ (hY 0)) (finds_1 m c t _ (hY 1)) (finds_2 m c t _ (hY 2)) (finds_3 m c t _ (hY 3))
    (finds_4 m c t _ (hY 4)) (finds_5 m c t _ (hY 5)) (finds_6 m c t _ (hY 6))

end Cert.Kernel.Hand

end
-- ==== Proof.KB.Main.lean ====
/-
  The kernel program's run: every weakly fair execution of @main terminates without a fault; each input array ends as it
  began, and the result array ends at contents the pipeline's proof data allows after the sixteen points.
-/
import proofs.«180622_g18880676233904_cont_8to1_729_6_alg».proof.Proof.KB.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main to the relational post: each windowed array at contents allowed after every write-back, every other
    unscoped buffer as the region found it. -/
theorem run_main : θ_run defs (onTc (τ := τ) (main (F := F))) (s₀ m ρ) (Pipeline.RDat.FramePost (cfgs 0) (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := rdat_A m) (hin := inv_in m) (hout := inv_out m)

/-- The seven argument arrays end unchanged: the four staged ones by the relational post read at an input window, the
    three reshaped rows' sources because no window stages them. -/
theorem args_kept (r : PUnit × MemSt nD τ sig (Elt F)) (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(Pipeline.RDat.FramePost.arr_in h c 1 rfl).trans ((rdat_A m c 1).trans (V_main_arg0 m c)),
    (Pipeline.RDat.FramePost.arr_in h c 2 rfl).trans ((rdat_A m c 2).trans (V_main_arg1 m c)),
    (Pipeline.RDat.FramePost.arr_in h c 0 rfl).trans ((rdat_A m c 0).trans (V_main_arg2 m c)),
    (Pipeline.RDat.FramePost.arr_in h c 3 rfl).trans ((rdat_A m c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_main m ρ)

end Cert.Kernel.Hand

end
-- ==== Proof.KI.Shared.lean ====
/-
  What every case of the kernel body's run is stated over: which of the body's four conditionals a grid point takes
  (decided once over the sixteen points), the staging memref each window hands the body at a point, the three
  scratch buffers the body keeps between points (the staged product x1 W1, the running column sums of y and of y squared),
  and the launch's invariant opened on those three.
-/
import proofs.«180622_g18880676233904_cont_8to1_729_6_alg».proof.Proof.Gen.KernelIdeal.Frame
import proofs.«180622_g18880676233904_cont_8to1_729_6_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The four conditionals, by grid point -/

/-- The body stages x1 W1 into its first scratch: taken at point 0 only. -/
abbrev atFirst (i : grid0.Coords) : Prop := (Scalar.cmpi .ne (Scalar.extui (Scalar.cmpi .eq (BitVec.ofNat 32 (i 0).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The body adds this block's column sums to the running ones: taken from point 1 on. -/
abbrev pastFirst (i : grid0.Coords) : Prop := (Scalar.cmpi .ne (Scalar.extui (Scalar.cmpi .sgt (BitVec.ofNat 32 (i 0).val) 0#32)) 0#32) = 1#1
theorem pastFirst_iff : ∀ t : Fin cfg0.N, pastFirst (grid0.coords t) ↔ 1 ≤ t.val :=
  (by decide +kernel : ∀ t : Fin grid0.N, pastFirst (grid0.coords t) ↔ 1 ≤ t.val)

/-- The body normalizes the whole resident output: taken at point 15 only. -/
abbrev atLast (i : grid0.Coords) : Prop := (Scalar.cmpi .ne (Scalar.extui (Scalar.cmpi .eq (BitVec.ofNat 32 (i 0).val) 15#32)) 0#32) = 1#1
theorem atLast_iff : ∀ t : Fin cfg0.N, atLast (grid0.coords t) ↔ t.val % 16 = 15 :=
  (by decide +kernel : ∀ t : Fin grid0.N, atLast (grid0.coords t) ↔ t.val % 16 = 15)

/-! ## The memrefs the body is called with -/

abbrev stg0 (t : Fin cfg0.N) : Memref sig .tc .vmem S256x4096 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S4096x512 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S256x512 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1024x512 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S1x512 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x512 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S1x512 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S4096x512 .f32 := win0_7.stage (cfg0.slots t 7)
abbrev hstg7 (t : Fin cfg0.N) : (stg7 t).IsWhole := hstage0_7 ((cfg0.slots t 7).cast nbuf0_7)

/-- The scratch holding the staged product x1 W1, -/
abbrev scT : Memref sig .tc .vmem S4096x512 .bf16 := Memref.whole cc0_scratch0
/-- the running column sums of y, -/
abbrev scSum : Memref sig .tc .vmem S1x512 .f32 := Memref.whole cc0_scratch1
/-- and of y squared. -/
abbrev scSq : Memref sig .tc .vmem S1x512 .f32 := Memref.whole cc0_scratch2

/-- What the launch hands the region, with the three scratch buffers as whole memrefs owned at some contents. -/
theorem launchInv_eq (c : Dev nD) :
    (Pipeline.ΦA spec0 c : sProp 𝕄)
      = iprop(iprop((∃ d, owns (c : Thread nD τ) scT fullShare d) ∗ (∃ d, owns (c : Thread nD τ) scSum fullShare d) ∗ (∃ d, owns (c : Thread nD τ) scSq fullShare d)) ∗ (∃ r, prngReg c r)) := by
  unfold Pipeline.ΦA; rw [scopedRest0_eq]; simp only [scT, scSum, scSq, owns_whole]; try rfl

end Cert.KernelIdeal.Hand

end
-- ==== Proof.KI.RunA.lean ====
/-
  The kernel body at the first grid point: x1 W1 is staged, the block of y is stored and the column sums are started.
  The run hands back each buffer it stores into as the list of its stores (latest first) over what the buffer held.
  The scratch buffers' stores do not depend on what the resident output was found with, so they are named first;
  the output's stores are named for each contents y0 it may be found with, over y0, so that the rows this point
  does not touch are known to be kept.
-/
import proofs.«180622_g18880676233904_cont_8to1_729_6_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 4000000 in
/-- The stores of the body, with the proof that the body runs to any
    continuation that accepts the buffers so written. -/
noncomputable def runA (c : Dev nD) (i : grid0.Coords) (arg1 : Memref sig .tc .vmem S256x4096 .f32) (harg1 : arg1.IsWhole) (arg2 : Memref sig .tc .vmem S4096x512 .f32) (harg2 : arg2.IsWhole) (arg3 : Memref sig .tc .vmem S256x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hFirst : atFirst i) (hPast : ¬pastFirst i) (hLast : ¬atLast i)
    (x0 : Vec F S256x4096 .f32) (x1 : Vec F S4096x512 .f32) (x2 : Vec F S256x512 .f32) (x3 : Vec F S1024x512 .f32) (x4 : Vec F S1x512 .f32) (x5 : Vec F S1x512 .f32) (x6 : Vec F S1x512 .f32) :
    Σ' (LT : List (View.Piece (Elt F) S4096x512 .bf16)), Σ' (LS : List (View.Piece (Elt F) S1x512 .f32)), Σ' (LQ : List (View.Piece (Elt F) S1x512 .f32)), ∀ (y0 : Vec F S4096x512 .f32), { LO : List (View.Piece (Elt F) S4096x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y0 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y0) LO) ∗ (∃ f, arg9.view.loc (c : Thread nD τ) ↦[arg9.view.set]{fullShare} arg9.view.writes (Elt F) f LT) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun y0 => ⟨?_, fun E K => ?run⟩⟩
  case run =>
    simp only [cc0__fused_kernel_eq_skeleton]; unfold cc0__fused_kernel_skel
    simp only [k0_part6_eq_skeleton, k0_part1_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%d9, %g9, -, H9⟩, ⟨%d10, %g10, -, H10⟩, ⟨%d11, %g11, -, H11⟩, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8
    sl_exec (disch := first | exact hFirst | exact hPast | exact hLast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexists _; iexact H9
    isplitl [H10]; · iexists _; iexact H10
    iexists _; iexact H11

end Cert.KernelIdeal.Hand

end
-- ==== Proof.KI.RunB.lean ====
/-
  The kernel body at a middle grid point (1 to 14): the block of y is stored and the column sums are advanced.
  The run hands back each buffer it stores into as the list of its stores (latest first) over what the buffer held.
  The scratch buffers' stores do not depend on what the resident output was found with, so they are named first;
  the output's stores are named for each contents y0 it may be found with, over y0, so that the rows this point
  does not touch are known to be kept.
-/
import proofs.«180622_g18880676233904_cont_8to1_729_6_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 4000000 in
/-- The stores of the body, from scratch contents t0 (the staged product), s0 and q0 (the running sums), with the proof that the body runs to any
    continuation that accepts the buffers so written. -/
noncomputable def runB (c : Dev nD) (i : grid0.Coords) (arg1 : Memref sig .tc .vmem S256x4096 .f32) (harg1 : arg1.IsWhole) (arg2 : Memref sig .tc .vmem S4096x512 .f32) (harg2 : arg2.IsWhole) (arg3 : Memref sig .tc .vmem S256x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hFirst : ¬atFirst i) (hPast : pastFirst i) (hLast : ¬atLast i)
    (x0 : Vec F S256x4096 .f32) (x1 : Vec F S4096x512 .f32) (x2 : Vec F S256x512 .f32) (x3 : Vec F S1024x512 .f32) (x4 : Vec F S1x512 .f32) (x5 : Vec F S1x512 .f32) (x6 : Vec F S1x512 .f32) (t0 : Vec F S4096x512 .bf16) (s0 : Vec F S1x512 .f32) (q0 : Vec F S1x512 .f32) :
    Σ' (LS : List (View.Piece (Elt F) S1x512 .f32)), Σ' (LQ : List (View.Piece (Elt F) S1x512 .f32)), ∀ (y0 : Vec F S4096x512 .f32), { LO : List (View.Piece (Elt F) S4096x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y0 ∗ owns (c : Thread nD τ) arg9 fullShare t0 ∗ owns (c : Thread nD τ) arg10 fullShare s0 ∗ owns (c : Thread nD τ) arg11 fullShare q0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y0) LO) ∗ owns (c : Thread nD τ) arg9 fullShare t0 ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, fun y0 => ⟨?_, fun E K => ?run⟩⟩
  case run =>
    simp only [cc0__fused_kernel_eq_skeleton]; unfold cc0__fused_kernel_skel
    simp only [k0_part6_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11
    sl_exec (disch := first | exact hFirst | exact hPast | exact hLast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    isplitl [H10]; · iexists _; iexact H10
    iexists _; iexact H11

end Cert.KernelIdeal.Hand

end
-- ==== Proof.KI.RunC.lean ====
/-
  The kernel body at the last grid point: the block of y is stored, the column sums are completed, and every block of the resident output is normalized and clamped at zero.
  The run hands back each buffer it stores into as the list of its stores (latest first) over what the buffer held.
  The scratch buffers' stores do not depend on what the resident output was found with, so they are named first;
  the output's stores are named for each contents y0 it may be found with, over y0, so that the rows this point
  does not touch are known to be kept.
-/
import proofs.«180622_g18880676233904_cont_8to1_729_6_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 4000000 in
/-- The stores of the body, from scratch contents t0 (the staged product), s0 and q0 (the running sums), with the proof that the body runs to any
    continuation that accepts the buffers so written. -/
noncomputable def runC (c : Dev nD) (i : grid0.Coords) (arg1 : Memref sig .tc .vmem S256x4096 .f32) (harg1 : arg1.IsWhole) (arg2 : Memref sig .tc .vmem S4096x512 .f32) (harg2 : arg2.IsWhole) (arg3 : Memref sig .tc .vmem S256x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hFirst : ¬atFirst i) (hPast : pastFirst i) (hLast : atLast i)
    (x0 : Vec F S256x4096 .f32) (x1 : Vec F S4096x512 .f32) (x2 : Vec F S256x512 .f32) (x3 : Vec F S1024x512 .f32) (x4 : Vec F S1x512 .f32) (x5 : Vec F S1x512 .f32) (x6 : Vec F S1x512 .f32) (t0 : Vec F S4096x512 .bf16) (s0 : Vec F S1x512 .f32) (q0 : Vec F S1x512 .f32) :
    Σ' (LS : List (View.Piece (Elt F) S1x512 .f32)), Σ' (LQ : List (View.Piece (Elt F) S1x512 .f32)), ∀ (y0 : Vec F S4096x512 .f32), { LO : List (View.Piece (Elt F) S4096x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y0 ∗ owns (c : Thread nD τ) arg9 fullShare t0 ∗ owns (c : Thread nD τ) arg10 fullShare s0 ∗ owns (c : Thread nD τ) arg11 fullShare q0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y0) LO) ∗ owns (c : Thread nD τ) arg9 fullShare t0 ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, fun y0 => ⟨?_, fun E K => ?run⟩⟩
  case run =>
    simp only [cc0__fused_kernel_eq_skeleton]; unfold cc0__fused_kernel_skel
    simp only [k0_part6_eq_skeleton, k0_part2_eq_skeleton, k0_part3_eq_skeleton, k0_part4_eq_skeleton, k0_part5_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11
    sl_exec (disch := first | exact hFirst | exact hPast | exact hLast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    isplitl [H10]; · iexists _; iexact H10
    iexists _; iexact H11

end Cert.KernelIdeal.Hand

end
-- ==== Proof.KI.Frame.lean ====
/-
  The kernel's pipeline as one induction over its sixteen grid points.

  Between points the body keeps three scratch buffers (the product x1 W1 staged at point 0, and the running column sums
  of y and of y squared) and the output's one staging buffer, which is resident: point t stores rows 256 t .. 256 t + 255
  of y into it, and point 15 then rewrites every row by the normalization. The scratch contents after each point are
  functions of the inputs alone (scrAt, by recursion on the point); what a point makes of the resident buffer is a
  function of what it found there (outAt), because the rows it does not store are kept. The pipeline's proof data is
  therefore relational: an input's buffer is left as found, the output's buffer goes from Y to outAt t Y.
-/
import proofs.«180622_g18880676233904_cont_8to1_729_6_alg».proof.Proof.KI.RunA
import proofs.«180622_g18880676233904_cont_8to1_729_6_alg».proof.Proof.KI.RunB
import proofs.«180622_g18880676233904_cont_8to1_729_6_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt16 (t : Fin cfg0.N) : t.val < 16 := lt_of_lt_of_eq t.isLt (show cfg0.N = 16 from N_0)

/-! ## The body's run at a point, case by case -/

/-- Point 0. -/
abbrev atA (c : Dev nD) (t : Fin cfg0.N) (h0 : t.val % 16 = 0) :=
  runA (F := F) c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scT (Memref.isWhole_whole _) scSum (Memref.isWhole_whole _) scSq (Memref.isWhole_whole _)
    ((atFirst_iff t).mpr h0) (fun h => by have := (pastFirst_iff t).mp h; have := lt16 t; omega) (fun h => by have := (atLast_iff t).mp h; omega)
    (iblk m c 0 t) (iblk m c 1 t) (iblk m c 2 t) (iblk m c 3 t) (iblk m c 4 t) (iblk m c 5 t) (iblk m c 6 t)

/-- Points 1 to 14, from the scratch contents the point before left. -/
abbrev atB (c : Dev nD) (t : Fin cfg0.N) (h0 : ¬t.val % 16 = 0) (h3 : ¬t.val % 16 = 15)
    (t0 : Vec F S4096x512 .bf16) (s0 : Vec F S1x512 .f32) (q0 : Vec F S1x512 .f32) :=
  runB (F := F) c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scT (Memref.isWhole_whole _) scSum (Memref.isWhole_whole _) scSq (Memref.isWhole_whole _)
    (fun h => h0 ((atFirst_iff t).mp h)) ((pastFirst_iff t).mpr (by omega)) (fun h => h3 ((atLast_iff t).mp h))
    (iblk m c 0 t) (iblk m c 1 t) (iblk m c 2 t) (iblk m c 3 t) (iblk m c 4 t) (iblk m c 5 t) (iblk m c 6 t) t0 s0 q0

/-- Point 15, likewise. -/
abbrev atC (c : Dev nD) (t : Fin cfg0.N) (h3 : t.val % 16 = 15)
    (t0 : Vec F S4096x512 .bf16) (s0 : Vec F S1x512 .f32) (q0 : Vec F S1x512 .f32) :=
  runC (F := F) c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scT (Memref.isWhole_whole _) scSum (Memref.isWhole_whole _) scSq (Memref.isWhole_whole _)
    (fun h => by have := (atFirst_iff t).mp h; omega) ((pastFirst_iff t).mpr (by omega)) ((atLast_iff t).mpr h3)
    (iblk m c 0 t) (iblk m c 1 t) (iblk m c 2 t) (iblk m c 3 t) (iblk m c 4 t) (iblk m c 5 t) (iblk m c 6 t) t0 s0 q0

/-! ## What the scratch buffers hold after each point -/

/-- The staged product, the running sum and the running sum of squares after the body at point n. -/
def scrAt (c : Dev nD) : (n : ℕ) → n < cfg0.N → Vec F S4096x512 .bf16 × Vec F S1x512 .f32 × Vec F S1x512 .f32
  | 0, hn =>
    (scT.view.read (Elt F) (scT.view.writes (Elt F) scT.view.junk (atA m c ⟨0, hn⟩ (Nat.zero_mod _)).1),
     scSum.view.read (Elt F) (scSum.view.writes (Elt F) scSum.view.junk (atA m c ⟨0, hn⟩ (Nat.zero_mod _)).2.1),
     scSq.view.read (Elt F) (scSq.view.writes (Elt F) scSq.view.junk (atA m c ⟨0, hn⟩ (Nat.zero_mod _)).2.2.1))
  | n + 1, hn =>
    if h3 : (n + 1) % 16 = 15 then
      ((scrAt c n (Nat.lt_of_succ_lt hn)).1,
       scSum.view.read (Elt F) (scSum.view.writes (Elt F) scSum.view.junk (atC m c ⟨n + 1, hn⟩ h3 (scrAt c n (Nat.lt_of_succ_lt hn)).1 (scrAt c n (Nat.lt_of_succ_lt hn)).2.1 (scrAt c n (Nat.lt_of_succ_lt hn)).2.2).1),
       scSq.view.read (Elt F) (scSq.view.writes (Elt F) scSq.view.junk (atC m c ⟨n + 1, hn⟩ h3 (scrAt c n (Nat.lt_of_succ_lt hn)).1 (scrAt c n (Nat.lt_of_succ_lt hn)).2.1 (scrAt c n (Nat.lt_of_succ_lt hn)).2.2).2.1))
    else
      ((scrAt c n (Nat.lt_of_succ_lt hn)).1,
       scSum.view.read (Elt F) (scSum.view.writes (Elt F) scSum.view.junk (atB m c ⟨n + 1, hn⟩ (by have : n + 1 < 16 := lt_of_lt_of_eq hn (show cfg0.N = 16 from N_0); show ¬(n + 1) % 16 = 0; omega) h3 (scrAt c n (Nat.lt_of_succ_lt hn)).1 (scrAt c n (Nat.lt_of_succ_lt hn)).2.1 (scrAt c n (Nat.lt_of_succ_lt hn)).2.2).1),
       scSq.view.read (Elt F) (scSq.view.writes (Elt F) scSq.view.junk (atB m c ⟨n + 1, hn⟩ (by have : n + 1 < 16 := lt_of_lt_of_eq hn (show cfg0.N = 16 from N_0); show ¬(n + 1) % 16 = 0; omega) h3 (scrAt c n (Nat.lt_of_succ_lt hn)).1 (scrAt c n (Nat.lt_of_succ_lt hn)).2.1 (scrAt c n (Nat.lt_of_succ_lt hn)).2.2).2.1))

/-- The scratch contents a point after the first starts from. -/
abbrev scrBefore (c : Dev nD) (t : Fin cfg0.N) := scrAt m c (t.val - 1) (Nat.lt_of_le_of_lt (Nat.sub_le _ _) t.isLt)

/-! ## What a point makes of the resident output buffer -/

/-- The output's staging buffer after the body at point t, if it held Y before: the point's stores over Y. -/
def outAt (c : Dev nD) (t : Fin cfg0.N) (Y : Vec F S4096x512 .f32) : Vec F S4096x512 .f32 :=
  if h0 : t.val % 16 = 0 then
    (stg7 t).view.read (Elt F) ((stg7 t).view.writes (Elt F) ((hstg7 t).unread Y) ((atA m c t h0).2.2.2 Y).1)
  else if h3 : t.val % 16 = 15 then
    (stg7 t).view.read (Elt F) ((stg7 t).view.writes (Elt F) ((hstg7 t).unread Y)
      ((atC m c t h3 (scrBefore m c t).1 (scrBefore m c t).2.1 (scrBefore m c t).2.2).2.2 Y).1)
  else
    (stg7 t).view.read (Elt F) ((stg7 t).view.writes (Elt F) ((hstg7 t).unread Y)
      ((atB m c t h0 h3 (scrBefore m c t).1 (scrBefore m c t).2.1 (scrBefore m c t).2.2).2.2 Y).1)

/-! ## The invariant and the proof data -/

/-- Before the first point the scratch buffers hold anything; before point n + 1 they hold what point n left. -/
def inv (c : Dev nD) : (n : ℕ) → n ≤ cfg0.N → sProp 𝕄
  | 0, _ => Pipeline.ΦA spec0 c
  | n + 1, hn => iprop(iprop(owns (c : Thread nD τ) scT fullShare (scrAt m c n hn).1 ∗ owns (c : Thread nD τ) scSum fullShare (scrAt m c n hn).2.1 ∗ owns (c : Thread nD τ) scSq fullShare (scrAt m c n hn).2.2) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scT fullShare (scrAt m c n hn).1 ∗ owns (c : Thread nD τ) scSum fullShare (scrAt m c n hn).2.1 ∗ owns (c : Thread nD τ) scSq fullShare (scrAt m c n hn).2.2) ∗ (∃ r, prngReg c r)) := rfl

theorem inv_pos (c : Dev nD) (n : ℕ) (h : n ≤ cfg0.N) (hz : n ≠ 0) :
    inv m c n h = iprop(iprop(owns (c : Thread nD τ) scT fullShare (scrAt m c (n - 1) (by omega)).1 ∗ owns (c : Thread nD τ) scSum fullShare (scrAt m c (n - 1) (by omega)).2.1 ∗ owns (c : Thread nD τ) scSq fullShare (scrAt m c (n - 1) (by omega)).2.2) ∗ (∃ r, prngReg c r)) := by
  cases n with
  | zero => exact absurd rfl hz
  | succ n => rfl

/-- The output window's relation: what the point leaves is its stores over what it found. -/
def outRel (c : Dev nD) : (w : Fin cfg0.W) → Option (Fin cfg0.N → (Y X : (cfg0.win w).block.Idx → Elt F (cfg0.win w).elt) → Prop)
  | ⟨7, _⟩ => some fun t Y X => X = outAt m c t Y
  | _ => none

/-- The proof data on core c: the arrays as the region finds them; every input buffer left as found; the output buffer
    by outRel; the scratch in the invariant; full shares, nothing owed. -/
def rdat (c : Dev nD) : RDat τ (Elt F) Unit ℕ (UR sig nD τ) ℕ cfg0 c :=
  ({ A := fun w => V m c (Pipeline.arrRef spec0 w)
     after := fun _ _ Y X => X = Y
     Φ := fun t => inv m c t.val (Nat.le_of_lt_succ t.isLt)
     q := fun _ => fullShare
     owed := fun _ => 0 } : RDat τ (Elt F) Unit ℕ (UR sig nD τ) ℕ cfg0 c).override (outRel m c)

theorem rdat_A (c : Dev nD) (w : Fin cfg0.W) : (rdat m c).A w = V m c (Pipeline.arrRef spec0 w) := rfl

theorem rdat_Φ (c : Dev nD) (t : Fin (cfg0.N + 1)) : (rdat m c).Φ t = inv m c t.val (Nat.le_of_lt_succ t.isLt) := rfl

/-- Every window but the output's keeps the base relation. -/
theorem outRel_in (c : Dev nD) (w : Fin cfg0.W) (hw : w.val ≠ 7) : outRel m c w = none := by
  obtain ⟨k, hk⟩ := w
  match k, hk, hw with
  | 0, _, _ => rfl
  | 1, _, _ => rfl
  | 2, _, _ => rfl
  | 3, _, _ => rfl
  | 4, _, _ => rfl
  | 5, _, _ => rfl
  | 6, _, _ => rfl
  | 7, _, hw => exact absurd rfl hw
  | k + 8, hk, _ => exact absurd hk (by show ¬(k + 8 < 8); omega)

theorem rdat_after_in (c : Dev nD) (w : Fin cfg0.W) (hw : w.val ≠ 7) (t : Fin cfg0.N) (Y X : (cfg0.win w).block.Idx → Elt F (cfg0.win w).elt) :
    (rdat m c).after w t Y X ↔ X = Y := by
  unfold rdat
  rw [RDat.override_after_of_eq_none _ (outRel_in m c w hw)]

theorem rdat_after_out (c : Dev nD) (t : Fin cfg0.N) (Y X : Vec F S4096x512 .f32) :
    (rdat m c).after 7 t Y X ↔ X = outAt m c t Y := by
  unfold rdat
  rw [RDat.override_after_of_eq_some _ (show outRel m c 7 = some (fun t Y X => X = outAt m c t Y) from rfl)]

end Cert.KernelIdeal.Hand

end
-- ==== Proof.Spec.lean ====
/-
  The mathematics both programs compute, as functions of the seven argument arrays over the extended reals.

  With am [4096,4096], x1 and x2 [4096,512], W [1024,512] (rows 0..511 called W1, rows 512..1023 called W2) and
  b, gamma, beta [512]:  y = am (x1 W1) + x2 W2 + b in the kernel's grouping, y = concat(am x1, x2) W + b in the
  reference's; each column of y is then normalized by its mean and biased variance over the 4096 rows, scaled by
  gamma, shifted by beta and clamped at zero. The kernel takes the variance as E[y^2] - E[y]^2, multiplies by the
  reciprocal square root and folds mean and scale into one multiply-add; the reference centres first and divides by
  the square root. Over finite inputs these are one function (outK_eq_outR, Proof/SpecLaw.lean).
-/
import Idealize.ShloMosaic.PureOps.Ideal
import Idealize.ShloMosaic.Lib.ValueIdx

noncomputable section

namespace Cert.Spec

open Idealize.ShloMosaic

/-- The word both programs print for 1e-5, -/
abbrev eps : EReal := Ideal.ofBits .f32 0x3727C5AC#32
/-- the kernel's 2^-12, -/
abbrev invN : EReal := Ideal.ofBits .f32 0x39800000#32
/-- and the reference's 4096. -/
abbrev nF : EReal := Ideal.ofBits .f32 0x45800000#32

/-- Row l of W1 is row l of W; -/
def loW (l : Fin 512) : Fin 1024 := ⟨l.val, by omega⟩
/-- row l of W2 is row 512 + l of W. -/
def hiW (l : Fin 512) : Fin 1024 := ⟨512 + l.val, by omega⟩

section
variable (am : Fin 4096 → Fin 4096 → EReal) (x1 x2 : Fin 4096 → Fin 512 → EReal) (W : Fin 1024 → Fin 512 → EReal)
  (b g be : Fin 512 → EReal)

/-- The product x1 W1 the kernel stages once. -/
def tK (k : Fin 4096) (c : Fin 512) : EReal := ∑ l : Fin 512, x1 k l * W (loW l) c

/-- The affine layer in the kernel's grouping. -/
def yK (r : Fin 4096) (c : Fin 512) : EReal :=
  (∑ k : Fin 4096, am r k * tK x1 W k c + ∑ l : Fin 512, x2 r l * W (hiW l) c) + b c

/-- The aggregated features am x1, -/
def hR (r : Fin 4096) (l : Fin 512) : EReal := ∑ k : Fin 4096, am r k * x1 k l
/-- joined with x2 along the columns, -/
def catR (r : Fin 4096) (l : Fin 1024) : EReal :=
  if h : l.val < 512 then hR am x1 r ⟨l.val, h⟩ else x2 r ⟨l.val - 512, by omega⟩
/-- and the affine layer in the reference's grouping. -/
def yR (r : Fin 4096) (c : Fin 512) : EReal := (∑ l : Fin 1024, catR am x1 x2 r l * W l c) + b c

end

/-- The kernel's normalization of an array y: column mean and mean of squares by the factor 2^-12, variance as
    their difference, one multiply-add per entry. -/
def normK (y : Fin 4096 → Fin 512 → EReal) (g be : Fin 512 → EReal) (r : Fin 4096) (c : Fin 512) : EReal :=
  max (y r c * (Ideal.rsqrt ((((∑ r', y r' c * y r' c) * invN) - ((∑ r', y r' c) * invN) * ((∑ r', y r' c) * invN)) + eps) * g c)
      + (be c - ((∑ r', y r' c) * invN) * (Ideal.rsqrt ((((∑ r', y r' c * y r' c) * invN) - ((∑ r', y r' c) * invN) * ((∑ r', y r' c) * invN)) + eps) * g c))) 0

/-- The reference's: centre by the mean, divide by the square root of the centred second moment plus eps. -/
def normR (y : Fin 4096 → Fin 512 → EReal) (g be : Fin 512 → EReal) (r : Fin 4096) (c : Fin 512) : EReal :=
  max (Ideal.div (y r c - Ideal.div (∑ r', y r' c) nF)
        (Ideal.sqrt (Ideal.div (∑ r', (y r' c - Ideal.div (∑ r'', y r'' c) nF) * (y r' c - Ideal.div (∑ r'', y r'' c) nF)) nF + eps)) * g c + be c) 0

/-- What the kernel leaves in its result, -/
def outK (am : Fin 4096 → Fin 4096 → EReal) (x1 x2 : Fin 4096 → Fin 512 → EReal) (W : Fin 1024 → Fin 512 → EReal)
    (b g be : Fin 512 → EReal) : Fin 4096 → Fin 512 → EReal := normK (yK am x1 x2 W b) g be
/-- and the reference in its. -/
def outR (am : Fin 4096 → Fin 4096 → EReal) (x1 x2 : Fin 4096 → Fin 512 → EReal) (W : Fin 1024 → Fin 512 → EReal)
    (b g be : Fin 512 → EReal) : Fin 4096 → Fin 512 → EReal := normR (yR am x1 x2 W b) g be

/-- Every entry of a two-axis array is a real number. -/
def Real2 {A B : Type} (f : A → B → EReal) : Prop := ∀ i j, ∃ a : ℝ, f i j = (a : EReal)
/-- Every entry of a one-axis array is a real number. -/
def Real1 {A : Type} (f : A → EReal) : Prop := ∀ i, ∃ a : ℝ, f i = (a : EReal)

/-! ## Arrays of the printed shapes as functions of coordinates -/

/-- A [n0, n1] array by row and column. -/
def arr2 {n0 n1 : Nat} (f : (⟨2, ![n0, n1]⟩ : Shape).Idx → EReal) : Fin n0 → Fin n1 → EReal := fun r c => f (ValueIdx.ix2 r c)
/-- A [n] array by position. -/
def arr1 {n : Nat} (f : (⟨1, ![n]⟩ : Shape).Idx → EReal) : Fin n → EReal := fun c => f (ValueIdx.ix1 c)

end Cert.Spec

end
-- ==== Proof.KI.ValIn.lean ====
/-
  The kernel program's seven argument arrays as the specification reads them, by row and column, and the affine
  layer y and the result they determine.
-/
import proofs.«180622_g18880676233904_cont_8to1_729_6_alg».proof.Proof.KI.Frame
import proofs.«180622_g18880676233904_cont_8to1_729_6_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat RDat Cfg Window cellOf)

variable (m : (ℓ : Loc nD τ sig) → Buf (Elt Ideal) ℓ)

/-- The adjacency matrix am (the program's third argument), -/
def amS (c : Dev nD) : Fin 4096 → Fin 4096 → EReal := Cert.Spec.arr2 (n0 := 4096) (n1 := 4096) (m ((c.tc : Thread nD τ).loc main_arg2))
/-- the features x1 (first), -/
def x1S (c : Dev nD) : Fin 4096 → Fin 512 → EReal := Cert.Spec.arr2 (n0 := 4096) (n1 := 512) (m ((c.tc : Thread nD τ).loc main_arg0))
/-- the features x2 (second), -/
def x2S (c : Dev nD) : Fin 4096 → Fin 512 → EReal := Cert.Spec.arr2 (n0 := 4096) (n1 := 512) (m ((c.tc : Thread nD τ).loc main_arg1))
/-- the weights W (fourth), -/
def wS (c : Dev nD) : Fin 1024 → Fin 512 → EReal := Cert.Spec.arr2 (n0 := 1024) (n1 := 512) (m ((c.tc : Thread nD τ).loc main_arg3))
/-- the bias b (fifth), -/
def bS (c : Dev nD) : Fin 512 → EReal := Cert.Spec.arr1 (n := 512) (m ((c.tc : Thread nD τ).loc main_arg4))
/-- the scale gamma (sixth) -/
def gS (c : Dev nD) : Fin 512 → EReal := Cert.Spec.arr1 (n := 512) (m ((c.tc : Thread nD τ).loc main_arg5))
/-- and the shift beta (seventh). -/
def beS (c : Dev nD) : Fin 512 → EReal := Cert.Spec.arr1 (n := 512) (m ((c.tc : Thread nD τ).loc main_arg6))

/-- The affine layer in the kernel's grouping, of these. -/
def yS (c : Dev nD) : Fin 4096 → Fin 512 → EReal := Cert.Spec.yK (amS m c) (x1S m c) (x2S m c) (wS m c) (bS m c)

/-- Row p of the block of 256 rows that grid point t owns. -/
def rowOf (t : Fin cfg0.N) (p : Fin 256) : Fin 4096 := ⟨256 * t.val + p.val, by have := lt16 t; omega⟩

/-- The contents the kernel's result array should end at. -/
def kerOut (c : Dev nD) : S4096x512.Idx → EReal :=
  fun j => Cert.Spec.outK (amS m c) (x1S m c) (x2S m c) (wS m c) (bS m c) (gS m c) (beS m c) (j 0) (j 1)

/-- Rows 512 .. 1023 of a [1024, 512] block, as the body loads them. -/
abbrev w2Of (x3 : Vec Ideal S1024x512 .f32) : Vec Ideal S512x512 .f32 :=
  View.ld x3 (Rect.unit (s := S1024x512) ![512, 0] S512x512.size inb_S1024x512_S512x512_512_0)

/-- The block of y the body computes at point t from a staged product T. -/
def yBlk (c : Dev nD) (t : Fin cfg0.N) (T : Vec Ideal S4096x512 .bf16) : Vec Ideal S256x512 .f32 :=
  k0_pay30 (F := Ideal) (iblk m c 0 t) T (iblk m c 2 t) (w2Of (iblk m c 3 t)) (iblk m c 4 t)

end Cert.KernelIdeal.Hand

end
-- ==== Proof.KI.ValBlocks.lean ====
/-
  Each input window's block at a grid point, read at an entry, is the argument array at the row and column the window's
  index map sends it to: am and x2 move down 256 rows per point, x1, W and the three rows are the same block at
  every point; b, gamma and beta reach the kernel as [1,512] rows, reshaped from the [512] arguments before the region.
-/
import proofs.«180622_g18880676233904_cont_8to1_729_6_alg».proof.Proof.KI.ValIn
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat RDat Cfg Window cellOf)

variable (m : (ℓ : Loc nD τ sig) → Buf (Elt Ideal) ℓ)

/-! ## The index maps, decided once over the grid

A block's coordinate on an axis is always (block index) × (block extent) + 1 × (coordinate inside the block), so all
that is needed of each window's index map is its value at every grid point. -/

/-- The am window's block index at point t is (t, 0): the block of 256 rows starting at row 256 t, all columns. -/
theorem idx_am : ∀ t : Fin cfg0.N, win0_0.index t (0 : Fin 2) = t.val ∧ win0_0.index t (1 : Fin 2) = 0 :=
  (by decide +kernel : ∀ t : Fin grid0.N, _)

/-- The x1 window's block index is (0, 0) at every point: the whole array. -/
theorem idx_x1 : ∀ t : Fin cfg0.N, win0_1.index t (0 : Fin 2) = 0 ∧ win0_1.index t (1 : Fin 2) = 0 :=
  (by decide +kernel : ∀ t : Fin grid0.N, _)

/-- The x2 window's block index at point t is (t, 0). -/
theorem idx_x2 : ∀ t : Fin cfg0.N, win0_2.index t (0 : Fin 2) = t.val ∧ win0_2.index t (1 : Fin 2) = 0 :=
  (by decide +kernel : ∀ t : Fin grid0.N, _)

/-- The W window's block index is (0, 0) at every point: the whole array. -/
theorem idx_w : ∀ t : Fin cfg0.N, win0_3.index t (0 : Fin 2) = 0 ∧ win0_3.index t (1 : Fin 2) = 0 :=
  (by decide +kernel : ∀ t : Fin grid0.N, _)

/-- The bias row's block index is (0, 0) at every point. -/
theorem idx_b : ∀ t : Fin cfg0.N, win0_4.index t (0 : Fin 2) = 0 ∧ win0_4.index t (1 : Fin 2) = 0 :=
  (by decide +kernel : ∀ t : Fin grid0.N, _)

/-- The scale row's block index is (0, 0) at every point. -/
theorem idx_g : ∀ t : Fin cfg0.N, win0_5.index t (0 : Fin 2) = 0 ∧ win0_5.index t (1 : Fin 2) = 0 :=
  (by decide +kernel : ∀ t : Fin grid0.N, _)

/-- The shift row's block index is (0, 0) at every point. -/
theorem idx_be : ∀ t : Fin cfg0.N, win0_6.index t (0 : Fin 2) = 0 ∧ win0_6.index t (1 : Fin 2) = 0 :=
  (by decide +kernel : ∀ t : Fin grid0.N, _)

/-! ## The three rows as the region finds them

Before the region the bias, scale and shift, each of shape [512], are reshaped to [1, 512]; nothing else writes those
rows, so the region finds each as that reshape of the argument as launched. -/

/-- The bias row is the [512] bias reshaped to [1, 512]. -/
theorem V_b (c : Dev nD) : (V m c main_v0 : S1x512.Idx → EReal)
    = shapeCast S1x512 (m ((c.tc : Thread nD τ).loc main_arg4)) shapeCasts_S512_S1x512 := by
  dsimp only [Gen.V, Gen.hostOps0]; after_results; rfl

/-- The scale row is the [512] scale reshaped to [1, 512]. -/
theorem V_g (c : Dev nD) : (V m c main_v1 : S1x512.Idx → EReal)
    = shapeCast S1x512 (m ((c.tc : Thread nD τ).loc main_arg5)) shapeCasts_S512_S1x512 := by
  dsimp only [Gen.V, Gen.hostOps0]; after_results; rfl

/-- The shift row is the [512] shift reshaped to [1, 512]. -/
theorem V_be (c : Dev nD) : (V m c main_v2 : S1x512.Idx → EReal)
    = shapeCast S1x512 (m ((c.tc : Thread nD τ).loc main_arg6)) shapeCasts_S512_S1x512 := by
  dsimp only [Gen.V, Gen.hostOps0]; after_results; rfl

/-! ## The blocks, entry by entry -/

/-- Entry (p, k) of am's block at point t is am at row 256 t + p, column k. -/
theorem amB_apply (c : Dev nD) (t : Fin cfg0.N) (p : Fin 256) (k : Fin 4096) :
    (iblk m c 0 t : Vec Ideal S256x4096 .f32) (ix2 p k) = amS m c (rowOf t p) k := by
  obtain ⟨e0, e1⟩ := idx_am t
  unfold amS Cert.Spec.arr2
  rw [← V_main_arg2 m c]
  show V m c main_arg2 (((cfg0.win 0).blk t).view.emb (ix2 p k)) = V m c main_arg2 (ix2 (rowOf t p) k)
  refine congrArg _ ?_
  funext a; apply Fin.ext
  match a with
  | ⟨0, _⟩ => show win0_0.index t (0 : Fin 2) * 256 + 1 * p.val = 256 * t.val + p.val; omega
  | ⟨1, _⟩ => show win0_0.index t (1 : Fin 2) * 4096 + 1 * k.val = k.val; omega

/-- Entry (k, l) of x1's block, the whole array at every point, is x1 at row k, column l. -/
theorem x1B_apply (c : Dev nD) (t : Fin cfg0.N) (k : Fin 4096) (l : Fin 512) :
    (iblk m c 1 t : Vec Ideal S4096x512 .f32) (ix2 k l) = x1S m c k l := by
  obtain ⟨e0, e1⟩ := idx_x1 t
  unfold x1S Cert.Spec.arr2
  rw [← V_main_arg0 m c]
  show V m c main_arg0 (((cfg0.win 1).blk t).view.emb (ix2 k l)) = V m c main_arg0 (ix2 k l)
  refine congrArg _ ?_
  funext a; apply Fin.ext
  match a with
  | ⟨0, _⟩ => show win0_1.index t (0 : Fin 2) * 4096 + 1 * k.val = k.val; omega
  | ⟨1, _⟩ => show win0_1.index t (1 : Fin 2) * 512 + 1 * l.val = l.val; omega

/-- Entry (p, l) of x2's block at point t is x2 at row 256 t + p, column l. -/
theorem x2B_apply (c : Dev nD) (t : Fin cfg0.N) (p : Fin 256) (l : Fin 512) :
    (iblk m c 2 t : Vec Ideal S256x512 .f32) (ix2 p l) = x2S m c (rowOf t p) l := by
  obtain ⟨e0, e1⟩ := idx_x2 t
  unfold x2S Cert.Spec.arr2
  rw [← V_main_arg1 m c]
  show V m c main_arg1 (((cfg0.win 2).blk t).view.emb (ix2 p l)) = V m c main_arg1 (ix2 (rowOf t p) l)
  refine congrArg _ ?_
  funext a; apply Fin.ext
  match a with
  | ⟨0, _⟩ => show win0_2.index t (0 : Fin 2) * 256 + 1 * p.val = 256 * t.val + p.val; omega
  | ⟨1, _⟩ => show win0_2.index t (1 : Fin 2) * 512 + 1 * l.val = l.val; omega

/-- Entry (l, col) of W's block, the whole array at every point, is W at row l, column col. -/
theorem wB_apply (c : Dev nD) (t : Fin cfg0.N) (l : Fin 1024) (col : Fin 512) :
    (iblk m c 3 t : Vec Ideal S1024x512 .f32) (ix2 l col) = wS m c l col := by
  obtain ⟨e0, e1⟩ := idx_w t
  unfold wS Cert.Spec.arr2
  rw [← V_main_arg3 m c]
  show V m c main_arg3 (((cfg0.win 3).blk t).view.emb (ix2 l col)) = V m c main_arg3 (ix2 l col)
  refine congrArg _ ?_
  funext a; apply Fin.ext
  match a with
  | ⟨0, _⟩ => show win0_3.index t (0 : Fin 2) * 1024 + 1 * l.val = l.val; omega
  | ⟨1, _⟩ => show win0_3.index t (1 : Fin 2) * 512 + 1 * col.val = col.val; omega

/-- Entry (0, col) of the bias row's block is the bias at col: the block is the whole row, and the row is the [512]
    bias with a unit axis in front. -/
theorem bB_apply (c : Dev nD) (t : Fin cfg0.N) (col : Fin 512) :
    (iblk m c 4 t : Vec Ideal S1x512 .f32) (ix2 (0 : Fin 1) col) = bS m c col := by
  obtain ⟨e0, e1⟩ := idx_b t
  unfold bS Cert.Spec.arr1
  show V m c main_v0 (((cfg0.win 4).blk t).view.emb (ix2 (0 : Fin 1) col)) = _
  rw [V_b m c]
  refine Eq.trans (congrArg _ ?_) (shapeCast_a_1a_apply _ shapeCasts_S512_S1x512 (0 : Fin 1) col)
  funext a; apply Fin.ext
  match a with
  | ⟨0, _⟩ => show win0_4.index t (0 : Fin 2) * 1 + 1 * 0 = 0; omega
  | ⟨1, _⟩ => show win0_4.index t (1 : Fin 2) * 512 + 1 * col.val = col.val; omega

/-- Entry (0, col) of the scale row's block is the scale at col. -/
theorem gB_apply (c : Dev nD) (t : Fin cfg0.N) (col : Fin 512) :
    (iblk m c 5 t : Vec Ideal S1x512 .f32) (ix2 (0 : Fin 1) col) = gS m c col := by
  obtain ⟨e0, e1⟩ := idx_g t
  unfold gS Cert.Spec.arr1
  show V m c main_v1 (((cfg0.win 5).blk t).view.emb (ix2 (0 : Fin 1) col)) = _
  rw [V_g m c]
  refine Eq.trans (congrArg _ ?_) (shapeCast_a_1a_apply _ shapeCasts_S512_S1x512 (0 : Fin 1) col)
  funext a; apply Fin.ext
  match a with
  | ⟨0, _⟩ => show win0_5.index t (0 : Fin 2) * 1 + 1 * 0 = 0; omega
  | ⟨1, _⟩ => show win0_5.index t (1 : Fin 2) * 512 + 1 * col.val = col.val; omega

/-- Entry (0, col) of the shift row's block is the shift at col. -/
theorem beB_apply (c : Dev nD) (t : Fin cfg0.N) (col : Fin 512) :
    (iblk m c 6 t : Vec Ideal S1x512 .f32) (ix2 (0 : Fin 1) col) = beS m c col := by
  obtain ⟨e0, e1⟩ := idx_be t
  unfold beS Cert.Spec.arr1
  show V m c main_v2 (((cfg0.win 6).blk t).view.emb (ix2 (0 : Fin 1) col)) = _
  rw [V_be m c]
  refine Eq.trans (congrArg _ ?_) (shapeCast_a_1a_apply _ shapeCasts_S512_S1x512 (0 : Fin 1) col)
  funext a; apply Fin.ext
  match a with
  | ⟨0, _⟩ => show win0_6.index t (0 : Fin 2) * 1 + 1 * 0 = 0; omega
  | ⟨1, _⟩ => show win0_6.index t (1 : Fin 2) * 512 + 1 * col.val = col.val; omega

end Cert.KernelIdeal.Hand

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KI.ValT.lean ====
/-
  The first scratch buffer holds, after every grid point, the product x1 W1: point 0 stores it in eight slabs of 512
  rows, each slab a matrix product of a slab of x1 with the first 512 rows of W, and no later point stores into it.
-/
import proofs.«180622_g18880676233904_cont_8to1_729_6_alg».proof.Proof.KI.ValBlocks
import proofs.«180622_g18880676233904_cont_8to1_729_6_alg».proof.Proof.LibPlainDot
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat RDat Cfg Window cellOf)

variable (m : (ℓ : Loc nD τ sig) → Buf (Elt Ideal) ℓ)

namespace ValT

/-! ## The staged product is carried unchanged from point 0 -/

/-- No point after the first stores into the first scratch buffer. -/
theorem fst_succ (c : Dev nD) (n : ℕ) (hn : n + 1 < cfg0.N) :
    (scrAt (F := Ideal) m c (n + 1) hn).1 = (scrAt (F := Ideal) m c n (Nat.lt_of_succ_lt hn)).1 := by
  rw [scrAt]; split <;> rfl

/-- So after any point it holds what point 0 left. -/
theorem fst_zero (c : Dev nD) (h0 : 0 < cfg0.N) : ∀ (n : ℕ) (hn : n < cfg0.N),
    (scrAt (F := Ideal) m c n hn).1 = (scrAt (F := Ideal) m c 0 h0).1
  | 0, _ => rfl
  | n + 1, hn => (fst_succ m c n hn).trans (fst_zero c h0 n (Nat.lt_of_succ_lt hn))

/-! ## One slab's product at an entry -/

/-- Entry (r, col) of a slab's product into the zero accumulator: the row of x against the column of w. -/
theorem slab_apply (w1 x : Vec Ideal S512x512 .f32) (r col : Fin 512) :
    (shapeCast S512x512 (truncf .bf16 (matmul dot_S512x512_S512x512_S512x512_1_0_0_1_n_n none
        (truncf .bf16 x bitsLt_bf16_f32) (truncf .bf16 w1 bitsLt_bf16_f32) (constant S512x512 .f32 0x00000000#32)) bitsLt_bf16_f32)
      shapeCasts_S512x512_S512x512 : FVec Ideal S512x512 .bf16) (ix2 r col)
      = ∑ l : Fin 512, x (ix2 r l) * w1 (ix2 l col) := by
  rw [shapeCast_self]
  exact Cert.PlainDot.matmul_zero_apply (M := 512) (K := 512) (N := 512) dot_S512x512_S512x512_S512x512_1_0_0_1_n_n rfl none
    (truncf .bf16 x bitsLt_bf16_f32) (truncf .bf16 w1 bitsLt_bf16_f32) (ix2 r col)

/-- The eight stored slabs are that product, of the loaded rows of W and the loaded slab of x1. -/
theorem pay4_apply (w1 x : Vec Ideal S512x512 .f32) (r col : Fin 512) :
    k0_pay4 (F := Ideal) w1 x (ix2 r col) = ∑ l : Fin 512, x (ix2 r l) * w1 (ix2 l col) := by
  unfold k0_pay4 k0_pay3; exact slab_apply w1 x r col

theorem pay5_apply (w1 x : Vec Ideal S512x512 .f32) (r col : Fin 512) :
    k0_pay5 (F := Ideal) w1 x (ix2 r col) = ∑ l : Fin 512, x (ix2 r l) * w1 (ix2 l col) := by
  unfold k0_pay5 k0_pay3; exact slab_apply w1 x r col

theorem pay6_apply (w1 x : Vec Ideal S512x512 .f32) (r col : Fin 512) :
    k0_pay6 (F := Ideal) w1 x (ix2 r col) = ∑ l : Fin 512, x (ix2 r l) * w1 (ix2 l col) := by
  unfold k0_pay6 k0_pay3; exact slab_apply w1 x r col

theorem pay7_apply (w1 x : Vec Ideal S512x512 .f32) (r col : Fin 512) :
    k0_pay7 (F := Ideal) w1 x (ix2 r col) = ∑ l : Fin 512, x (ix2 r l) * w1 (ix2 l col) := by
  unfold k0_pay7 k0_pay3; exact slab_apply w1 x r col

theorem pay26_apply (w1 x : Vec Ideal S512x512 .f32) (r col : Fin 512) :
    k0_pay26 (F := Ideal) (k0_pay3 w1) (k0_pay8 x) (ix2 r col) = ∑ l : Fin 512, x (ix2 r l) * w1 (ix2 l col) := by
  unfold k0_pay26 k0_pay3 k0_pay8; exact slab_apply w1 x r col

theorem pay27_apply (w1 x : Vec Ideal S512x512 .f32) (r col : Fin 512) :
    k0_pay27 (F := Ideal) (k0_pay3 w1) x (ix2 r col) = ∑ l : Fin 512, x (ix2 r l) * w1 (ix2 l col) := by
  unfold k0_pay27 k0_pay3; exact slab_apply w1 x r col

theorem pay28_apply (w1 x : Vec Ideal S512x512 .f32) (r col : Fin 512) :
    k0_pay28 (F := Ideal) (k0_pay3 w1) x (ix2 r col) = ∑ l : Fin 512, x (ix2 r l) * w1 (ix2 l col) := by
  unfold k0_pay28 k0_pay3; exact slab_apply w1 x r col

theorem pay29_apply (w1 x : Vec Ideal S512x512 .f32) (r col : Fin 512) :
    k0_pay29 (F := Ideal) (k0_pay3 w1) x (ix2 r col) = ∑ l : Fin 512, x (ix2 r l) * w1 (ix2 l col) := by
  unfold k0_pay29 k0_pay3; exact slab_apply w1 x r col

/-! ## Where the loads and the stores of a slab sit -/

/-- Entry (r, l) of the 512-row slab of a [4096, 512] array that starts at row o is entry (o + r, l) of the array. -/
theorem slab_idx (o : ℕ) (inb : ∀ a, (![o, 0] : Fin 2 → ℕ) a + S512x512.size a ≤ S4096x512.size a)
    (r l : Fin 512) (h : o + r.val < 4096) :
    (Rect.unit (s := S4096x512) ![o, 0] S512x512.size inb).idx (ix2 r l) = ix2 (⟨o + r.val, h⟩ : Fin 4096) l := by
  funext a
  match a with
  | ⟨0, _⟩ => apply Fin.ext; show o + 1 * r.val = o + r.val; omega
  | ⟨1, _⟩ => apply Fin.ext; show 0 + 1 * l.val = l.val; omega

/-- Entry (l, col) of the first 512 rows of a [1024, 512] array is entry (l, col) of the array. -/
theorem w1_idx (l col : Fin 512) :
    (Rect.unit (s := S1024x512) ![0, 0] S512x512.size inb_S1024x512_S512x512_0_0).idx (ix2 l col) = ix2 (Cert.Spec.loW l) col := by
  funext a
  match a with
  | ⟨0, _⟩ => apply Fin.ext; show 0 + 1 * l.val = l.val; omega
  | ⟨1, _⟩ => apply Fin.ext; show 0 + 1 * col.val = col.val; omega

/-- The staged product as one function of the scratch buffer's index. -/
def tFn (c : Dev nD) : S4096x512.Idx → Elt Ideal .bf16 :=
  fun y => Cert.Spec.tK (x1S m c) (wS m c) (y 0) (y 1)

/-- A slab stored at row o, the product of the slab of x1 loaded there with the loaded first rows of W, is the
    staged product on the rows it covers. -/
theorem piece_apply (c : Dev nD) (t : Fin cfg0.N) (o : ℕ) (ho : o + 512 ≤ 4096)
    (inb : ∀ a, (![o, 0] : Fin 2 → ℕ) a + S512x512.size a ≤ S4096x512.size a)
    (pay : Vec Ideal S512x512 .f32 → Vec Ideal S512x512 .f32 → FVec Ideal S512x512 .bf16)
    (hpay : ∀ (w1 x : Vec Ideal S512x512 .f32) (r col : Fin 512), pay w1 x (ix2 r col) = ∑ l : Fin 512, x (ix2 r l) * w1 (ix2 l col))
    (x : S512x512.Idx) :
    pay (View.ld (iblk m c 3 t : Vec Ideal S1024x512 .f32) (Rect.unit (s := S1024x512) ![0, 0] S512x512.size inb_S1024x512_S512x512_0_0))
        (View.ld (iblk m c 1 t : Vec Ideal S4096x512 .f32) (Rect.unit (s := S4096x512) ![o, 0] S512x512.size inb)) x
      = tFn m c ((Rect.unit (s := S4096x512) ![o, 0] S512x512.size inb).emb x) := by
  obtain ⟨r, q, rfl⟩ : ∃ (r : Fin 512) (q : Fin 512), x = ix2 r q := ⟨x 0, x 1, eq_ix2 x⟩
  have hr : o + r.val < 4096 := by have := r.isLt; omega
  refine (hpay _ _ r q).trans ?_
  have he : (Rect.unit (s := S4096x512) ![o, 0] S512x512.size inb).emb (ix2 r q) = ix2 (⟨o + r.val, hr⟩ : Fin 4096) q :=
    slab_idx o inb r q hr
  rw [he]
  show _ = ∑ l : Fin 512, x1S m c ⟨o + r.val, hr⟩ l * wS m c (Cert.Spec.loW l) q
  refine Finset.sum_congr rfl fun l _ => ?_
  have h1 : View.ld (iblk m c 1 t : Vec Ideal S4096x512 .f32) (Rect.unit (s := S4096x512) ![o, 0] S512x512.size inb) (ix2 r l)
      = x1S m c ⟨o + r.val, hr⟩ l := by
    show (iblk m c 1 t : Vec Ideal S4096x512 .f32) ((Rect.unit (s := S4096x512) ![o, 0] S512x512.size inb).idx (ix2 r l)) = _
    rw [slab_idx o inb r l hr]; exact x1B_apply m c t _ l
  have h2 : View.ld (iblk m c 3 t : Vec Ideal S1024x512 .f32) (Rect.unit (s := S1024x512) ![0, 0] S512x512.size inb_S1024x512_S512x512_0_0) (ix2 l q)
      = wS m c (Cert.Spec.loW l) q := by
    show (iblk m c 3 t : Vec Ideal S1024x512 .f32) ((Rect.unit (s := S1024x512) ![0, 0] S512x512.size inb_S1024x512_S512x512_0_0).idx (ix2 l q)) = _
    rw [w1_idx l q]; exact wB_apply m c t _ q
  rw [h1, h2]

/-! ## What point 0 leaves -/

/-- The eight slabs stored at point 0 cover the buffer. -/
theorem cover_zero (c : Dev nD) (h0 : 0 < cfg0.N) (y : S4096x512.Idx) :
    ∃ p ∈ (atA (F := Ideal) m c ⟨0, h0⟩ (Nat.zero_mod _)).1, y ∈ p.1.set :=
  View.cover_of_tiledL (atA (F := Ideal) m c ⟨0, h0⟩ (Nat.zero_mod _)).1 S512x512.size (by sl_kernel_rfl) y

/-- Entry (k, col) of the staged product after point 0. -/
theorem at_zero (c : Dev nD) (h0 : 0 < cfg0.N) (k : Fin 4096) (col : Fin 512) :
    (scrAt (F := Ideal) m c 0 h0).1 (ix2 k col) = Cert.Spec.tK (x1S m c) (wS m c) k col := by
  rw [scrAt]
  dsimp only
  rw [View.read_writes_junk_eq_canon]
  refine (View.canon_apply_of_pieces (tFn m c) _ ?_ (ix2 k col) (cover_zero m c h0 _)).trans rfl
  unfold atA; unfold runA; dsimp only; sl_unfold_run_names
  simp only [View.readAt_eq_ld, Memref.IsWhole.read_unread]
  intro p hp
  simp only [List.mem_cons, List.not_mem_nil, or_false] at hp
  rcases hp with rfl | rfl | rfl | rfl | rfl | rfl | rfl | rfl
  · exact piece_apply m c ⟨0, h0⟩ 3584 (by omega) inb_S4096x512_S512x512_3584_0 (fun w1 x => k0_pay29 (k0_pay3 w1) x) pay29_apply
  · exact piece_apply m c ⟨0, h0⟩ 3072 (by omega) inb_S4096x512_S512x512_3072_0 (fun w1 x => k0_pay28 (k0_pay3 w1) x) pay28_apply
  · exact piece_apply m c ⟨0, h0⟩ 2560 (by omega) inb_S4096x512_S512x512_2560_0 (fun w1 x => k0_pay27 (k0_pay3 w1) x) pay27_apply
  · exact piece_apply m c ⟨0, h0⟩ 2048 (by omega) inb_S4096x512_S512x512_2048_0 (fun w1 x => k0_pay26 (k0_pay3 w1) (k0_pay8 x)) pay26_apply
  · exact piece_apply m c ⟨0, h0⟩ 1536 (by omega) inb_S4096x512_S512x512_1536_0 (fun w1 x => k0_pay7 w1 x) pay7_apply
  · exact piece_apply m c ⟨0, h0⟩ 1024 (by omega) inb_S4096x512_S512x512_1024_0 (fun w1 x => k0_pay6 w1 x) pay6_apply
  · exact piece_apply m c ⟨0, h0⟩ 512 (by omega) inb_S4096x512_S512x512_512_0 (fun w1 x => k0_pay5 w1 x) pay5_apply
  · exact piece_apply m c ⟨0, h0⟩ 0 (by omega) inb_S4096x512_S512x512_0_0 (fun w1 x => k0_pay4 w1 x) pay4_apply

end ValT

/-- Entry (k, col) of the staged product, after any point. -/
theorem scrT_apply (c : Dev nD) (n : ℕ) (hn : n < cfg0.N) (k : Fin 4096) (col : Fin 512) :
    (scrAt (F := Ideal) m c n hn).1 (ix2 k col) = Cert.Spec.tK (x1S m c) (wS m c) k col := by
  have h0 : 0 < cfg0.N := Nat.lt_of_le_of_lt (Nat.zero_le n) hn
  rw [ValT.fst_zero m c h0 n hn]
  exact ValT.at_zero m c h0 k col

end Cert.KernelIdeal.Hand

end
-- ==== Proof.KI.ValY.lean ====
/-
  The block of y a grid point computes, and its column sums: entry (p, col) of the block at point t is y at row
  256 t + p; the two reductions down the block's 256 rows are the column sums of y and of y squared over those rows.
-/
import proofs.«180622_g18880676233904_cont_8to1_729_6_alg».proof.Proof.KI.ValBlocks
import proofs.«180622_g18880676233904_cont_8to1_729_6_alg».proof.Proof.LibPlainDot
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat RDat Cfg Window cellOf)

variable (m : (ℓ : Loc nD τ sig) → Buf (Elt Ideal) ℓ)

/-- The block's entry (p, col), over any operands: the two products' entries and the bias row's. -/
theorem pay30_apply (x0 : Vec Ideal S256x4096 .f32) (T : Vec Ideal S4096x512 .bf16) (x2 : Vec Ideal S256x512 .f32)
    (w2 : Vec Ideal S512x512 .f32) (x4 : Vec Ideal S1x512 .f32) (p : Fin 256) (col : Fin 512) :
    k0_pay30 (F := Ideal) x0 T x2 w2 x4 (ix2 p col)
      = (∑ k : Fin 4096, x0 (ix2 p k) * T (ix2 k col) + ∑ l : Fin 512, x2 (ix2 p l) * w2 (ix2 l col))
          + x4 (ix2 (0 : Fin 1) col) := by
  unfold k0_pay30
  refine congrArg₂ (· + ·) (congrArg₂ (· + ·) ?_ ?_) ?_
  · exact Cert.PlainDot.matmul_zero_apply dot_S256x4096_S4096x512_S256x512_1_0_0_1_n_n rfl none _ _ (ix2 p col)
  · exact Cert.PlainDot.matmul_zero_apply dot_S256x512_S512x512_S256x512_1_0_0_1_n_n rfl none _ _ (ix2 p col)
  · refine (broadcastTo_apply _ broadcasts_S1x512_S256x512 (ix2 p col) (ix2 (0 : Fin 1) col) ?_).trans ?_
    · intro a
      match a with
      | ⟨0, _⟩ => rfl
      | ⟨1, _⟩ => rfl
    · exact congrFun (shapeCast_self x4 shapeCasts_S1x512_S1x512) _

/-- Rows 512 .. 1023 of a [1024,512] value at (l, col): the value at row 512 + l. -/
theorem w2Of_apply (X : Vec Ideal S1024x512 .f32) (l : Fin 512) (col : Fin 512) :
    w2Of X (ix2 l col) = X (ix2 (Cert.Spec.hiW l) col) := by
  refine congrArg X ?_
  funext a
  match a with
  | ⟨0, _⟩ => exact Fin.ext (by show 512 + 1 * l.val = 512 + l.val; omega)
  | ⟨1, _⟩ => exact Fin.ext (by show 0 + 1 * col.val = col.val; omega)

/-- The block's entries, for a staged product T that is x1 W1. -/
theorem yBlk_apply (c : Dev nD) (t : Fin cfg0.N) (T : Vec Ideal S4096x512 .bf16)
    (hT : ∀ (k : Fin 4096) (col : Fin 512), T (ix2 k col) = Cert.Spec.tK (x1S m c) (wS m c) k col) (p : Fin 256) (col : Fin 512) :
    yBlk m c t T (ix2 p col) = yS m c (rowOf t p) col := by
  unfold yBlk
  refine (pay30_apply _ _ _ _ _ p col).trans ?_
  unfold yS Cert.Spec.yK
  refine congrArg₂ (· + ·) (congrArg₂ (· + ·) ?_ ?_) ?_
  · refine Finset.sum_congr rfl fun k _ => ?_
    rw [amB_apply m c t p k, hT k col]
  · refine Finset.sum_congr rfl fun l _ => ?_
    rw [x2B_apply m c t p l, w2Of_apply, wB_apply m c t (Cert.Spec.hiW l) col]
  · exact bB_apply m c t col

/-- The source index over column col with row p inserted is (p, col). -/
theorem lift_row_col (h : S256x512.Reduces [0] S512) (col : Fin 512) (p : Fin 256) :
    h.lift (ix1 col) p = ix2 p col := by
  funext a
  match a with
  | ⟨0, _⟩ => exact Fin.ext rfl
  | ⟨1, _⟩ => exact Fin.ext rfl

/-- The sum down the 256 rows of a [256,512] value, as a [1,512] row, at column col. -/
theorem colsum_apply (v : FVec Ideal S256x512 .f32) (col : Fin 512) :
    shapeCast S1x512 (multiReduction .add [0] S512 v 0x00000000#32 reduces_S256x512_S512 (.inl rfl) rfl)
        shapeCasts_S512_S1x512 (ix2 (0 : Fin 1) col) = ∑ p : Fin 256, v (ix2 p col) := by
  refine (shapeCast_addUnit_apply ![512] _ shapeCasts_S512_S1x512 (ix2 (0 : Fin 1) col)).trans ?_
  have hj : (fun a : Fin 1 => (ix2 (0 : Fin 1) col : S1x512.Idx) a.succ) = ix1 col := by
    funext a; match a with | ⟨0, _⟩ => rfl
  refine (congrArg _ hj).trans ?_
  refine (Ideal.multiReduction_add_single v _ reduces_S256x512_S512 _ _ (ix1 col)).trans ?_
  refine Finset.sum_congr rfl fun p _ => ?_
  exact congrArg v (lift_row_col _ col p)

/-- The column sums of a block, as the body takes them (any operands). -/
theorem pay31_apply (x0 : Vec Ideal S256x4096 .f32) (T : Vec Ideal S4096x512 .bf16) (x2 : Vec Ideal S256x512 .f32)
    (w2 : Vec Ideal S512x512 .f32) (x4 : Vec Ideal S1x512 .f32) (col : Fin 512) :
    k0_pay31 (F := Ideal) x0 T x2 w2 x4 (ix2 (0 : Fin 1) col) = ∑ p : Fin 256, k0_pay30 (F := Ideal) x0 T x2 w2 x4 (ix2 p col) := by
  unfold k0_pay31
  exact colsum_apply _ col

/-- The column sums of the block's squares. -/
theorem pay32_apply (x0 : Vec Ideal S256x4096 .f32) (T : Vec Ideal S4096x512 .bf16) (x2 : Vec Ideal S256x512 .f32)
    (w2 : Vec Ideal S512x512 .f32) (x4 : Vec Ideal S1x512 .f32) (col : Fin 512) :
    k0_pay32 (F := Ideal) x0 T x2 w2 x4 (ix2 (0 : Fin 1) col)
      = ∑ p : Fin 256, k0_pay30 (F := Ideal) x0 T x2 w2 x4 (ix2 p col) * k0_pay30 (F := Ideal) x0 T x2 w2 x4 (ix2 p col) := by
  unfold k0_pay32
  exact colsum_apply _ col

/-- Started at point 0 (the sums stored as they are), -/
theorem pay33_apply (x0 : Vec Ideal S256x4096 .f32) (T : Vec Ideal S4096x512 .bf16) (x2 : Vec Ideal S256x512 .f32)
    (w2 : Vec Ideal S512x512 .f32) (x4 : Vec Ideal S1x512 .f32) (col : Fin 512) :
    k0_pay33 (F := Ideal) x0 T x2 w2 x4 (ix2 (0 : Fin 1) col) = k0_pay31 (F := Ideal) x0 T x2 w2 x4 (ix2 (0 : Fin 1) col) := by
  unfold k0_pay33
  exact congrFun (shapeCast_self _ shapeCasts_S1x512_S1x512) _

theorem pay34_apply (x0 : Vec Ideal S256x4096 .f32) (T : Vec Ideal S4096x512 .bf16) (x2 : Vec Ideal S256x512 .f32)
    (w2 : Vec Ideal S512x512 .f32) (x4 : Vec Ideal S1x512 .f32) (col : Fin 512) :
    k0_pay34 (F := Ideal) x0 T x2 w2 x4 (ix2 (0 : Fin 1) col) = k0_pay32 (F := Ideal) x0 T x2 w2 x4 (ix2 (0 : Fin 1) col) := by
  unfold k0_pay34
  exact congrFun (shapeCast_self _ shapeCasts_S1x512_S1x512) _

/-- advanced at every later point (the running sum plus the block's). -/
theorem pay35_apply (x0 : Vec Ideal S256x4096 .f32) (T : Vec Ideal S4096x512 .bf16) (x2 : Vec Ideal S256x512 .f32)
    (w2 : Vec Ideal S512x512 .f32) (x4 : Vec Ideal S1x512 .f32) (s0 : Vec Ideal S1x512 .f32) (col : Fin 512) :
    k0_pay35 (F := Ideal) x0 T x2 w2 x4 s0 (ix2 (0 : Fin 1) col)
      = s0 (ix2 (0 : Fin 1) col) + k0_pay31 (F := Ideal) x0 T x2 w2 x4 (ix2 (0 : Fin 1) col) := by
  unfold k0_pay35
  exact congrFun (shapeCast_self _ shapeCasts_S1x512_S1x512) _

theorem pay36_apply (x0 : Vec Ideal S256x4096 .f32) (T : Vec Ideal S4096x512 .bf16) (x2 : Vec Ideal S256x512 .f32)
    (w2 : Vec Ideal S512x512 .f32) (x4 : Vec Ideal S1x512 .f32) (q0 : Vec Ideal S1x512 .f32) (col : Fin 512) :
    k0_pay36 (F := Ideal) x0 T x2 w2 x4 q0 (ix2 (0 : Fin 1) col)
      = q0 (ix2 (0 : Fin 1) col) + k0_pay32 (F := Ideal) x0 T x2 w2 x4 (ix2 (0 : Fin 1) col) := by
  unfold k0_pay36
  exact congrFun (shapeCast_self _ shapeCasts_S1x512_S1x512) _

end Cert.KernelIdeal.Hand

end
-- ==== Proof.KI.ValOutEarly.lean ====
/-
  What a grid point before the last makes of the resident output buffer: it stores its block of y into rows
  256 t .. 256 t + 255 and keeps every other row as it found it.
-/
import proofs.«180622_g18880676233904_cont_8to1_729_6_alg».proof.Proof.KI.ValT
import proofs.«180622_g18880676233904_cont_8to1_729_6_alg».proof.Proof.KI.ValY
import Idealize.ShloMosaic.PureOps.Ideal.Laws
import Idealize.ShloMosaic.Lib.ValueIdx
import Idealize.ShloMosaic.Lib.Pipeline.Value
import Idealize.ShloMosaic.Lib.ValueLayout
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat RDat Cfg Window cellOf)

variable (m : (ℓ : Loc nD τ sig) → Buf (Elt Ideal) ℓ)

namespace Early

/-- The first grid coordinate of a point is the point's number. -/
theorem coords0 : ∀ t : Fin cfg0.N, ((grid0.coords t) 0).val = t.val :=
  (by decide +kernel : ∀ t : Fin grid0.N, ((grid0.coords t) 0).val = t.val)

/-- The block a point stores starts at row 256 t, column 0. -/
theorem off1_at (t : Fin cfg0.N) : k0_off1 (grid0.coords t) = ![256 * t.val, 0] := by
  rw [Gen.k0_off1_eq, coords0 t]

/-- One store of 256 whole rows from row o over contents Y: those rows read the payload, the others Y. -/
theorem read_block_rows {M : Memref sig .tc .vmem S4096x512 .f32} (hM : M.IsWhole) (Y : Vec Ideal S4096x512 .f32)
    (off : Fin 2 → ℕ) (inb : ∀ a, off a + S256x512.size a ≤ S4096x512.size a) (w : Vec Ideal S256x512 .f32) (o : ℕ)
    (hoff : off = ![o, 0]) (R : Fin 4096) (col : Fin 512) :
    M.view.read (Elt Ideal) (M.view.writes (Elt Ideal) (hM.unread Y) [⟨Rect.unit off S256x512.size inb, w⟩]) (ix2 R col)
      = if h : o ≤ R.val ∧ R.val < o + 256 then w (ix2 (⟨R.val - o, by omega⟩ : Fin 256) col) else Y (ix2 R col) := by
  by_cases h : o ≤ R.val ∧ R.val < o + 256
  · rw [dif_pos h]
    refine View.read_writes_cons_rows_of_mem M.view (hM.unread Y) inb w [] (ix2 R col) (ix2 (⟨R.val - o, by omega⟩ : Fin 256) col) hoff ?_ ?_
    · show R.val = o + (R.val - o); omega
    · rfl
  · rw [dif_neg h]
    refine (View.read_writes_cons_rows_of_not_mem M.view (hM.unread Y) inb w [] (ix2 R col) hoff (W := 256) rfl ?_).trans ?_
    · show R.val < o ∨ o + 256 ≤ R.val; omega
    · rw [View.writes_nil]; exact congrFun (hM.read_unread Y) _

/-- Zero offsets, as the loads spell them. -/
theorem hz2 : (![0, 0] : Fin 2 → ℕ) = fun _ => 0 := by
  funext a; fin_cases a <;> rfl

/-- A load of a whole buffer's contents X through a rectangle reads X at the rectangle's indices; -/
theorem load_rect {κ : Kind} {sp : Space} {S : Shape} {e : EltTy} {M : Memref sig κ sp S e} (hM : M.IsWhole)
    (X : S.Idx → Elt Ideal e) (r : Rect S) :
    View.readAt (Elt Ideal) M.view r.toLoadRect (hM.unread X) = View.ld X r :=
  (View.readAt_eq_ld M.view (hM.unread X) r).trans (congrArg (fun Z => View.ld Z r) (hM.read_unread X))

/-- through the whole shape at zero offsets it reads X. -/
theorem load_whole {κ : Kind} {sp : Space} {S : Shape} {e : EltTy} {M : Memref sig κ sp S e} (hM : M.IsWhole)
    (X : S.Idx → Elt Ideal e) {off : Fin S.rank → ℕ} (hz : off = fun _ => 0) (inb : ∀ a, off a + S.size a ≤ S.size a) :
    View.readAt (Elt Ideal) M.view (Rect.unit off S.size inb).toLoadRect (hM.unread X) = X :=
  (load_rect hM X (Rect.unit off S.size inb)).trans (View.ld_unit_zero hz inb X)

/-- The block of y depends on its five operands only. -/
theorem pay30_congr {a a' : Vec Ideal S256x4096 .f32} {T T' : Vec Ideal S4096x512 .bf16} {b b' : Vec Ideal S256x512 .f32}
    {w w' : Vec Ideal S512x512 .f32} {d d' : Vec Ideal S1x512 .f32} (ha : a = a') (hT : T = T') (hb : b = b') (hw : w = w')
    (hd : d = d') : k0_pay30 (F := Ideal) a T b w d = k0_pay30 (F := Ideal) a' T' b' w' d' := by
  subst ha hT hb hw hd; rfl

/-- The block of y the body stores at point t, from loads of its staging buffers and a staged product A that is T, is
    the block over the windows' contents and T. -/
theorem pay30_loads (c : Dev nD) (t : Fin cfg0.N) (A T : Vec Ideal S4096x512 .bf16) (hA : A = T) :
    k0_pay30 (F := Ideal)
      (View.readAt (Elt Ideal) (stg0 t).view (Rect.unit (s := S256x4096) ![0, 0] S256x4096.size inb_S256x4096_S256x4096_0_0).toLoadRect ((hstg0 t).unread (iblk m c 0 t)))
      A
      (View.readAt (Elt Ideal) (stg2 t).view (Rect.unit (s := S256x512) ![0, 0] S256x512.size inb_S256x512_S256x512_0_0).toLoadRect ((hstg2 t).unread (iblk m c 2 t)))
      (View.readAt (Elt Ideal) (stg3 t).view (Rect.unit (s := S1024x512) ![512, 0] S512x512.size inb_S1024x512_S512x512_512_0).toLoadRect ((hstg3 t).unread (iblk m c 3 t)))
      (View.readAt (Elt Ideal) (stg4 t).view (Rect.unit (s := S1x512) ![0, 0] S1x512.size inb_S1x512_S1x512_0_0).toLoadRect ((hstg4 t).unread (iblk m c 4 t)))
      = yBlk m c t T :=
  pay30_congr (load_whole (hstg0 t) (iblk m c 0 t) hz2 _) hA (load_whole (hstg2 t) (iblk m c 2 t) hz2 _)
    (load_rect (hstg3 t) (iblk m c 3 t) _) (load_whole (hstg4 t) (iblk m c 4 t) hz2 _)

/-- Row R of the output, when it lies in point t's block, is the block's row R - 256 t. -/
theorem yBlk_row (c : Dev nD) (t : Fin cfg0.N) (T : Vec Ideal S4096x512 .bf16)
    (hT : ∀ (k : Fin 4096) (col : Fin 512), T (ix2 k col) = Cert.Spec.tK (x1S m c) (wS m c) k col) (R : Fin 4096) (col : Fin 512)
    (h : 256 * t.val ≤ R.val ∧ R.val < 256 * t.val + 256) :
    yBlk m c t T (ix2 (⟨R.val - 256 * t.val, by omega⟩ : Fin 256) col) = yS m c R col :=
  (yBlk_apply m c t T hT _ col).trans
    (congrArg (fun r => yS m c r col) (Fin.ext (by show 256 * t.val + (R.val - 256 * t.val) = R.val; omega)))

/-- A load of the whole first scratch at contents T reads T. -/
theorem scT_load (T : Vec Ideal S4096x512 .bf16) :
    View.readAt (Elt Ideal) scT.view (Rect.unit (s := S4096x512) ![0, 0] S4096x512.size inb_S4096x512_S4096x512_0_0).toLoadRect
      ((Memref.isWhole_whole cc0_scratch0).unread T) = T :=
  load_whole (M := scT) (Memref.isWhole_whole cc0_scratch0) T hz2 _

/-- A middle point: its block of y over what it found. -/
theorem outB (c : Dev nD) (t : Fin cfg0.N) (h0 : ¬t.val % 16 = 0) (h3 : ¬t.val % 16 = 15) (Y : Vec Ideal S4096x512 .f32) (R : Fin 4096) (col : Fin 512)
    (T : Vec Ideal S4096x512 .bf16) (s0 q0 : Vec Ideal S1x512 .f32)
    (hT : ∀ (k : Fin 4096) (col : Fin 512), T (ix2 k col) = Cert.Spec.tK (x1S m c) (wS m c) k col) :
    (stg7 t).view.read (Elt Ideal) ((stg7 t).view.writes (Elt Ideal) ((hstg7 t).unread Y)
      ((atB m c t h0 h3 T s0 q0).2.2 Y).1) (ix2 R col)
      = if 256 * t.val ≤ R.val ∧ R.val < 256 * t.val + 256 then yS m c R col else Y (ix2 R col) := by
  unfold atB runB
  dsimp only
  refine (read_block_rows (hstg7 t) Y _ _ _ (256 * t.val) (off1_at t) R col).trans ?_
  by_cases h : 256 * t.val ≤ R.val ∧ R.val < 256 * t.val + 256
  · rw [dif_pos h, if_pos h]
    refine (congrFun (pay30_loads m c t _ T (scT_load T)) _).trans ?_
    exact yBlk_row m c t T hT R col h
  · rw [dif_neg h, if_neg h]

/-- At point 0 the body reads the staged product back from its scratch after the eight slab stores: the scratch's
    contents after the point. -/
theorem v5_eq (c : Dev nD) (t : Fin cfg0.N) (h0 : t.val % 16 = 0) :
    runA.sl.v5 (F := Ideal) c (stg1 t) (hstg1 t) (stg3 t) (hstg3 t) scT (iblk m c 1 t) (iblk m c 3 t)
      = (scrAt (F := Ideal) m c 0 (Nat.lt_of_le_of_lt (Nat.zero_le _) t.isLt)).1 := by
  have ht0 : t.val = 0 := by have := lt16 t; omega
  obtain ⟨tv, htv⟩ := t
  change tv = 0 at ht0
  subst ht0
  unfold scrAt atA runA
  dsimp only
  unfold runA.sl.v5 View.readCov
  rw [View.readAt_eq_ld]
  exact View.ld_unit_zero hz2 _ _

/-- Point 0: its block of y over what it found. -/
theorem outA (c : Dev nD) (t : Fin cfg0.N) (h0 : t.val % 16 = 0) (Y : Vec Ideal S4096x512 .f32) (R : Fin 4096) (col : Fin 512) :
    (stg7 t).view.read (Elt Ideal) ((stg7 t).view.writes (Elt Ideal) ((hstg7 t).unread Y) ((atA m c t h0).2.2.2 Y).1) (ix2 R col)
      = if 256 * t.val ≤ R.val ∧ R.val < 256 * t.val + 256 then yS m c R col else Y (ix2 R col) := by
  unfold atA runA
  dsimp only
  refine (read_block_rows (hstg7 t) Y _ _ _ (256 * t.val) (off1_at t) R col).trans ?_
  by_cases h : 256 * t.val ≤ R.val ∧ R.val < 256 * t.val + 256
  · rw [dif_pos h, if_pos h]
    refine (congrFun (pay30_loads m c t _ _ (v5_eq m c t h0)) _).trans ?_
    exact yBlk_row m c t _ (scrT_apply m c 0 _) R col h
  · rw [dif_neg h, if_neg h]

end Early

/-- A point before the last: its own rows become y, the others are kept. -/
theorem outAt_early (c : Dev nD) (t : Fin cfg0.N) (ht : t.val ≠ 15) (Y : Vec Ideal S4096x512 .f32) (R : Fin 4096) (col : Fin 512) :
    outAt (F := Ideal) m c t Y (ix2 R col)
      = if 256 * t.val ≤ R.val ∧ R.val < 256 * t.val + 256 then yS m c R col else Y (ix2 R col) := by
  have h16 := lt16 t
  unfold outAt
  by_cases h0 : t.val % 16 = 0
  · rw [dif_pos h0]
    exact Early.outA m c t h0 Y R col
  · have h3 : ¬t.val % 16 = 15 := by omega
    rw [dif_neg h0, dif_neg h3]
    exact Early.outB m c t h0 h3 Y R col _ _ _ (scrT_apply m c _ _)

end Cert.KernelIdeal.Hand

end
-- ==== Proof.KI.ValSums.lean ====
/-
  The running column sums: after grid point n the second and third scratch buffers hold the sums of y and of y squared
  over rows 0 .. 256 (n + 1) - 1; after the last point, over all 4096 rows.
-/
import proofs.«180622_g18880676233904_cont_8to1_729_6_alg».proof.Proof.KI.ValT
import proofs.«180622_g18880676233904_cont_8to1_729_6_alg».proof.Proof.KI.ValY
import Idealize.ShloMosaic.PureOps.Ideal.Laws
import Idealize.ShloMosaic.Lib.ValueIdx
import Idealize.ShloMosaic.Lib.Pipeline.Value
import Idealize.ShloMosaic.Lib.ValueLayout
import Mathlib.Data.Fintype.BigOperators
import Mathlib.Algebra.BigOperators.Fin
import Mathlib.Algebra.BigOperators.Group.Finset.Basic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat RDat Cfg Window cellOf)

/-! ## Sums over an initial stretch of the 4096 rows -/

/-- A function of the 4096 rows, continued by zero to every natural number. -/
private def rowExt {M : Type} [AddCommMonoid M] (f : Fin 4096 → M) (k : ℕ) : M := if h : k < 4096 then f ⟨k, h⟩ else 0

/-- The sum over the rows below b is a sum over the first b natural numbers. -/
private theorem sum_rows_below {M : Type} [AddCommMonoid M] (f : Fin 4096 → M) (b : ℕ) (hb : b ≤ 4096) :
    (∑ r : Fin 4096, if r.val < b then f r else 0) = ∑ k ∈ Finset.range b, rowExt f k := by
  have h1 : (∑ r : Fin 4096, if r.val < b then f r else 0) = ∑ r : Fin 4096, (fun k => if k < b then rowExt f k else 0) r.val :=
    Finset.sum_congr rfl fun r _ => by
      show _ = if r.val < b then rowExt f r.val else 0
      unfold rowExt
      rw [dif_pos r.isLt]
  rw [h1, Fin.sum_univ_eq_sum_range (fun k => if k < b then rowExt f k else 0) 4096, ← Finset.sum_filter]
  refine Finset.sum_congr ?_ fun _ _ => rfl
  ext k
  simp only [Finset.mem_filter, Finset.mem_range]
  omega

/-- Extending the stretch by 256 rows adds the sum over those rows. -/
private theorem sum_rows_add {M : Type} [AddCommMonoid M] (f : Fin 4096 → M) (a : ℕ) (ha : a + 256 ≤ 4096) :
    (∑ r : Fin 4096, if r.val < a + 256 then f r else 0)
      = (∑ r : Fin 4096, if r.val < a then f r else 0) + ∑ p : Fin 256, f ⟨a + p.val, by omega⟩ := by
  rw [sum_rows_below f (a + 256) ha, sum_rows_below f a (by omega), Finset.sum_range_add,
    ← Fin.sum_univ_eq_sum_range (fun x => rowExt f (a + x)) 256]
  refine congrArg (_ + ·) (Finset.sum_congr rfl fun p _ => ?_)
  show rowExt f (a + p.val) = _
  unfold rowExt
  rw [dif_pos (by omega)]

/-- The rows of block n + 1, added to those of blocks 0 to n. -/
private theorem sum_rows_step {M : Type} [AddCommMonoid M] (f : Fin 4096 → M) (n : ℕ) (hn : n + 1 < 16) :
    (∑ r : Fin 4096, if r.val < 256 * (n + 1 + 1) then f r else 0)
      = (∑ r : Fin 4096, if r.val < 256 * (n + 1) then f r else 0) + ∑ p : Fin 256, f ⟨256 * (n + 1) + p.val, by omega⟩ := by
  have e : 256 * (n + 1 + 1) = 256 * (n + 1) + 256 := by omega
  rw [e]
  exact sum_rows_add f (256 * (n + 1)) (by omega)

/-- The rows of block 0. -/
private theorem sum_rows_first {M : Type} [AddCommMonoid M] (f : Fin 4096 → M) :
    (∑ r : Fin 4096, if r.val < 256 * (0 + 1) then f r else 0) = ∑ p : Fin 256, f ⟨256 * 0 + p.val, by omega⟩ := by
  have h := sum_rows_add f 0 (by omega)
  have e0 : (∑ r : Fin 4096, if r.val < 0 then f r else 0) = 0 := Finset.sum_eq_zero fun r _ => if_neg (Nat.not_lt_zero _)
  rw [e0] at h
  have e : 256 * (0 + 1) = 0 + 256 := by omega
  rw [e]
  refine h.trans ((zero_add _).trans (Finset.sum_congr rfl fun p _ => congrArg f (Fin.ext ?_)))
  show 0 + p.val = 256 * 0 + p.val
  omega

/-! ## One point's stores into the two sums

Each run stores into either sum exactly once, through the whole [1, 512] rectangle, so what the buffer holds afterwards
is that store's payload; the payload's operands are whole-buffer loads of the blocks, hence the blocks themselves. -/

/-- The offsets of a whole-buffer rectangle are zero. -/
private theorem wholeOffsets_zero : (![0, 0] : Fin 2 → Nat) = fun _ => 0 := by
  funext a; match a with | ⟨0, _⟩ => rfl | ⟨1, _⟩ => rfl

private theorem runB_sum_apply {c : Dev nD} {i : grid0.Coords} {arg1 : Memref sig .tc .vmem S256x4096 .f32} {harg1 : arg1.IsWhole} {arg2 : Memref sig .tc .vmem S4096x512 .f32} {harg2 : arg2.IsWhole} {arg3 : Memref sig .tc .vmem S256x512 .f32} {harg3 : arg3.IsWhole} {arg4 : Memref sig .tc .vmem S1024x512 .f32} {harg4 : arg4.IsWhole} {arg5 : Memref sig .tc .vmem S1x512 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S4096x512 .f32} {harg8 : arg8.IsWhole} {arg9 : Memref sig .tc .vmem S4096x512 .bf16} {harg9 : arg9.IsWhole} {arg10 : Memref sig .tc .vmem S1x512 .f32} {harg10 : arg10.IsWhole} {arg11 : Memref sig .tc .vmem S1x512 .f32} {harg11 : arg11.IsWhole} {hFirst : ¬atFirst i} {hPast : pastFirst i} {hLast : ¬atLast i} {x0 : Vec Ideal S256x4096 .f32} {x1 : Vec Ideal S4096x512 .f32} {x2 : Vec Ideal S256x512 .f32} {x3 : Vec Ideal S1024x512 .f32} {x4 : Vec Ideal S1x512 .f32} {x5 : Vec Ideal S1x512 .f32} {x6 : Vec Ideal S1x512 .f32} {t0 : Vec Ideal S4096x512 .bf16} {s0 : Vec Ideal S1x512 .f32} {q0 : Vec Ideal S1x512 .f32} (col : Fin 512) :
    arg10.view.read (Elt Ideal) (arg10.view.writes (Elt Ideal) arg10.view.junk (runB (F := Ideal) c i arg1 harg1 arg2 harg2 arg3 harg3 arg4 harg4 arg5 harg5 arg6 harg6 arg7 harg7 arg8 harg8 arg9 harg9 arg10 harg10 arg11 harg11 hFirst hPast hLast x0 x1 x2 x3 x4 x5 x6 t0 s0 q0).1) (ix2 (0 : Fin 1) col)
      = s0 (ix2 (0 : Fin 1) col) + ∑ p : Fin 256, k0_pay30 (F := Ideal) x0 t0 x2 (w2Of x3) x4 (ix2 p col) := by
  rw [View.read_writes_junk_eq_canon]
  unfold runB
  dsimp only
  rw [View.canon_unit_zero (S := S1x512) wholeOffsets_zero]
  simp only [View.readAt_eq_ld, harg1.read_unread, harg9.read_unread, harg3.read_unread, harg4.read_unread, harg5.read_unread, harg10.read_unread, harg11.read_unread,
    View.ld_unit_zero (S := S256x4096) wholeOffsets_zero, View.ld_unit_zero (S := S4096x512) wholeOffsets_zero, View.ld_unit_zero (S := S256x512) wholeOffsets_zero, View.ld_unit_zero (S := S1x512) wholeOffsets_zero]
  exact (pay35_apply x0 t0 x2 (w2Of x3) x4 s0 col).trans (congrArg (s0 (ix2 (0 : Fin 1) col) + ·) (pay31_apply x0 t0 x2 (w2Of x3) x4 col))

private theorem runB_sq_apply {c : Dev nD} {i : grid0.Coords} {arg1 : Memref sig .tc .vmem S256x4096 .f32} {harg1 : arg1.IsWhole} {arg2 : Memref sig .tc .vmem S4096x512 .f32} {harg2 : arg2.IsWhole} {arg3 : Memref sig .tc .vmem S256x512 .f32} {harg3 : arg3.IsWhole} {arg4 : Memref sig .tc .vmem S1024x512 .f32} {harg4 : arg4.IsWhole} {arg5 : Memref sig .tc .vmem S1x512 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S4096x512 .f32} {harg8 : arg8.IsWhole} {arg9 : Memref sig .tc .vmem S4096x512 .bf16} {harg9 : arg9.IsWhole} {arg10 : Memref sig .tc .vmem S1x512 .f32} {harg10 : arg10.IsWhole} {arg11 : Memref sig .tc .vmem S1x512 .f32} {harg11 : arg11.IsWhole} {hFirst : ¬atFirst i} {hPast : pastFirst i} {hLast : ¬atLast i} {x0 : Vec Ideal S256x4096 .f32} {x1 : Vec Ideal S4096x512 .f32} {x2 : Vec Ideal S256x512 .f32} {x3 : Vec Ideal S1024x512 .f32} {x4 : Vec Ideal S1x512 .f32} {x5 : Vec Ideal S1x512 .f32} {x6 : Vec Ideal S1x512 .f32} {t0 : Vec Ideal S4096x512 .bf16} {s0 : Vec Ideal S1x512 .f32} {q0 : Vec Ideal S1x512 .f32} (col : Fin 512) :
    arg11.view.read (Elt Ideal) (arg11.view.writes (Elt Ideal) arg11.view.junk (runB (F := Ideal) c i arg1 harg1 arg2 harg2 arg3 harg3 arg4 harg4 arg5 harg5 arg6 harg6 arg7 harg7 arg8 harg8 arg9 harg9 arg10 harg10 arg11 harg11 hFirst hPast hLast x0 x1 x2 x3 x4 x5 x6 t0 s0 q0).2.1) (ix2 (0 : Fin 1) col)
      = q0 (ix2 (0 : Fin 1) col) + ∑ p : Fin 256, k0_pay30 (F := Ideal) x0 t0 x2 (w2Of x3) x4 (ix2 p col) * k0_pay30 (F := Ideal) x0 t0 x2 (w2Of x3) x4 (ix2 p col) := by
  rw [View.read_writes_junk_eq_canon]
  unfold runB
  dsimp only
  rw [View.canon_unit_zero (S := S1x512) wholeOffsets_zero]
  simp only [View.readAt_eq_ld, harg1.read_unread, harg9.read_unread, harg3.read_unread, harg4.read_unread, harg5.read_unread, harg10.read_unread, harg11.read_unread,
    View.ld_unit_zero (S := S256x4096) wholeOffsets_zero, View.ld_unit_zero (S := S4096x512) wholeOffsets_zero, View.ld_unit_zero (S := S256x512) wholeOffsets_zero, View.ld_unit_zero (S := S1x512) wholeOffsets_zero]
  exact (pay36_apply x0 t0 x2 (w2Of x3) x4 q0 col).trans (congrArg (q0 (ix2 (0 : Fin 1) col) + ·) (pay32_apply x0 t0 x2 (w2Of x3) x4 col))

private theorem runC_sum_apply {c : Dev nD} {i : grid0.Coords} {arg1 : Memref sig .tc .vmem S256x4096 .f32} {harg1 : arg1.IsWhole} {arg2 : Memref sig .tc .vmem S4096x512 .f32} {harg2 : arg2.IsWhole} {arg3 : Memref sig .tc .vmem S256x512 .f32} {harg3 : arg3.IsWhole} {arg4 : Memref sig .tc .vmem S1024x512 .f32} {harg4 : arg4.IsWhole} {arg5 : Memref sig .tc .vmem S1x512 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S4096x512 .f32} {harg8 : arg8.IsWhole} {arg9 : Memref sig .tc .vmem S4096x512 .bf16} {harg9 : arg9.IsWhole} {arg10 : Memref sig .tc .vmem S1x512 .f32} {harg10 : arg10.IsWhole} {arg11 : Memref sig .tc .vmem S1x512 .f32} {harg11 : arg11.IsWhole} {hFirst : ¬atFirst i} {hPast : pastFirst i} {hLast : atLast i} {x0 : Vec Ideal S256x4096 .f32} {x1 : Vec Ideal S4096x512 .f32} {x2 : Vec Ideal S256x512 .f32} {x3 : Vec Ideal S1024x512 .f32} {x4 : Vec Ideal S1x512 .f32} {x5 : Vec Ideal S1x512 .f32} {x6 : Vec Ideal S1x512 .f32} {t0 : Vec Ideal S4096x512 .bf16} {s0 : Vec Ideal S1x512 .f32} {q0 : Vec Ideal S1x512 .f32} (col : Fin 512) :
    arg10.view.read (Elt Ideal) (arg10.view.writes (Elt Ideal) arg10.view.junk (runC (F := Ideal) c i arg1 harg1 arg2 harg2 arg3 harg3 arg4 harg4 arg5 harg5 arg6 harg6 arg7 harg7 arg8 harg8 arg9 harg9 arg10 harg10 arg11 harg11 hFirst hPast hLast x0 x1 x2 x3 x4 x5 x6 t0 s0 q0).1) (ix2 (0 : Fin 1) col)
      = s0 (ix2 (0 : Fin 1) col) + ∑ p : Fin 256, k0_pay30 (F := Ideal) x0 t0 x2 (w2Of x3) x4 (ix2 p col) := by
  rw [View.read_writes_junk_eq_canon]
  unfold runC
  dsimp only
  sl_unfold_run_names
  rw [View.canon_unit_zero (S := S1x512) wholeOffsets_zero]
  simp only [View.readAt_eq_ld, harg1.read_unread, harg9.read_unread, harg3.read_unread, harg4.read_unread, harg5.read_unread, harg10.read_unread, harg11.read_unread,
    View.ld_unit_zero (S := S256x4096) wholeOffsets_zero, View.ld_unit_zero (S := S4096x512) wholeOffsets_zero, View.ld_unit_zero (S := S256x512) wholeOffsets_zero, View.ld_unit_zero (S := S1x512) wholeOffsets_zero]
  exact (pay35_apply x0 t0 x2 (w2Of x3) x4 s0 col).trans (congrArg (s0 (ix2 (0 : Fin 1) col) + ·) (pay31_apply x0 t0 x2 (w2Of x3) x4 col))

private theorem runC_sq_apply {c : Dev nD} {i : grid0.Coords} {arg1 : Memref sig .tc .vmem S256x4096 .f32} {harg1 : arg1.IsWhole} {arg2 : Memref sig .tc .vmem S4096x512 .f32} {harg2 : arg2.IsWhole} {arg3 : Memref sig .tc .vmem S256x512 .f32} {harg3 : arg3.IsWhole} {arg4 : Memref sig .tc .vmem S1024x512 .f32} {harg4 : arg4.IsWhole} {arg5 : Memref sig .tc .vmem S1x512 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S4096x512 .f32} {harg8 : arg8.IsWhole} {arg9 : Memref sig .tc .vmem S4096x512 .bf16} {harg9 : arg9.IsWhole} {arg10 : Memref sig .tc .vmem S1x512 .f32} {harg10 : arg10.IsWhole} {arg11 : Memref sig .tc .vmem S1x512 .f32} {harg11 : arg11.IsWhole} {hFirst : ¬atFirst i} {hPast : pastFirst i} {hLast : atLast i} {x0 : Vec Ideal S256x4096 .f32} {x1 : Vec Ideal S4096x512 .f32} {x2 : Vec Ideal S256x512 .f32} {x3 : Vec Ideal S1024x512 .f32} {x4 : Vec Ideal S1x512 .f32} {x5 : Vec Ideal S1x512 .f32} {x6 : Vec Ideal S1x512 .f32} {t0 : Vec Ideal S4096x512 .bf16} {s0 : Vec Ideal S1x512 .f32} {q0 : Vec Ideal S1x512 .f32} (col : Fin 512) :
    arg11.view.read (Elt Ideal) (arg11.view.writes (Elt Ideal) arg11.view.junk (runC (F := Ideal) c i arg1 harg1 arg2 harg2 arg3 harg3 arg4 harg4 arg5 harg5 arg6 harg6 arg7 harg7 arg8 harg8 arg9 harg9 arg10 harg10 arg11 harg11 hFirst hPast hLast x0 x1 x2 x3 x4 x5 x6 t0 s0 q0).2.1) (ix2 (0 : Fin 1) col)
      = q0 (ix2 (0 : Fin 1) col) + ∑ p : Fin 256, k0_pay30 (F := Ideal) x0 t0 x2 (w2Of x3) x4 (ix2 p col) * k0_pay30 (F := Ideal) x0 t0 x2 (w2Of x3) x4 (ix2 p col) := by
  rw [View.read_writes_junk_eq_canon]
  unfold runC
  dsimp only
  sl_unfold_run_names
  rw [View.canon_unit_zero (S := S1x512) wholeOffsets_zero]
  simp only [View.readAt_eq_ld, harg1.read_unread, harg9.read_unread, harg3.read_unread, harg4.read_unread, harg5.read_unread, harg10.read_unread, harg11.read_unread,
    View.ld_unit_zero (S := S256x4096) wholeOffsets_zero, View.ld_unit_zero (S := S4096x512) wholeOffsets_zero, View.ld_unit_zero (S := S256x512) wholeOffsets_zero, View.ld_unit_zero (S := S1x512) wholeOffsets_zero]
  exact (pay36_apply x0 t0 x2 (w2Of x3) x4 q0 col).trans (congrArg (q0 (ix2 (0 : Fin 1) col) + ·) (pay32_apply x0 t0 x2 (w2Of x3) x4 col))

/-- At point 0 the staged product the block is computed from is the first scratch read back whole after its eight slab
    stores: what that scratch holds after the point. -/
private theorem runA_staged_eq_readback {c : Dev nD} {i : grid0.Coords} {arg1 : Memref sig .tc .vmem S256x4096 .f32} {harg1 : arg1.IsWhole} {arg2 : Memref sig .tc .vmem S4096x512 .f32} {harg2 : arg2.IsWhole} {arg3 : Memref sig .tc .vmem S256x512 .f32} {harg3 : arg3.IsWhole} {arg4 : Memref sig .tc .vmem S1024x512 .f32} {harg4 : arg4.IsWhole} {arg5 : Memref sig .tc .vmem S1x512 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S4096x512 .f32} {harg8 : arg8.IsWhole} {arg9 : Memref sig .tc .vmem S4096x512 .bf16} {harg9 : arg9.IsWhole} {arg10 : Memref sig .tc .vmem S1x512 .f32} {harg10 : arg10.IsWhole} {arg11 : Memref sig .tc .vmem S1x512 .f32} {harg11 : arg11.IsWhole} {hFirst : atFirst i} {hPast : ¬pastFirst i} {hLast : ¬atLast i} {x0 : Vec Ideal S256x4096 .f32} {x1 : Vec Ideal S4096x512 .f32} {x2 : Vec Ideal S256x512 .f32} {x3 : Vec Ideal S1024x512 .f32} {x4 : Vec Ideal S1x512 .f32} {x5 : Vec Ideal S1x512 .f32} {x6 : Vec Ideal S1x512 .f32} :
    runA.sl.v5 (F := Ideal) c arg2 harg2 arg4 harg4 arg9 x1 x3
      = arg9.view.read (Elt Ideal) (arg9.view.writes (Elt Ideal) arg9.view.junk (runA (F := Ideal) c i arg1 harg1 arg2 harg2 arg3 harg3 arg4 harg4 arg5 harg5 arg6 harg6 arg7 harg7 arg8 harg8 arg9 harg9 arg10 harg10 arg11 harg11 hFirst hPast hLast x0 x1 x2 x3 x4 x5 x6).1) := by
  rw [View.read_writes_junk_eq_canon]
  unfold runA
  dsimp only
  unfold runA.sl.v5
  rw [View.readCov_eq_canon']
  exact View.ld_unit_zero (S := S4096x512) wholeOffsets_zero _ _

private theorem runA_sum_apply {c : Dev nD} {i : grid0.Coords} {arg1 : Memref sig .tc .vmem S256x4096 .f32} {harg1 : arg1.IsWhole} {arg2 : Memref sig .tc .vmem S4096x512 .f32} {harg2 : arg2.IsWhole} {arg3 : Memref sig .tc .vmem S256x512 .f32} {harg3 : arg3.IsWhole} {arg4 : Memref sig .tc .vmem S1024x512 .f32} {harg4 : arg4.IsWhole} {arg5 : Memref sig .tc .vmem S1x512 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S4096x512 .f32} {harg8 : arg8.IsWhole} {arg9 : Memref sig .tc .vmem S4096x512 .bf16} {harg9 : arg9.IsWhole} {arg10 : Memref sig .tc .vmem S1x512 .f32} {harg10 : arg10.IsWhole} {arg11 : Memref sig .tc .vmem S1x512 .f32} {harg11 : arg11.IsWhole} {hFirst : atFirst i} {hPast : ¬pastFirst i} {hLast : ¬atLast i} {x0 : Vec Ideal S256x4096 .f32} {x1 : Vec Ideal S4096x512 .f32} {x2 : Vec Ideal S256x512 .f32} {x3 : Vec Ideal S1024x512 .f32} {x4 : Vec Ideal S1x512 .f32} {x5 : Vec Ideal S1x512 .f32} {x6 : Vec Ideal S1x512 .f32} (col : Fin 512) :
    arg10.view.read (Elt Ideal) (arg10.view.writes (Elt Ideal) arg10.view.junk (runA (F := Ideal) c i arg1 harg1 arg2 harg2 arg3 harg3 arg4 harg4 arg5 harg5 arg6 harg6 arg7 harg7 arg8 harg8 arg9 harg9 arg10 harg10 arg11 harg11 hFirst hPast hLast x0 x1 x2 x3 x4 x5 x6).2.1) (ix2 (0 : Fin 1) col)
      = ∑ p : Fin 256, k0_pay30 (F := Ideal) x0 (runA.sl.v5 (F := Ideal) c arg2 harg2 arg4 harg4 arg9 x1 x3) x2 (w2Of x3) x4 (ix2 p col) := by
  rw [View.read_writes_junk_eq_canon]
  unfold runA
  dsimp only
  rw [View.canon_unit_zero (S := S1x512) wholeOffsets_zero]
  simp only [View.readAt_eq_ld, harg1.read_unread, harg3.read_unread, harg4.read_unread, harg5.read_unread,
    View.ld_unit_zero (S := S256x4096) wholeOffsets_zero, View.ld_unit_zero (S := S256x512) wholeOffsets_zero, View.ld_unit_zero (S := S1x512) wholeOffsets_zero]
  exact (pay33_apply x0 _ x2 (w2Of x3) x4 col).trans (pay31_apply x0 _ x2 (w2Of x3) x4 col)

private theorem runA_sq_apply {c : Dev nD} {i : grid0.Coords} {arg1 : Memref sig .tc .vmem S256x4096 .f32} {harg1 : arg1.IsWhole} {arg2 : Memref sig .tc .vmem S4096x512 .f32} {harg2 : arg2.IsWhole} {arg3 : Memref sig .tc .vmem S256x512 .f32} {harg3 : arg3.IsWhole} {arg4 : Memref sig .tc .vmem S1024x512 .f32} {harg4 : arg4.IsWhole} {arg5 : Memref sig .tc .vmem S1x512 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S4096x512 .f32} {harg8 : arg8.IsWhole} {arg9 : Memref sig .tc .vmem S4096x512 .bf16} {harg9 : arg9.IsWhole} {arg10 : Memref sig .tc .vmem S1x512 .f32} {harg10 : arg10.IsWhole} {arg11 : Memref sig .tc .vmem S1x512 .f32} {harg11 : arg11.IsWhole} {hFirst : atFirst i} {hPast : ¬pastFirst i} {hLast : ¬atLast i} {x0 : Vec Ideal S256x4096 .f32} {x1 : Vec Ideal S4096x512 .f32} {x2 : Vec Ideal S256x512 .f32} {x3 : Vec Ideal S1024x512 .f32} {x4 : Vec Ideal S1x512 .f32} {x5 : Vec Ideal S1x512 .f32} {x6 : Vec Ideal S1x512 .f32} (col : Fin 512) :
    arg11.view.read (Elt Ideal) (arg11.view.writes (Elt Ideal) arg11.view.junk (runA (F := Ideal) c i arg1 harg1 arg2 harg2 arg3 harg3 arg4 harg4 arg5 harg5 arg6 harg6 arg7 harg7 arg8 harg8 arg9 harg9 arg10 harg10 arg11 harg11 hFirst hPast hLast x0 x1 x2 x3 x4 x5 x6).2.2.1) (ix2 (0 : Fin 1) col)
      = ∑ p : Fin 256, k0_pay30 (F := Ideal) x0 (runA.sl.v5 (F := Ideal) c arg2 harg2 arg4 harg4 arg9 x1 x3) x2 (w2Of x3) x4 (ix2 p col) * k0_pay30 (F := Ideal) x0 (runA.sl.v5 (F := Ideal) c arg2 harg2 arg4 harg4 arg9 x1 x3) x2 (w2Of x3) x4 (ix2 p col) := by
  rw [View.read_writes_junk_eq_canon]
  unfold runA
  dsimp only
  rw [View.canon_unit_zero (S := S1x512) wholeOffsets_zero]
  simp only [View.readAt_eq_ld, harg1.read_unread, harg3.read_unread, harg4.read_unread, harg5.read_unread,
    View.ld_unit_zero (S := S256x4096) wholeOffsets_zero, View.ld_unit_zero (S := S256x512) wholeOffsets_zero, View.ld_unit_zero (S := S1x512) wholeOffsets_zero]
  exact (pay34_apply x0 _ x2 (w2Of x3) x4 col).trans (pay32_apply x0 _ x2 (w2Of x3) x4 col)

variable (m : (ℓ : Loc nD τ sig) → Buf (Elt Ideal) ℓ)

/-! ## The scratch contents by cases of the point -/

private theorem scrAt_zero_staged (c : Dev nD) (hn : 0 < cfg0.N) :
    (scrAt (F := Ideal) m c 0 hn).1
      = scT.view.read (Elt Ideal) (scT.view.writes (Elt Ideal) scT.view.junk (atA m c ⟨0, hn⟩ (Nat.zero_mod _)).1) := by
  rw [scrAt]

private theorem scrAt_zero_sum (c : Dev nD) (hn : 0 < cfg0.N) :
    (scrAt (F := Ideal) m c 0 hn).2.1
      = scSum.view.read (Elt Ideal) (scSum.view.writes (Elt Ideal) scSum.view.junk (atA m c ⟨0, hn⟩ (Nat.zero_mod _)).2.1) := by
  rw [scrAt]

private theorem scrAt_zero_sq (c : Dev nD) (hn : 0 < cfg0.N) :
    (scrAt (F := Ideal) m c 0 hn).2.2
      = scSq.view.read (Elt Ideal) (scSq.view.writes (Elt Ideal) scSq.view.junk (atA m c ⟨0, hn⟩ (Nat.zero_mod _)).2.2.1) := by
  rw [scrAt]

private theorem scrAt_succ_sum_C (c : Dev nD) (n : ℕ) (hn : n + 1 < cfg0.N) (h3 : (n + 1) % 16 = 15) :
    (scrAt (F := Ideal) m c (n + 1) hn).2.1 = scSum.view.read (Elt Ideal) (scSum.view.writes (Elt Ideal) scSum.view.junk (atC m c ⟨n + 1, hn⟩ h3 (scrAt m c n (Nat.lt_of_succ_lt hn)).1 (scrAt m c n (Nat.lt_of_succ_lt hn)).2.1 (scrAt m c n (Nat.lt_of_succ_lt hn)).2.2).1) := by
  rw [scrAt, dif_pos h3]

private theorem scrAt_succ_sum_B (c : Dev nD) (n : ℕ) (hn : n + 1 < cfg0.N) (h0 : ¬(n + 1) % 16 = 0) (h3 : ¬(n + 1) % 16 = 15) :
    (scrAt (F := Ideal) m c (n + 1) hn).2.1 = scSum.view.read (Elt Ideal) (scSum.view.writes (Elt Ideal) scSum.view.junk (atB m c ⟨n + 1, hn⟩ h0 h3 (scrAt m c n (Nat.lt_of_succ_lt hn)).1 (scrAt m c n (Nat.lt_of_succ_lt hn)).2.1 (scrAt m c n (Nat.lt_of_succ_lt hn)).2.2).1) := by
  rw [scrAt, dif_neg h3]

private theorem scrAt_succ_sq_C (c : Dev nD) (n : ℕ) (hn : n + 1 < cfg0.N) (h3 : (n + 1) % 16 = 15) :
    (scrAt (F := Ideal) m c (n + 1) hn).2.2 = scSq.view.read (Elt Ideal) (scSq.view.writes (Elt Ideal) scSq.view.junk (atC m c ⟨n + 1, hn⟩ h3 (scrAt m c n (Nat.lt_of_succ_lt hn)).1 (scrAt m c n (Nat.lt_of_succ_lt hn)).2.1 (scrAt m c n (Nat.lt_of_succ_lt hn)).2.2).2.1) := by
  rw [scrAt, dif_pos h3]

private theorem scrAt_succ_sq_B (c : Dev nD) (n : ℕ) (hn : n + 1 < cfg0.N) (h0 : ¬(n + 1) % 16 = 0) (h3 : ¬(n + 1) % 16 = 15) :
    (scrAt (F := Ideal) m c (n + 1) hn).2.2 = scSq.view.read (Elt Ideal) (scSq.view.writes (Elt Ideal) scSq.view.junk (atB m c ⟨n + 1, hn⟩ h0 h3 (scrAt m c n (Nat.lt_of_succ_lt hn)).1 (scrAt m c n (Nat.lt_of_succ_lt hn)).2.1 (scrAt m c n (Nat.lt_of_succ_lt hn)).2.2).2.1) := by
  rw [scrAt, dif_neg h3]

/-! ## One point's contribution -/

/-- Point 0 starts the sum with the column sums of block 0. -/
private theorem scrSum_zero (c : Dev nD) (hn : 0 < cfg0.N) (col : Fin 512) :
    (scrAt (F := Ideal) m c 0 hn).2.1 (ix2 (0 : Fin 1) col) = ∑ p : Fin 256, yS m c (rowOf ⟨0, hn⟩ p) col := by
  rw [scrAt_zero_sum]
  refine (runA_sum_apply col).trans (Finset.sum_congr rfl fun p _ => ?_)
  refine yBlk_apply m c ⟨0, hn⟩ _ (fun k l => ?_) p col
  exact (congrFun (runA_staged_eq_readback.trans (scrAt_zero_staged m c hn).symm) (ix2 k l)).trans (scrT_apply m c 0 hn k l)

private theorem scrSq_zero (c : Dev nD) (hn : 0 < cfg0.N) (col : Fin 512) :
    (scrAt (F := Ideal) m c 0 hn).2.2 (ix2 (0 : Fin 1) col)
      = ∑ p : Fin 256, yS m c (rowOf ⟨0, hn⟩ p) col * yS m c (rowOf ⟨0, hn⟩ p) col := by
  have hT : ∀ (k : Fin 4096) (l : Fin 512), _ = Cert.Spec.tK (x1S m c) (wS m c) k l := fun k l =>
    (congrFun (runA_staged_eq_readback.trans (scrAt_zero_staged m c hn).symm) (ix2 k l)).trans (scrT_apply m c 0 hn k l)
  rw [scrAt_zero_sq]
  refine (runA_sq_apply col).trans (Finset.sum_congr rfl fun p _ => ?_)
  exact congrArg₂ (· * ·) (yBlk_apply m c ⟨0, hn⟩ _ hT p col) (yBlk_apply m c ⟨0, hn⟩ _ hT p col)

/-- Every later point adds the column sums of its own block. -/
private theorem scrSum_succ (c : Dev nD) (n : ℕ) (hn : n + 1 < cfg0.N) (col : Fin 512) :
    (scrAt (F := Ideal) m c (n + 1) hn).2.1 (ix2 (0 : Fin 1) col)
      = (scrAt (F := Ideal) m c n (Nat.lt_of_succ_lt hn)).2.1 (ix2 (0 : Fin 1) col) + ∑ p : Fin 256, yS m c (rowOf ⟨n + 1, hn⟩ p) col := by
  have hlt : n + 1 < 16 := lt_of_lt_of_eq hn (show cfg0.N = 16 from N_0)
  by_cases h3 : (n + 1) % 16 = 15
  · rw [scrAt_succ_sum_C m c n hn h3]
    refine (runC_sum_apply col).trans (congrArg (_ + ·) (Finset.sum_congr rfl fun p _ => ?_))
    exact yBlk_apply m c ⟨n + 1, hn⟩ _ (scrT_apply m c n _) p col
  · rw [scrAt_succ_sum_B m c n hn (by omega) h3]
    refine (runB_sum_apply col).trans (congrArg (_ + ·) (Finset.sum_congr rfl fun p _ => ?_))
    exact yBlk_apply m c ⟨n + 1, hn⟩ _ (scrT_apply m c n _) p col

private theorem scrSq_succ (c : Dev nD) (n : ℕ) (hn : n + 1 < cfg0.N) (col : Fin 512) :
    (scrAt (F := Ideal) m c (n + 1) hn).2.2 (ix2 (0 : Fin 1) col)
      = (scrAt (F := Ideal) m c n (Nat.lt_of_succ_lt hn)).2.2 (ix2 (0 : Fin 1) col)
        + ∑ p : Fin 256, yS m c (rowOf ⟨n + 1, hn⟩ p) col * yS m c (rowOf ⟨n + 1, hn⟩ p) col := by
  have hlt : n + 1 < 16 := lt_of_lt_of_eq hn (show cfg0.N = 16 from N_0)
  by_cases h3 : (n + 1) % 16 = 15
  · rw [scrAt_succ_sq_C m c n hn h3]
    refine (runC_sq_apply col).trans (congrArg (_ + ·) (Finset.sum_congr rfl fun p _ => ?_))
    exact congrArg₂ (· * ·) (yBlk_apply m c ⟨n + 1, hn⟩ _ (scrT_apply m c n _) p col) (yBlk_apply m c ⟨n + 1, hn⟩ _ (scrT_apply m c n _) p col)
  · rw [scrAt_succ_sq_B m c n hn (by omega) h3]
    refine (runB_sq_apply col).trans (congrArg (_ + ·) (Finset.sum_congr rfl fun p _ => ?_))
    exact congrArg₂ (· * ·) (yBlk_apply m c ⟨n + 1, hn⟩ _ (scrT_apply m c n _) p col) (yBlk_apply m c ⟨n + 1, hn⟩ _ (scrT_apply m c n _) p col)

/-! ## The running sums -/

/-- The running sum of y after point n. -/
theorem scrSum_apply (c : Dev nD) (n : ℕ) (hn : n < cfg0.N) (col : Fin 512) :
    (scrAt (F := Ideal) m c n hn).2.1 (ix2 (0 : Fin 1) col)
      = ∑ r : Fin 4096, if r.val < 256 * (n + 1) then yS m c r col else 0 := by
  induction n with
  | zero =>
    rw [scrSum_zero m c hn col]
    exact (sum_rows_first (fun r => yS m c r col)).symm
  | succ n ih =>
    have hlt : n + 1 < 16 := lt_of_lt_of_eq hn (show cfg0.N = 16 from N_0)
    rw [scrSum_succ m c n hn col, ih (Nat.lt_of_succ_lt hn)]
    exact (sum_rows_step (fun r => yS m c r col) n hlt).symm

/-- The running sum of y squared after point n. -/
theorem scrSq_apply (c : Dev nD) (n : ℕ) (hn : n < cfg0.N) (col : Fin 512) :
    (scrAt (F := Ideal) m c n hn).2.2 (ix2 (0 : Fin 1) col)
      = ∑ r : Fin 4096, if r.val < 256 * (n + 1) then yS m c r col * yS m c r col else 0 := by
  induction n with
  | zero =>
    rw [scrSq_zero m c hn col]
    exact (sum_rows_first (fun r => yS m c r col * yS m c r col)).symm
  | succ n ih =>
    have hlt : n + 1 < 16 := lt_of_lt_of_eq hn (show cfg0.N = 16 from N_0)
    rw [scrSq_succ m c n hn col, ih (Nat.lt_of_succ_lt hn)]
    exact (sum_rows_step (fun r => yS m c r col * yS m c r col) n hlt).symm

end Cert.KernelIdeal.Hand

end
-- ==== Proof.KI.ValOutLast.lean ====
/-
  What the last grid point makes of the resident output buffer: it stores its block of y into rows 3840 .. 4095 and then
  replaces every 256-row slab by the normalization, with the column sums completed by its own block. If the first
  3840 rows held y, every entry ends at the specification's result.
-/
import proofs.«180622_g18880676233904_cont_8to1_729_6_alg».proof.Proof.KI.ValSums
import Idealize.ShloMosaic.PureOps.Ideal.Laws
import Idealize.ShloMosaic.Lib.ValueIdx
import Idealize.ShloMosaic.Lib.WritesUnit
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat RDat Cfg Window cellOf)

/-! ## The normalization's arithmetic, entry by entry -/

/-- The column mean: the sum times 2^-12. -/
theorem pay9_apply (S : Vec Ideal S1x512 .f32) (col : Fin 512) :
    k0_pay9 (F := Ideal) S (ix2 (0 : Fin 1) col) = S (ix2 (0 : Fin 1) col) * Cert.Spec.invN := rfl

/-- The scale: the reciprocal square root of the variance plus eps, times gamma. -/
theorem pay10_apply (S Q G : Vec Ideal S1x512 .f32) (col : Fin 512) :
    k0_pay10 (F := Ideal) S Q G (ix2 (0 : Fin 1) col)
      = Ideal.rsqrt (((Q (ix2 (0 : Fin 1) col) * Cert.Spec.invN)
          - (S (ix2 (0 : Fin 1) col) * Cert.Spec.invN) * (S (ix2 (0 : Fin 1) col) * Cert.Spec.invN)) + Cert.Spec.eps)
        * G (ix2 (0 : Fin 1) col) := by
  unfold k0_pay10
  simp only [shapeCast_self]
  rfl

/-- The shift: beta minus the mean times the scale. -/
theorem pay11_apply (S Q G BE : Vec Ideal S1x512 .f32) (col : Fin 512) :
    k0_pay11 (F := Ideal) S Q G BE (ix2 (0 : Fin 1) col)
      = BE (ix2 (0 : Fin 1) col) - (S (ix2 (0 : Fin 1) col) * Cert.Spec.invN) * k0_pay10 (F := Ideal) S Q G (ix2 (0 : Fin 1) col) := by
  unfold k0_pay11
  simp only [shapeCast_self]
  rfl

/-- One normalized entry: the slab's entry times the scale of its column plus the shift of its column, clamped at zero. -/
theorem slabPay_apply (scale shift : Vec Ideal S1x512 .f32) (slab : Vec Ideal S256x512 .f32) (p : Fin 256) (col : Fin 512) :
    max (shapeCast S256x512 slab shapeCasts_S256x512_S256x512 (ix2 p col)
        * broadcastTo S256x512 scale broadcasts_S1x512_S256x512 (ix2 p col)
        + broadcastTo S256x512 shift broadcasts_S1x512_S256x512 (ix2 p col)) (Ideal.ofBits .f32 0x00000000#32)
      = max (slab (ix2 p col) * scale (ix2 (0 : Fin 1) col) + shift (ix2 (0 : Fin 1) col)) 0 := by
  rw [Ideal.ofBits_zero_f32, shapeCast_self, broadcastTo_1b_ab_apply, broadcastTo_1b_ab_apply]

/-- The sixteen slab payloads are that one expression: the first two over the sums, gamma and beta, -/
theorem pay12_apply (S Q G BE : Vec Ideal S1x512 .f32) (slab : Vec Ideal S256x512 .f32) (p : Fin 256) (col : Fin 512) :
    k0_pay12 (F := Ideal) S Q G BE slab (ix2 p col)
      = max (slab (ix2 p col) * k0_pay10 (F := Ideal) S Q G (ix2 (0 : Fin 1) col) + k0_pay11 (F := Ideal) S Q G BE (ix2 (0 : Fin 1) col)) 0 :=
  slabPay_apply (k0_pay10 (F := Ideal) S Q G) (k0_pay11 (F := Ideal) S Q G BE) slab p col

theorem pay13_apply (S Q G BE : Vec Ideal S1x512 .f32) (slab : Vec Ideal S256x512 .f32) (p : Fin 256) (col : Fin 512) :
    k0_pay13 (F := Ideal) S Q G BE slab (ix2 p col)
      = max (slab (ix2 p col) * k0_pay10 (F := Ideal) S Q G (ix2 (0 : Fin 1) col) + k0_pay11 (F := Ideal) S Q G BE (ix2 (0 : Fin 1) col)) 0 :=
  slabPay_apply (k0_pay10 (F := Ideal) S Q G) (k0_pay11 (F := Ideal) S Q G BE) slab p col

/-- the other fourteen over the scale and shift rows. -/
theorem pay14_apply (scale shift : Vec Ideal S1x512 .f32) (slab : Vec Ideal S256x512 .f32) (p : Fin 256) (col : Fin 512) :
    k0_pay14 (F := Ideal) scale shift slab (ix2 p col)
      = max (slab (ix2 p col) * scale (ix2 (0 : Fin 1) col) + shift (ix2 (0 : Fin 1) col)) 0 :=
  slabPay_apply scale shift slab p col

theorem pay15_apply (scale shift : Vec Ideal S1x512 .f32) (slab : Vec Ideal S256x512 .f32) (p : Fin 256) (col : Fin 512) :
    k0_pay15 (F := Ideal) scale shift slab (ix2 p col)
      = max (slab (ix2 p col) * scale (ix2 (0 : Fin 1) col) + shift (ix2 (0 : Fin 1) col)) 0 :=
  slabPay_apply scale shift slab p col

theorem pay16_apply (scale shift : Vec Ideal S1x512 .f32) (slab : Vec Ideal S256x512 .f32) (p : Fin 256) (col : Fin 512) :
    k0_pay16 (F := Ideal) scale shift slab (ix2 p col)
      = max (slab (ix2 p col) * scale (ix2 (0 : Fin 1) col) + shift (ix2 (0 : Fin 1) col)) 0 :=
  slabPay_apply scale shift slab p col

theorem pay17_apply (scale shift : Vec Ideal S1x512 .f32) (slab : Vec Ideal S256x512 .f32) (p : Fin 256) (col : Fin 512) :
    k0_pay17 (F := Ideal) scale shift slab (ix2 p col)
      = max (slab (ix2 p col) * scale (ix2 (0 : Fin 1) col) + shift (ix2 (0 : Fin 1) col)) 0 :=
  slabPay_apply scale shift slab p col

theorem pay18_apply (scale shift : Vec Ideal S1x512 .f32) (slab : Vec Ideal S256x512 .f32) (p : Fin 256) (col : Fin 512) :
    k0_pay18 (F := Ideal) scale shift slab (ix2 p col)
      = max (slab (ix2 p col) * scale (ix2 (0 : Fin 1) col) + shift (ix2 (0 : Fin 1) col)) 0 :=
  slabPay_apply scale shift slab p col

theorem pay19_apply (scale shift : Vec Ideal S1x512 .f32) (slab : Vec Ideal S256x512 .f32) (p : Fin 256) (col : Fin 512) :
    k0_pay19 (F := Ideal) scale shift slab (ix2 p col)
      = max (slab (ix2 p col) * scale (ix2 (0 : Fin 1) col) + shift (ix2 (0 : Fin 1) col)) 0 :=
  slabPay_apply scale shift slab p col

theorem pay20_apply (scale shift : Vec Ideal S1x512 .f32) (slab : Vec Ideal S256x512 .f32) (p : Fin 256) (col : Fin 512) :
    k0_pay20 (F := Ideal) scale shift slab (ix2 p col)
      = max (slab (ix2 p col) * scale (ix2 (0 : Fin 1) col) + shift (ix2 (0 : Fin 1) col)) 0 :=
  slabPay_apply scale shift slab p col

theorem pay21_apply (scale shift : Vec Ideal S1x512 .f32) (slab : Vec Ideal S256x512 .f32) (p : Fin 256) (col : Fin 512) :
    k0_pay21 (F := Ideal) scale shift slab (ix2 p col)
      = max (slab (ix2 p col) * scale (ix2 (0 : Fin 1) col) + shift (ix2 (0 : Fin 1) col)) 0 :=
  slabPay_apply scale shift slab p col

theorem pay22_apply (scale shift : Vec Ideal S1x512 .f32) (slab : Vec Ideal S256x512 .f32) (p : Fin 256) (col : Fin 512) :
    k0_pay22 (F := Ideal) scale shift slab (ix2 p col)
      = max (slab (ix2 p col) * scale (ix2 (0 : Fin 1) col) + shift (ix2 (0 : Fin 1) col)) 0 :=
  slabPay_apply scale shift slab p col

theorem pay23_apply (scale shift : Vec Ideal S1x512 .f32) (slab : Vec Ideal S256x512 .f32) (p : Fin 256) (col : Fin 512) :
    k0_pay23 (F := Ideal) scale shift slab (ix2 p col)
      = max (slab (ix2 p col) * scale (ix2 (0 : Fin 1) col) + shift (ix2 (0 : Fin 1) col)) 0 :=
  slabPay_apply scale shift slab p col

theorem pay24_apply (scale shift : Vec Ideal S1x512 .f32) (slab : Vec Ideal S256x512 .f32) (p : Fin 256) (col : Fin 512) :
    k0_pay24 (F := Ideal) scale shift slab (ix2 p col)
      = max (slab (ix2 p col) * scale (ix2 (0 : Fin 1) col) + shift (ix2 (0 : Fin 1) col)) 0 :=
  slabPay_apply scale shift slab p col

theorem pay25_apply (scale shift : Vec Ideal S1x512 .f32) (slab : Vec Ideal S256x512 .f32) (p : Fin 256) (col : Fin 512) :
    k0_pay25 (F := Ideal) scale shift slab (ix2 p col)
      = max (slab (ix2 p col) * scale (ix2 (0 : Fin 1) col) + shift (ix2 (0 : Fin 1) col)) 0 :=
  slabPay_apply scale shift slab p col

theorem pay1_apply (scale shift : Vec Ideal S1x512 .f32) (slab : Vec Ideal S256x512 .f32) (p : Fin 256) (col : Fin 512) :
    k0_pay1 (F := Ideal) scale shift slab (ix2 p col)
      = max (slab (ix2 p col) * scale (ix2 (0 : Fin 1) col) + shift (ix2 (0 : Fin 1) col)) 0 :=
  slabPay_apply scale shift slab p col

theorem pay2_apply (scale shift : Vec Ideal S1x512 .f32) (slab : Vec Ideal S256x512 .f32) (p : Fin 256) (col : Fin 512) :
    k0_pay2 (F := Ideal) scale shift slab (ix2 p col)
      = max (slab (ix2 p col) * scale (ix2 (0 : Fin 1) col) + shift (ix2 (0 : Fin 1) col)) 0 :=
  slabPay_apply scale shift slab p col

/-! ## The stores read back, one slab at a time -/

/-- The multiply-add clamped at zero, of an array ys with a scale row and a shift row. -/
def nrmLast (ys : Fin 4096 → Fin 512 → EReal) (scale shift : Vec Ideal S1x512 .f32) (R : Fin 4096) (col : Fin 512) : EReal :=
  max (ys R col * scale (ix2 (0 : Fin 1) col) + shift (ix2 (0 : Fin 1) col)) 0

section Walk

variable {sig' : RefSig} {κ' : Kind} {sp' : Space} (v : View sig' κ' sp' S4096x512 .f32) (f : v.ty.Contents (Elt Ideal))

/-- A load of 256 whole rows from row o reads the buffer at row o + p. -/
theorem ldRows_last (g : v.ty.Contents (Elt Ideal)) (o : ℕ)
    (inb : ∀ a : Fin 2, (![o, 0] : Fin 2 → ℕ) a + S256x512.size a ≤ S4096x512.size a) (p : Fin 256) (col : Fin 512) (R : Fin 4096)
    (hR : R.val = o + p.val) :
    v.readAt (Elt Ideal) (Rect.unit (s := S4096x512) ![o, 0] S256x512.size inb).toLoadRect g (ix2 p col)
      = v.read (Elt Ideal) g (ix2 R col) := by
  rw [View.readAt_apply]
  refine congrArg _ ?_
  funext a; apply Fin.ext
  match a with
  | ⟨0, _⟩ => show o + 1 * p.val = R.val; omega
  | ⟨1, _⟩ => show 0 + 1 * col.val = col.val; omega

/-- One normalizing store: rows 256 j .. 256 j + 255 are replaced by the multiply-add of what they held, the other rows
    kept. If before it the rows below 256 j were normalized and the others held ys, after it the rows below 256 (j + 1)
    are normalized and the others hold ys. -/
theorem slab_step (L : List (View.Piece (Elt Ideal) S4096x512 .f32)) (o : ℕ)
    (inb : ∀ a : Fin 2, (![o, 0] : Fin 2 → ℕ) a + S256x512.size a ≤ S4096x512.size a)
    (pay : Vec Ideal S256x512 .f32 → FVec Ideal S256x512 .f32) (scale shift : Vec Ideal S1x512 .f32)
    (hpay : ∀ (slab : Vec Ideal S256x512 .f32) (p : Fin 256) (col : Fin 512),
      pay slab (ix2 p col) = max (slab (ix2 p col) * scale (ix2 (0 : Fin 1) col) + shift (ix2 (0 : Fin 1) col)) 0)
    (ys : Fin 4096 → Fin 512 → EReal) (j : ℕ) (ho : o = 256 * j)
    (hC : ∀ (R : Fin 4096) (col : Fin 512), v.read (Elt Ideal) (v.writes (Elt Ideal) f L) (ix2 R col)
      = if R.val < 256 * j then nrmLast ys scale shift R col else ys R col)
    (R : Fin 4096) (col : Fin 512) :
    v.read (Elt Ideal) (v.writes (Elt Ideal) f
        ((⟨Rect.unit (s := S4096x512) ![o, 0] S256x512.size inb,
            pay (v.readAt (Elt Ideal) (Rect.unit (s := S4096x512) ![o, 0] S256x512.size inb).toLoadRect (v.writes (Elt Ideal) f L))⟩
          : View.Piece (Elt Ideal) S4096x512 .f32) :: L)) (ix2 R col)
      = if R.val < 256 * (j + 1) then nrmLast ys scale shift R col else ys R col := by
  by_cases h : o ≤ R.val ∧ R.val < o + 256
  · have hp : R.val - o < 256 := by omega
    refine (View.read_writes_cons_rows_of_mem v f inb _ L (ix2 R col) (ix2 (⟨R.val - o, hp⟩ : Fin 256) col) rfl
      (by show R.val = o + (R.val - o); omega) rfl).trans ?_
    rw [hpay, ldRows_last v (v.writes (Elt Ideal) f L) o inb ⟨R.val - o, hp⟩ col R (by show R.val = o + (R.val - o); omega), hC R col,
      if_neg (by omega), if_pos (by omega)]
    rfl
  · refine (View.read_writes_cons_rows_of_not_mem (W := 256) v f inb _ L (ix2 R col) rfl rfl (by show R.val < o ∨ o + 256 ≤ R.val; omega)).trans ?_
    rw [hC R col]
    by_cases h1 : R.val < 256 * j
    · rw [if_pos h1, if_pos (by omega)]
    · rw [if_neg h1, if_neg (by omega)]

end Walk

/-! ## The last point -/

variable (m : (ℓ : Loc nD τ sig) → Buf (Elt Ideal) ℓ)

/-- At the last point the block of y goes to row 3840, column 0. -/
theorem off_last : ∀ t : Fin cfg0.N, t.val = 15 → k0_off1 (grid0.coords t) = ![3840, 0] :=
  (by decide +kernel : ∀ t : Fin grid0.N, t.val = 15 → k0_off1 (grid0.coords t) = ![3840, 0])

/-- The whole [1, 512] row loaded from a buffer that holds x is x. -/
theorem ldRow_last (M : Memref sig .tc .vmem S1x512 .f32) (h : M.IsWhole) (x : Vec Ideal S1x512 .f32) (col : Fin 512) :
    View.readAt (Elt Ideal) M.view (Rect.unit (s := S1x512) ![0, 0] S1x512.size inb_S1x512_S1x512_0_0).toLoadRect (h.unread x) (ix2 (0 : Fin 1) col)
      = x (ix2 (0 : Fin 1) col) := by
  have hz : (![0, 0] : Fin 2 → ℕ) = fun _ => 0 := by funext a; match a with | ⟨0, _⟩ => rfl | ⟨1, _⟩ => rfl
  rw [View.readAt_eq_ld, h.read_unread, View.ld_unit_zero (S := S1x512) hz]

/-- The running sums after a point that is the last: what its stores into the two sum buffers leave. -/
theorem scrAt_last_sum (c : Dev nD) (n : ℕ) (hn : n + 1 < cfg0.N) (h3 : (n + 1) % 16 = 15) :
    (scrAt (F := Ideal) m c (n + 1) hn).2.1
      = scSum.view.read (Elt Ideal) (scSum.view.writes (Elt Ideal) scSum.view.junk
          (atC m c ⟨n + 1, hn⟩ h3 (scrAt m c n (Nat.lt_of_succ_lt hn)).1 (scrAt m c n (Nat.lt_of_succ_lt hn)).2.1 (scrAt m c n (Nat.lt_of_succ_lt hn)).2.2).1) := by
  rw [scrAt, dif_pos h3]

theorem scrAt_last_sq (c : Dev nD) (n : ℕ) (hn : n + 1 < cfg0.N) (h3 : (n + 1) % 16 = 15) :
    (scrAt (F := Ideal) m c (n + 1) hn).2.2
      = scSq.view.read (Elt Ideal) (scSq.view.writes (Elt Ideal) scSq.view.junk
          (atC m c ⟨n + 1, hn⟩ h3 (scrAt m c n (Nat.lt_of_succ_lt hn)).1 (scrAt m c n (Nat.lt_of_succ_lt hn)).2.1 (scrAt m c n (Nat.lt_of_succ_lt hn)).2.2).2.1) := by
  rw [scrAt, dif_pos h3]

/-- The sums the last point normalizes with are the column sums of y and of y squared over all 4096 rows. -/
theorem sums_last (c : Dev nD) (t : Fin cfg0.N) (ht : t.val = 15) (col : Fin 512) :
    runC.sl.v34 (F := Ideal) c (stg0 t) (hstg0 t) (stg2 t) (hstg2 t) (stg3 t) (hstg3 t) (stg4 t) (hstg4 t) scT (Memref.isWhole_whole _)
        scSum (Memref.isWhole_whole _) (iblk m c 0 t) (iblk m c 2 t) (iblk m c 3 t) (iblk m c 4 t)
        (scrBefore m c t).1 (scrBefore m c t).2.1 (ix2 (0 : Fin 1) col)
      = ∑ r : Fin 4096, yS m c r col
    ∧ runC.sl.v37 (F := Ideal) c (stg0 t) (hstg0 t) (stg2 t) (hstg2 t) (stg3 t) (hstg3 t) (stg4 t) (hstg4 t) scT (Memref.isWhole_whole _)
        scSq (Memref.isWhole_whole _) (iblk m c 0 t) (iblk m c 2 t) (iblk m c 3 t) (iblk m c 4 t)
        (scrBefore m c t).1 (scrBefore m c t).2.2 (ix2 (0 : Fin 1) col)
      = ∑ r : Fin 4096, yS m c r col * yS m c r col := by
  obtain ⟨tv, htv⟩ := t
  obtain rfl : tv = 15 := ht
  have h3 : (14 + 1) % 16 = 15 := rfl
  have hz : (![0, 0] : Fin 2 → ℕ) = fun _ => 0 := by funext a; match a with | ⟨0, _⟩ => rfl | ⟨1, _⟩ => rfl
  constructor
  · have e := scrSum_apply m c 15 htv col
    rw [Finset.sum_congr rfl (fun r _ => if_pos (show r.val < 256 * (15 + 1) by have := r.isLt; omega))] at e
    refine Eq.trans ?_ e
    refine Eq.trans ?_ (congrFun (scrAt_last_sum m c 14 htv h3).symm _)
    unfold runC.sl.v34 View.readCov
    rw [View.readAt_eq_ld, View.ld_unit_zero (S := S1x512) hz]
    rfl
  · have e := scrSq_apply m c 15 htv col
    rw [Finset.sum_congr rfl (fun r _ => if_pos (show r.val < 256 * (15 + 1) by have := r.isLt; omega))] at e
    refine Eq.trans ?_ e
    refine Eq.trans ?_ (congrFun (scrAt_last_sq m c 14 htv h3).symm _)
    unfold runC.sl.v37 View.readCov
    rw [View.readAt_eq_ld, View.ld_unit_zero (S := S1x512) hz]
    rfl

/-- The whole block loaded from a buffer that holds x is x. -/
theorem ldAll_last {κ : Kind} {sp : Space} {S : Shape} {e : EltTy} (M : Memref sig κ sp S e) (h : M.IsWhole) (x : S.Idx → Elt Ideal e)
    {off : Fin S.rank → ℕ} (hz : off = fun _ => 0) (inb : ∀ a, off a + S.size a ≤ S.size a) :
    View.readAt (Elt Ideal) M.view (Rect.unit off S.size inb).toLoadRect (h.unread x) = x := by
  rw [View.readAt_eq_ld, h.read_unread, View.ld_unit_zero hz]

/-- The first store of the last point, the block of y at rows 3840 .. 4095, over contents whose first 3840 rows hold y:
    every row then holds y. -/
theorem base_last (c : Dev nD) (t : Fin cfg0.N) (ht : t.val = 15) (Y : Vec Ideal S4096x512 .f32)
    (hY : ∀ (R : Fin 4096) (col : Fin 512), R.val < 3840 → Y (ix2 R col) = yS m c R col) (R : Fin 4096) (col : Fin 512) :
    (stg7 t).view.read (Elt Ideal) ((stg7 t).view.writes (Elt Ideal) ((hstg7 t).unread Y)
        (runC.sl.H8_1 (F := Ideal) c (grid0.coords t) (stg0 t) (hstg0 t) (stg2 t) (hstg2 t) (stg3 t) (hstg3 t) (stg4 t) (hstg4 t)
          scT (Memref.isWhole_whole _) (iblk m c 0 t) (iblk m c 2 t) (iblk m c 3 t) (iblk m c 4 t) (scrBefore m c t).1)) (ix2 R col)
      = yS m c R col := by
  have hoff := off_last t ht
  have hz : (![0, 0] : Fin 2 → ℕ) = fun _ => 0 := by funext a; match a with | ⟨0, _⟩ => rfl | ⟨1, _⟩ => rfl
  unfold runC.sl.H8_1
  by_cases h : 3840 ≤ R.val
  · have hp : R.val - 3840 < 256 := by have := R.isLt; omega
    refine (View.read_writes_cons_rows_of_mem (stg7 t).view _ _ _ [] (ix2 R col) (ix2 (⟨R.val - 3840, hp⟩ : Fin 256) col) hoff
      (by show R.val = 3840 + (R.val - 3840); omega) rfl).trans ?_
    rw [ldAll_last (stg0 t) (hstg0 t) (iblk m c 0 t) hz, ldAll_last scT (Memref.isWhole_whole _) (scrBefore m c t).1 hz,
      ldAll_last (stg2 t) (hstg2 t) (iblk m c 2 t) hz, ldAll_last (stg4 t) (hstg4 t) (iblk m c 4 t) hz,
      View.readAt_eq_ld, (hstg3 t).read_unread]
    have e := yBlk_apply m c t (scrBefore m c t).1 (fun k col => scrT_apply m c (t.val - 1) _ k col) ⟨R.val - 3840, hp⟩ col
    unfold yBlk at e
    refine e.trans ?_
    exact congrArg (fun r => yS m c r col) (Fin.ext (by show 256 * t.val + (R.val - 3840) = R.val; omega))
  · refine (View.read_writes_cons_rows_of_not_mem (W := 256) (stg7 t).view _ _ _ [] (ix2 R col) hoff rfl
      (Or.inl (by show R.val < 3840; omega))).trans ?_
    rw [View.writes_nil, (hstg7 t).read_unread]
    exact hY R col (by omega)

set_option maxHeartbeats 1000000 in
/-- The last point, over a buffer whose first 3840 rows hold y: every entry is the result. -/
theorem outAt_last (c : Dev nD) (t : Fin cfg0.N) (ht : t.val = 15) (Y : Vec Ideal S4096x512 .f32)
    (hY : ∀ (R : Fin 4096) (col : Fin 512), R.val < 3840 → Y (ix2 R col) = yS m c R col) (R : Fin 4096) (col : Fin 512) :
    outAt (F := Ideal) m c t Y (ix2 R col) = kerOut m c (ix2 R col) := by
  have h0 : ¬ t.val % 16 = 0 := by omega
  have h3 : t.val % 16 = 15 := by omega
  have hoff := off_last t ht
  unfold outAt
  rw [dif_neg h0, dif_pos h3]
  unfold atC
  unfold runC
  dsimp only
  refine (slab_step (stg7 t).view ((hstg7 t).unread Y) _ 3840 _ (k0_pay2 _ _) _ _ (fun slab p col => pay2_apply _ _ slab p col) (yS m c) 15 rfl ?hC R col).trans ?fin
  case fin =>
    obtain ⟨hS, hQ⟩ := sums_last m c t ht col
    rw [if_pos (by have := R.isLt; omega)]
    unfold nrmLast kerOut Cert.Spec.outK Cert.Spec.normK
    show max (yS m c R col * k0_pay10 (F := Ideal) _ _ _ (ix2 (0 : Fin 1) col) + k0_pay11 (F := Ideal) _ _ _ _ (ix2 (0 : Fin 1) col)) 0 = _
    rw [pay11_apply, pay10_apply, hS, hQ, ldRow_last, ldRow_last, gB_apply, beB_apply]
    rfl
  clear R col
  intro R col
  refine slab_step (stg7 t).view ((hstg7 t).unread Y) _ 3584 _ (k0_pay1 _ _) _ _ (fun slab p col => pay1_apply _ _ slab p col) (yS m c) 14 rfl ?_ R col
  intro R col
  refine slab_step (stg7 t).view ((hstg7 t).unread Y) _ 3328 _ (k0_pay25 _ _) _ _ (fun slab p col => pay25_apply _ _ slab p col) (yS m c) 13 rfl ?_ R col
  intro R col
  refine slab_step (stg7 t).view ((hstg7 t).unread Y) _ 3072 _ (k0_pay24 _ _) _ _ (fun slab p col => pay24_apply _ _ slab p col) (yS m c) 12 rfl ?_ R col
  intro R col
  refine slab_step (stg7 t).view ((hstg7 t).unread Y) _ 2816 _ (k0_pay23 _ _) _ _ (fun slab p col => pay23_apply _ _ slab p col) (yS m c) 11 rfl ?_ R col
  intro R col
  refine slab_step (stg7 t).view ((hstg7 t).unread Y) _ 2560 _ (k0_pay22 _ _) _ _ (fun slab p col => pay22_apply _ _ slab p col) (yS m c) 10 rfl ?_ R col
  intro R col
  refine slab_step (stg7 t).view ((hstg7 t).unread Y) _ 2304 _ (k0_pay21 _ _) _ _ (fun slab p col => pay21_apply _ _ slab p col) (yS m c) 9 rfl ?_ R col
  intro R col
  refine slab_step (stg7 t).view ((hstg7 t).unread Y) _ 2048 _ (k0_pay20 _ _) _ _ (fun slab p col => pay20_apply _ _ slab p col) (yS m c) 8 rfl ?_ R col
  intro R col
  refine slab_step (stg7 t).view ((hstg7 t).unread Y) _ 1792 _ (k0_pay19 _ _) _ _ (fun slab p col => pay19_apply _ _ slab p col) (yS m c) 7 rfl ?_ R col
  intro R col
  refine slab_step (stg7 t).view ((hstg7 t).unread Y) _ 1536 _ (k0_pay18 _ _) _ _ (fun slab p col => pay18_apply _ _ slab p col) (yS m c) 6 rfl ?_ R col
  intro R col
  refine slab_step (stg7 t).view ((hstg7 t).unread Y) _ 1280 _ (k0_pay17 _ _) _ _ (fun slab p col => pay17_apply _ _ slab p col) (yS m c) 5 rfl ?_ R col
  intro R col
  refine slab_step (stg7 t).view ((hstg7 t).unread Y) _ 1024 _ (k0_pay16 _ _) _ _ (fun slab p col => pay16_apply _ _ slab p col) (yS m c) 4 rfl ?_ R col
  intro R col
  refine slab_step (stg7 t).view ((hstg7 t).unread Y) _ 768 _ (k0_pay15 _ _) _ _ (fun slab p col => pay15_apply _ _ slab p col) (yS m c) 3 rfl ?_ R col
  intro R col
  refine slab_step (stg7 t).view ((hstg7 t).unread Y) _ 512 _ (k0_pay14 _ _) _ _ (fun slab p col => pay14_apply _ _ slab p col) (yS m c) 2 rfl ?_ R col
  intro R col
  refine slab_step (stg7 t).view ((hstg7 t).unread Y) _ 256 _ (k0_pay13 _ _ _ _) _ _ (fun slab p col => pay13_apply _ _ _ _ slab p col) (yS m c) 1 rfl ?_ R col
  intro R col
  refine slab_step (stg7 t).view ((hstg7 t).unread Y) _ 0 _ (k0_pay12 _ _ _ _) _ _ (fun slab p col => pay12_apply _ _ _ _ slab p col) (yS m c) 0 rfl ?_ R col
  intro R col
  rw [if_neg (by omega)]
  exact base_last m c t ht Y hY R col

end Cert.KernelIdeal.Hand

end
-- ==== Proof.KI.Body.lean ====
/-
  The body obligation of the pipeline's proof data: at every grid point, from the invariant and the eight current staging
  buffers at contents they may hold, the kernel body runs to the invariant at the next point with every input buffer
  as found and the output buffer at the point's stores over what it held.
-/
import proofs.«180622_g18880676233904_cont_8to1_729_6_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The inputs' current buffers hold their blocks

An input window's relation leaves its buffer as found, so wherever the body is handed the buffer it holds what a
fetch puts there, and for these uncut windows that is the array's block at the point. -/

theorem finds_0 (c : Dev nD) (t : Fin cfg0.N) (Y) (h : (rdat m c).Finds 0 t Y) : Y = iblk m c 0 t := by
  obtain ⟨d, hd⟩ := (rdat m c).finds_in_eq_fetched 0 rfl (fun _ _ _ => rfl)
    (fun t Y X h => (rdat_after_in m c 0 (by decide) t Y X).mp h) t Y h
  rw [hd]; unfold RDat.fetched RDat.blockOf iblk; rw [rdat_A]; try rfl
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl)
    (fun t Y X h => (rdat_after_in m c 1 (by decide) t Y X).mp h) t Y h
  rw [hd]; unfold RDat.fetched RDat.blockOf iblk; rw [rdat_A]; try rfl
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl)
    (fun t Y X h => (rdat_after_in m c 2 (by decide) t Y X).mp h) t Y h
  rw [hd]; unfold RDat.fetched RDat.blockOf iblk; rw [rdat_A]; try rfl
theorem finds_3 (c : Dev nD) (t : Fin cfg0.N) (Y) (h : (rdat m c).Finds 3 t Y) : Y = iblk m c 3 t := by
  obtain ⟨d, hd⟩ := (rdat m c).finds_in_eq_fetched 3 rfl (fun _ _ _ => rfl)
    (fun t Y X h => (rdat_after_in m c 3 (by decide) t Y X).mp h) t Y h
  rw [hd]; unfold RDat.fetched RDat.blockOf iblk; rw [rdat_A]; try rfl
theorem finds_4 (c : Dev nD) (t : Fin cfg0.N) (Y) (h : (rdat m c).Finds 4 t Y) : Y = iblk m c 4 t := by
  obtain ⟨d, hd⟩ := (rdat m c).finds_in_eq_fetched 4 rfl (fun _ _ _ => rfl)
    (fun t Y X h => (rdat_after_in m c 4 (by decide) t Y X).mp h) t Y h
  rw [hd]; unfold RDat.fetched RDat.blockOf iblk; rw [rdat_A]; try rfl
theorem finds_5 (c : Dev nD) (t : Fin cfg0.N) (Y) (h : (rdat m c).Finds 5 t Y) : Y = iblk m c 5 t := by
  obtain ⟨d, hd⟩ := (rdat m c).finds_in_eq_fetched 5 rfl (fun _ _ _ => rfl)
    (fun t Y X h => (rdat_after_in m c 5 (by decide) t Y X).mp h) t Y h
  rw [hd]; unfold RDat.fetched RDat.blockOf iblk; rw [rdat_A]; try rfl
theorem finds_6 (c : Dev nD) (t : Fin cfg0.N) (Y) (h : (rdat m c).Finds 6 t Y) : Y = iblk m c 6 t := by
  obtain ⟨d, hd⟩ := (rdat m c).finds_in_eq_fetched 6 rfl (fun _ _ _ => rfl)
    (fun t Y X h => (rdat_after_in m c 6 (by decide) t Y X).mp h) t Y h
  rw [hd]; unfold RDat.fetched RDat.blockOf iblk; rw [rdat_A]; try rfl

/-! ## The output buffer and the scratch buffers after a point, case by case -/

theorem outAt_A (c : Dev nD) (t : Fin cfg0.N) (h0 : t.val % 16 = 0) (Y : Vec F S4096x512 .f32) :
    outAt m c t Y = (stg7 t).view.read (Elt F) ((stg7 t).view.writes (Elt F) ((hstg7 t).unread Y) ((atA m c t h0).2.2.2 Y).1) := by
  unfold outAt; rw [dif_pos h0]

theorem outAt_B (c : Dev nD) (t : Fin cfg0.N) (h0 : ¬t.val % 16 = 0) (h3 : ¬t.val % 16 = 15) (Y : Vec F S4096x512 .f32) :
    outAt m c t Y = (stg7 t).view.read (Elt F) ((stg7 t).view.writes (Elt F) ((hstg7 t).unread Y) ((atB m c t h0 h3 (scrBefore m c t).1 (scrBefore m c t).2.1 (scrBefore m c t).2.2).2.2 Y).1) := by
  unfold outAt; rw [dif_neg h0, dif_neg h3]

theorem outAt_C (c : Dev nD) (t : Fin cfg0.N) (h0 : ¬t.val % 16 = 0) (h3 : t.val % 16 = 15) (Y : Vec F S4096x512 .f32) :
    outAt m c t Y = (stg7 t).view.read (Elt F) ((stg7 t).view.writes (Elt F) ((hstg7 t).unread Y) ((atC m c t h3 (scrBefore m c t).1 (scrBefore m c t).2.1 (scrBefore m c t).2.2).2.2 Y).1) := by
  unfold outAt; rw [dif_neg h0, dif_pos h3]

/-- After point 0 the three scratch buffers hold that point's stores. -/
theorem scrAt_A (c : Dev nD) (t : Fin cfg0.N) (h0 : t.val % 16 = 0) :
    scrAt m c t.val t.isLt =
      (scT.view.read (Elt F) (scT.view.writes (Elt F) scT.view.junk (atA m c t h0).1),
       scSum.view.read (Elt F) (scSum.view.writes (Elt F) scSum.view.junk (atA m c t h0).2.1),
       scSq.view.read (Elt F) (scSq.view.writes (Elt F) scSq.view.junk (atA m c t h0).2.2.1)) := by
  have hN := lt16 t
  obtain ⟨n, hn⟩ := t
  have h0' : n % 16 = 0 := h0
  have hN' : n < 16 := hN
  have hz : n = 0 := by omega
  subst hz
  rfl

/-- After a middle point the staged product is as before and the two running sums hold the point's stores. -/
theorem scrAt_B (c : Dev nD) (t : Fin cfg0.N) (h0 : ¬t.val % 16 = 0) (h3 : ¬t.val % 16 = 15) :
    scrAt m c t.val t.isLt =
      ((scrBefore m c t).1,
       scSum.view.read (Elt F) (scSum.view.writes (Elt F) scSum.view.junk (atB m c t h0 h3 (scrBefore m c t).1 (scrBefore m c t).2.1 (scrBefore m c t).2.2).1),
       scSq.view.read (Elt F) (scSq.view.writes (Elt F) scSq.view.junk (atB m c t h0 h3 (scrBefore m c t).1 (scrBefore m c t).2.1 (scrBefore m c t).2.2).2.1)) := by
  obtain ⟨n, hn⟩ := t
  cases n with
  | zero => exact absurd (Nat.zero_mod 16) h0
  | succ n =>
    have h3' : ¬(n + 1) % 16 = 15 := h3
    show scrAt m c (n + 1) hn = _
    rw [scrAt, dif_neg h3']
    try rfl

/-- After the last point likewise. -/
theorem scrAt_C (c : Dev nD) (t : Fin cfg0.N) (h3 : t.val % 16 = 15) :
    scrAt m c t.val t.isLt =
      ((scrBefore m c t).1,
       scSum.view.read (Elt F) (scSum.view.writes (Elt F) scSum.view.junk (atC m c t h3 (scrBefore m c t).1 (scrBefore m c t).2.1 (scrBefore m c t).2.2).1),
       scSq.view.read (Elt F) (scSq.view.writes (Elt F) scSq.view.junk (atC m c t h3 (scrBefore m c t).1 (scrBefore m c t).2.1 (scrBefore m c t).2.2).2.1)) := by
  obtain ⟨n, hn⟩ := t
  cases n with
  | zero => exact absurd (show (0 : ℕ) % 16 = 15 from h3) (by decide)
  | succ n =>
    have h3' : (n + 1) % 16 = 15 := h3
    show scrAt m c (n + 1) hn = _
    rw [scrAt, dif_pos h3']
    try rfl

theorem scrAt_A_T (c : Dev nD) (t : Fin cfg0.N) (h0 : t.val % 16 = 0) :
    (scrAt m c t.val t.isLt).1 = scT.view.read (Elt F) (scT.view.writes (Elt F) scT.view.junk (atA m c t h0).1) := by rw [scrAt_A m c t h0]
theorem scrAt_A_S (c : Dev nD) (t : Fin cfg0.N) (h0 : t.val % 16 = 0) :
    (scrAt m c t.val t.isLt).2.1 = scSum.view.read (Elt F) (scSum.view.writes (Elt F) scSum.view.junk (atA m c t h0).2.1) := by rw [scrAt_A m c t h0]
theorem scrAt_A_Q (c : Dev nD) (t : Fin cfg0.N) (h0 : t.val % 16 = 0) :
    (scrAt m c t.val t.isLt).2.2 = scSq.view.read (Elt F) (scSq.view.writes (Elt F) scSq.view.junk (atA m c t h0).2.2.1) := by rw [scrAt_A m c t h0]

theorem scrAt_B_T (c : Dev nD) (t : Fin cfg0.N) (h0 : ¬t.val % 16 = 0) (h3 : ¬t.val % 16 = 15) :
    (scrAt m c t.val t.isLt).1 = (scrBefore m c t).1 := by rw [scrAt_B m c t h0 h3]
theorem scrAt_B_S (c : Dev nD) (t : Fin cfg0.N) (h0 : ¬t.val % 16 = 0) (h3 : ¬t.val % 16 = 15) :
    (scrAt m c t.val t.isLt).2.1 = scSum.view.read (Elt F) (scSum.view.writes (Elt F) scSum.view.junk (atB m c t h0 h3 (scrBefore m c t).1 (scrBefore m c t).2.1 (scrBefore m c t).2.2).1) := by rw [scrAt_B m c t h0 h3]
theorem scrAt_B_Q (c : Dev nD) (t : Fin cfg0.N) (h0 : ¬t.val % 16 = 0) (h3 : ¬t.val % 16 = 15) :
    (scrAt m c t.val t.isLt).2.2 = scSq.view.read (Elt F) (scSq.view.writes (Elt F) scSq.view.junk (atB m c t h0 h3 (scrBefore m c t).1 (scrBefore m c t).2.1 (scrBefore m c t).2.2).2.1) := by rw [scrAt_B m c t h0 h3]

theorem scrAt_C_T (c : Dev nD) (t : Fin cfg0.N) (h3 : t.val % 16 = 15) :
    (scrAt m c t.val t.isLt).1 = (scrBefore m c t).1 := by rw [scrAt_C m c t h3]
theorem scrAt_C_S (c : Dev nD) (t : Fin cfg0.N) (h3 : t.val % 16 = 15) :
    (scrAt m c t.val t.isLt).2.1 = scSum.view.read (Elt F) (scSum.view.writes (Elt F) scSum.view.junk (atC m c t h3 (scrBefore m c t).1 (scrBefore m c t).2.1 (scrBefore m c t).2.2).1) := by rw [scrAt_C m c t h3]
theorem scrAt_C_Q (c : Dev nD) (t : Fin cfg0.N) (h3 : t.val % 16 = 15) :
    (scrAt m c t.val t.isLt).2.2 = scSq.view.read (Elt F) (scSq.view.writes (Elt F) scSq.view.junk (atC m c t h3 (scrBefore m c t).1 (scrBefore m c t).2.1 (scrBefore m c t).2.2).2.1) := by rw [scrAt_C m c t h3]

/-! ## The scratch stores cover their buffers

Point 0 stages the product in eight slabs of 512 rows; every point stores each running sum whole. -/

theorem coverA_T (c : Dev nD) (t : Fin cfg0.N) (h0 : t.val % 16 = 0) :
    ∀ y : S4096x512.Idx, ∃ pc ∈ (atA m c t h0).1, y ∈ pc.1.set :=
  View.cover_of_tiledL (atA m c t h0).1 S512x512.size (by sl_kernel_rfl)

theorem coverA_S (c : Dev nD) (t : Fin cfg0.N) (h0 : t.val % 16 = 0) :
    ∀ y : S1x512.Idx, ∃ pc ∈ (atA m c t h0).2.1, y ∈ pc.1.set :=
  View.cover_of_tiledL (atA m c t h0).2.1 S1x512.size (by sl_kernel_rfl)

theorem coverA_Q (c : Dev nD) (t : Fin cfg0.N) (h0 : t.val % 16 = 0) :
    ∀ y : S1x512.Idx, ∃ pc ∈ (atA m c t h0).2.2.1, y ∈ pc.1.set :=
  View.cover_of_tiledL (atA m c t h0).2.2.1 S1x512.size (by sl_kernel_rfl)

theorem coverB_S (c : Dev nD) (t : Fin cfg0.N) (h0 : ¬t.val % 16 = 0) (h3 : ¬t.val % 16 = 15)
    (t0 : Vec F S4096x512 .bf16) (s0 : Vec F S1x512 .f32) (q0 : Vec F S1x512 .f32) :
    ∀ y : S1x512.Idx, ∃ pc ∈ (atB m c t h0 h3 t0 s0 q0).1, y ∈ pc.1.set :=
  View.cover_of_tiledL (atB m c t h0 h3 t0 s0 q0).1 S1x512.size (by sl_kernel_rfl)

theorem coverB_Q (c : Dev nD) (t : Fin cfg0.N) (h0 : ¬t.val % 16 = 0) (h3 : ¬t.val % 16 = 15)
    (t0 : Vec F S4096x512 .bf16) (s0 : Vec F S1x512 .f32) (q0 : Vec F S1x512 .f32) :
    ∀ y : S1x512.Idx, ∃ pc ∈ (atB m c t h0 h3 t0 s0 q0).2.1, y ∈ pc.1.set :=
  View.cover_of_tiledL (atB m c t h0 h3 t0 s0 q0).2.1 S1x512.size (by sl_kernel_rfl)

theorem coverC_S (c : Dev nD) (t : Fin cfg0.N) (h3 : t.val % 16 = 15)
    (t0 : Vec F S4096x512 .bf16) (s0 : Vec F S1x512 .f32) (q0 : Vec F S1x512 .f32) :
    ∀ y : S1x512.Idx, ∃ pc ∈ (atC m c t h3 t0 s0 q0).1, y ∈ pc.1.set :=
  View.cover_of_tiledL (atC m c t h3 t0 s0 q0).1 S1x512.size (by sl_kernel_rfl)

theorem coverC_Q (c : Dev nD) (t : Fin cfg0.N) (h3 : t.val % 16 = 15)
    (t0 : Vec F S4096x512 .bf16) (s0 : Vec F S1x512 .f32) (q0 : Vec F S1x512 .f32) :
    ∀ y : S1x512.Idx, ∃ pc ∈ (atC m c t h3 t0 s0 q0).2.1, y ∈ pc.1.set :=
  View.cover_of_tiledL (atC m c t h3 t0 s0 q0).2.1 S1x512.size (by sl_kernel_rfl)

/-! ## The body at a point -/

/-- What the body is handed at point t: the invariant, what the core owes, every input buffer at its block and
    the output buffer at y7. -/
def bodyPre (c : Dev nD) (t : Fin cfg0.N) (y7 : Vec F S4096x512 .f32) : sProp 𝕄 :=
  iprop(inv m c t.val (Nat.le_of_lt t.isLt) ∗ (rdat m c).owesAt () t.castSucc
    ∗ owns (c : Thread nD τ) (stg0 t) fullShare (iblk m c 0 t)
    ∗ owns (c : Thread nD τ) (stg1 t) fullShare (iblk m c 1 t)
    ∗ owns (c : Thread nD τ) (stg2 t) fullShare (iblk m c 2 t)
    ∗ owns (c : Thread nD τ) (stg3 t) fullShare (iblk m c 3 t)
    ∗ owns (c : Thread nD τ) (stg4 t) fullShare (iblk m c 4 t)
    ∗ owns (c : Thread nD τ) (stg5 t) fullShare (iblk m c 5 t)
    ∗ owns (c : Thread nD τ) (stg6 t) fullShare (iblk m c 6 t)
    ∗ owns (c : Thread nD τ) (stg7 t) fullShare y7)

/-- What it hands back: the next invariant, and every buffer at contents its window's relation allows. -/
def bodyPost (c : Dev nD) (t : Fin cfg0.N) (y7 : Vec F S4096x512 .f32) : sProp 𝕄 :=
  iprop((rdat m c).Φ t.succ ∗ (rdat m c).owesAt () t.succ
    ∗ (∃ X, ⌜(rdat m c).after 0 t (iblk m c 0 t) X⌝ ∗ owns (c : Thread nD τ) (stg0 t) fullShare X)
    ∗ (∃ X, ⌜(rdat m c).after 1 t (iblk m c 1 t) X⌝ ∗ owns (c : Thread nD τ) (stg1 t) fullShare X)
    ∗ (∃ X, ⌜(rdat m c).after 2 t (iblk m c 2 t) X⌝ ∗ owns (c : Thread nD τ) (stg2 t) fullShare X)
    ∗ (∃ X, ⌜(rdat m c).after 3 t (iblk m c 3 t) X⌝ ∗ owns (c : Thread nD τ) (stg3 t) fullShare X)
    ∗ (∃ X, ⌜(rdat m c).after 4 t (iblk m c 4 t) X⌝ ∗ owns (c : Thread nD τ) (stg4 t) fullShare X)
    ∗ (∃ X, ⌜(rdat m c).after 5 t (iblk m c 5 t) X⌝ ∗ owns (c : Thread nD τ) (stg5 t) fullShare X)
    ∗ (∃ X, ⌜(rdat m c).after 6 t (iblk m c 6 t) X⌝ ∗ owns (c : Thread nD τ) (stg6 t) fullShare X)
    ∗ (∃ X, ⌜(rdat m c).after 7 t y7 X⌝ ∗ owns (c : Thread nD τ) (stg7 t) fullShare X))

/-- From the scratch buffers at this point's contents, the inputs as found and the output buffer at stores LO
    over y7, where those stores read back as outAt, the post of the point. -/
theorem post_of (c : Dev nD) (t : Fin cfg0.N) (y7 : Vec F S4096x512 .f32) (LO : List (View.Piece (Elt F) S4096x512 .f32))
    (hLO : outAt m c t y7 = (stg7 t).view.read (Elt F) ((stg7 t).view.writes (Elt F) ((hstg7 t).unread y7) LO)) :
    iprop(iprop(iprop(owns (c : Thread nD τ) scT fullShare (scrAt m c t.val t.isLt).1 ∗ owns (c : Thread nD τ) scSum fullShare (scrAt m c t.val t.isLt).2.1 ∗ owns (c : Thread nD τ) scSq fullShare (scrAt m c t.val t.isLt).2.2) ∗ (∃ r, prngReg c r)) ∗ (rdat m c).owesAt () t.castSucc
    ∗ owns (c : Thread nD τ) (stg0 t) fullShare (iblk m c 0 t)
    ∗ owns (c : Thread nD τ) (stg1 t) fullShare (iblk m c 1 t)
    ∗ owns (c : Thread nD τ) (stg2 t) fullShare (iblk m c 2 t)
    ∗ owns (c : Thread nD τ) (stg3 t) fullShare (iblk m c 3 t)
    ∗ owns (c : Thread nD τ) (stg4 t) fullShare (iblk m c 4 t)
    ∗ owns (c : Thread nD τ) (stg5 t) fullShare (iblk m c 5 t)
    ∗ owns (c : Thread nD τ) (stg6 t) fullShare (iblk m c 6 t)
    ∗ ((stg7 t).view.loc (c : Thread nD τ) ↦[(stg7 t).view.set]{fullShare} (stg7 t).view.writes (Elt F) ((hstg7 t).unread y7) LO))
      ⊢ bodyPost m c t y7 := by
  unfold bodyPost
  rw [show (rdat m c).owesAt () t.succ = (rdat m c).owesAt () t.castSucc from rfl,
    show (rdat m c).Φ t.succ = inv m c (t.val + 1) t.isLt from rfl, inv_succ]
  iintro ⟨Hi, Ho, H0, H1, H2, H3, H4, H5, H6, H7⟩
  isplitl [Hi]; · iexact Hi
  isplitl [Ho]; · iexact Ho
  isplitl [H0]
  · iexists _; isplitr; swap; · iexact H0
    ipureintro; exact (rdat_after_in m c 0 (by decide) t _ _).mpr rfl
  isplitl [H1]
  · iexists _; isplitr; swap; · iexact H1
    ipureintro; exact (rdat_after_in m c 1 (by decide) t _ _).mpr rfl
  isplitl [H2]
  · iexists _; isplitr; swap; · iexact H2
    ipureintro; exact (rdat_after_in m c 2 (by decide) t _ _).mpr rfl
  isplitl [H3]
  · iexists _; isplitr; swap; · iexact H3
    ipureintro; exact (rdat_after_in m c 3 (by decide) t _ _).mpr rfl
  isplitl [H4]
  · iexists _; isplitr; swap; · iexact H4
    ipureintro; exact (rdat_after_in m c 4 (by decide) t _ _).mpr rfl
  isplitl [H5]
  · iexists _; isplitr; swap; · iexact H5
    ipureintro; exact (rdat_after_in m c 5 (by decide) t _ _).mpr rfl
  isplitl [H6]
  · iexists _; isplitr; swap; · iexact H6
    ipureintro; exact (rdat_after_in m c 6 (by decide) t _ _).mpr rfl
  iexists (outAt m c t y7); isplitr
  · ipureintro; exact (rdat_after_out m c t _ _).mpr rfl
  unfold owns; iexists _; isplitr; swap; · iexact H7
  ipureintro; exact hLO.symm

set_option maxHeartbeats 4000000 in
/-- Point 0: the scratch buffers come at whatever the launch left in them. -/
theorem body_A (c : Dev nD) (t : Fin cfg0.N) (h0 : t.val % 16 = 0) (y7 : Vec F S4096x512 .f32) :
    bodyPre m c t y7 ⊢ wp frame (wpE (defs₀ (F := F)) Variants.none c none) Set.univ (bodyAt0 t) (fun _ => bodyPost m c t y7) := by
  have hN := lt16 t
  have hz : t.val = 0 := by omega
  unfold bodyPre bodyAt0
  rw [inv_zero m c _ _ hz, launchInv_eq]
  iintro ⟨⟨⟨HS0, HS1, HS2⟩, Hg⟩, Ho, H0, H1, H2, H3, H4, H5, H6, H7⟩
  iapply ((atA m c t h0).2.2.2 y7).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, ⟨%f9, HS0⟩, ⟨%f10, HS1⟩, ⟨%f11, HS2⟩⟩
  iapply post_of m c t y7 _ (outAt_A m c t h0 y7)
  isplitl [HS0 HS1 HS2 Hg]
  · isplitl [HS0 HS1 HS2]
    · isplitl [HS0]
      · unfold owns; iexists _; isplitr; swap; · iexact HS0
        ipureintro; exact (View.read_writes_of_cover _ _ _ _ _ (coverA_T m c t h0)).trans (scrAt_A_T m c t h0).symm
      isplitl [HS1]
      · unfold owns; iexists _; isplitr; swap; · iexact HS1
        ipureintro; exact (View.read_writes_of_cover _ _ _ _ _ (coverA_S m c t h0)).trans (scrAt_A_S m c t h0).symm
      unfold owns; iexists _; isplitr; swap; · iexact HS2
      ipureintro; exact (View.read_writes_of_cover _ _ _ _ _ (coverA_Q m c t h0)).trans (scrAt_A_Q m c t h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- Points 1 to 14: the scratch buffers come at what the point before left. -/
theorem body_B (c : Dev nD) (t : Fin cfg0.N) (h0 : ¬t.val % 16 = 0) (h3 : ¬t.val % 16 = 15) (y7 : Vec F S4096x512 .f32) :
    bodyPre m c t y7 ⊢ wp frame (wpE (defs₀ (F := F)) Variants.none c none) Set.univ (bodyAt0 t) (fun _ => bodyPost m c t y7) := by
  have hN := lt16 t
  have hz : t.val ≠ 0 := by omega
  unfold bodyPre bodyAt0
  rw [inv_pos m c _ _ hz]
  iintro ⟨⟨⟨HS0, HS1, HS2⟩, Hg⟩, Ho, H0, H1, H2, H3, H4, H5, H6, H7⟩
  iapply ((atB m c t h0 h3 (scrBefore m c t).1 (scrBefore m c t).2.1 (scrBefore m c t).2.2).2.2 y7).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, ⟨%f10, HS1⟩, ⟨%f11, HS2⟩⟩
  iapply post_of m c t y7 _ (outAt_B m c t h0 h3 y7)
  isplitl [HS0 HS1 HS2 Hg]
  · isplitl [HS0 HS1 HS2]
    · isplitl [HS0]
      · rw [scrAt_B_T m c t h0 h3]; iexact HS0
      isplitl [HS1]
      · unfold owns; iexists _; isplitr; swap; · iexact HS1
        ipureintro; exact (View.read_writes_of_cover _ _ _ _ _ (coverB_S m c t h0 h3 _ _ _)).trans (scrAt_B_S m c t h0 h3).symm
      unfold owns; iexists _; isplitr; swap; · iexact HS2
      ipureintro; exact (View.read_writes_of_cover _ _ _ _ _ (coverB_Q m c t h0 h3 _ _ _)).trans (scrAt_B_Q m c t h0 h3).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- Point 15, likewise. -/
theorem body_C (c : Dev nD) (t : Fin cfg0.N) (h3 : t.val % 16 = 15) (y7 : Vec F S4096x512 .f32) :
    bodyPre m c t y7 ⊢ wp frame (wpE (defs₀ (F := F)) Variants.none c none) Set.univ (bodyAt0 t) (fun _ => bodyPost m c t y7) := by
  have hN := lt16 t
  have hz : t.val ≠ 0 := by omega
  have h0 : ¬t.val % 16 = 0 := by omega
  unfold bodyPre bodyAt0
  rw [inv_pos m c _ _ hz]
  iintro ⟨⟨⟨HS0, HS1, HS2⟩, Hg⟩, Ho, H0, H1, H2, H3, H4, H5, H6, H7⟩
  iapply ((atC m c t h3 (scrBefore m c t).1 (scrBefore m c t).2.1 (scrBefore m c t).2.2).2.2 y7).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, ⟨%f10, HS1⟩, ⟨%f11, HS2⟩⟩
  iapply post_of m c t y7 _ (outAt_C m c t h0 h3 y7)
  isplitl [HS0 HS1 HS2 Hg]
  · isplitl [HS0 HS1 HS2]
    · isplitl [HS0]
      · rw [scrAt_C_T m c t h3]; iexact HS0
      isplitl [HS1]
      · unfold owns; iexists _; isplitr; swap; · iexact HS1
        ipureintro; exact (View.read_writes_of_cover _ _ _ _ _ (coverC_S m c t h3 _ _ _)).trans (scrAt_C_S m c t h3).symm
      unfold owns; iexists _; isplitr; swap; · iexact HS2
      ipureintro; exact (View.read_writes_of_cover _ _ _ _ _ (coverC_Q m c t h3 _ _ _)).trans (scrAt_C_Q m c t h3).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point, from buffers known to hold the inputs' blocks. -/
theorem sound_body (c : Dev nD) (t : Fin cfg0.N)
    (y0 : Vec F S256x4096 .f32) (y1 : Vec F S4096x512 .f32) (y2 : Vec F S256x512 .f32) (y3 : Vec F S1024x512 .f32)
    (y4 : Vec F S1x512 .f32) (y5 : Vec F S1x512 .f32) (y6 : Vec F S1x512 .f32) (y7 : Vec F S4096x512 .f32)
    (e0 : y0 = iblk m c 0 t) (e1 : y1 = iblk m c 1 t) (e2 : y2 = iblk m c 2 t) (e3 : y3 = iblk m c 3 t)
    (e4 : y4 = iblk m c 4 t) (e5 : y5 = iblk m c 5 t) (e6 : y6 = iblk m c 6 t) :
    iprop((rdat m c).Φ t.castSucc ∗ (rdat m c).owesAt () t.castSucc
    ∗ owns (c : Thread nD τ) (stg0 t) fullShare y0
    ∗ owns (c : Thread nD τ) (stg1 t) fullShare y1
    ∗ owns (c : Thread nD τ) (stg2 t) fullShare y2
    ∗ owns (c : Thread nD τ) (stg3 t) fullShare y3
    ∗ owns (c : Thread nD τ) (stg4 t) fullShare y4
    ∗ owns (c : Thread nD τ) (stg5 t) fullShare y5
    ∗ owns (c : Thread nD τ) (stg6 t) fullShare y6
    ∗ owns (c : Thread nD τ) (stg7 t) fullShare y7)
      ⊢ wp frame (wpE (defs₀ (F := F)) Variants.none c none) Set.univ (bodyAt0 t) (fun _ =>
          iprop((rdat m c).Φ t.succ ∗ (rdat m c).owesAt () t.succ
    ∗ (∃ X, ⌜(rdat m c).after 0 t y0 X⌝ ∗ owns (c : Thread nD τ) (stg0 t) fullShare X)
    ∗ (∃ X, ⌜(rdat m c).after 1 t y1 X⌝ ∗ owns (c : Thread nD τ) (stg1 t) fullShare X)
    ∗ (∃ X, ⌜(rdat m c).after 2 t y2 X⌝ ∗ owns (c : Thread nD τ) (stg2 t) fullShare X)
    ∗ (∃ X, ⌜(rdat m c).after 3 t y3 X⌝ ∗ owns (c : Thread nD τ) (stg3 t) fullShare X)
    ∗ (∃ X, ⌜(rdat m c).after 4 t y4 X⌝ ∗ owns (c : Thread nD τ) (stg4 t) fullShare X)
    ∗ (∃ X, ⌜(rdat m c).after 5 t y5 X⌝ ∗ owns (c : Thread nD τ) (stg5 t) fullShare X)
    ∗ (∃ X, ⌜(rdat m c).after 6 t y6 X⌝ ∗ owns (c : Thread nD τ) (stg6 t) fullShare X)
    ∗ (∃ X, ⌜(rdat m c).after 7 t y7 X⌝ ∗ owns (c : Thread nD τ) (stg7 t) fullShare X))) := by
  subst e0 e1 e2 e3 e4 e5 e6
  by_cases h0 : t.val % 16 = 0
  · exact body_A m c t h0 y7
  · by_cases h3 : t.val % 16 = 15
    · exact body_C m c t h3 y7
    · exact body_B m c t h0 h3 y7

/-- What the launch hands the region is the invariant before the first point. -/
theorem inv_in (c : Dev nD) : Pipeline.ΦA spec0 c ⊢ (rdat m c).Φ 0 := by
  rw [show (rdat m c).Φ 0 = inv m c 0 (Nat.zero_le _) from rfl, inv_zero m c 0 _ rfl]

/-- After the last point the invariant gives the launch's back: the scratch contents are forgotten. -/
theorem inv_out (c : Dev nD) : (rdat m c).Φ (Fin.last cfg0.N) ⊢ Pipeline.ΦA spec0 c := by
  have hN : (Fin.last cfg0.N).val ≠ 0 := by rw [Fin.val_last]; have : cfg0.N = 16 := N_0; omega
  rw [rdat_Φ, inv_pos m c _ _ hN, launchInv_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The body obligation, at every point. -/
theorem body_obligation (c : Dev nD) : (rdat (F := F) m c).BodyObligation (defs₀ (F := F)) Variants.none () Set.univ := by
  unfold RDat.BodyObligation
  intro t Y hY
  rw [bigSep_W0, bigSep_W0]
  exact sound_body m c t (Y 0) (Y 1) (Y 2) (Y 3) (Y 4) (Y 5) (Y 6) (Y 7)
    (finds_0 m c t _ (hY 0)) (finds_1 m c t _ (hY 1)) (finds_2 m c t _ (hY 2)) (finds_3 m c t _ (hY 3))
    (finds_4 m c t _ (hY 4)) (finds_5 m c t _ (hY 5)) (finds_6 m c t _ (hY 6))

end Cert.KernelIdeal.Hand

end
-- ==== Proof.KI.Main.lean ====
/-
  The kernel program's run: every weakly fair execution of @main terminates without a fault; each input array ends as it
  began, and the result array ends at contents the pipeline's proof data allows after the sixteen points.
-/
import proofs.«180622_g18880676233904_cont_8to1_729_6_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main to the relational post: each windowed array at contents allowed after every write-back, every other
    unscoped buffer as the region found it. -/
theorem run_main : θ_run defs (onTc (τ := τ) (main (F := F))) (s₀ m ρ) (Pipeline.RDat.FramePost (cfgs 0) (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := rdat_A m) (hin := inv_in m) (hout := inv_out m)

/-- The seven argument arrays end unchanged: the four staged ones by the relational post read at an input window, the
    three reshaped rows' sources because no window stages them. -/
theorem args_kept (r : PUnit × MemSt nD τ sig (Elt F)) (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(Pipeline.RDat.FramePost.arr_in h c 1 rfl).trans ((rdat_A m c 1).trans (V_main_arg0 m c)),
    (Pipeline.RDat.FramePost.arr_in h c 2 rfl).trans ((rdat_A m c 2).trans (V_main_arg1 m c)),
    (Pipeline.RDat.FramePost.arr_in h c 0 rfl).trans ((rdat_A m c 0).trans (V_main_arg2 m c)),
    (Pipeline.RDat.FramePost.arr_in h c 3 rfl).trans ((rdat_A m c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_main m ρ)

end Cert.KernelIdeal.Hand

end
-- ==== Proof.KI.Value.lean ====
/-
  The kernel's value: after the sixteen points the result array holds the specification's result of the arguments.
  The output's staging buffer is written back once, after the last point; what it then holds is the last point's
  outAt of what the point before left, and so on down to point 0, which may have found anything; rows 0 .. 256 (t + 1) - 1
  hold y after point t by induction, so the last point's normalization sees y in every row.
-/
import proofs.«180622_g18880676233904_cont_8to1_729_6_alg».proof.Proof.KI.ValOutEarly
import proofs.«180622_g18880676233904_cont_8to1_729_6_alg».proof.Proof.KI.ValOutLast
import proofs.«180622_g18880676233904_cont_8to1_729_6_alg».proof.Proof.KI.Main
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat RDat Cfg Window cellOf)

variable (m : (ℓ : Loc nD τ sig) → Buf (Elt Ideal) ℓ)

variable (ρ : Dev nD → PrngReg)

/-- The output window is never fetched. -/
theorem out_never_fetched : ∀ t : Fin cfg0.N, (cfg0.win 7).fetch t = false :=
  (by decide +kernel : ∀ t : Fin grid0.N, win0_7.fetch t = false)

/-- Rows below 256 (n + 1) hold y after point n, by induction on n: point n stores its own block, the rows below
    it were left by point n - 1, which did not write the buffer back. -/
theorem leaves_rows_nat (c : Dev nD) : ∀ (n : ℕ) (hn : n < cfg0.N), n ≠ 15 → ∀ (X : Vec Ideal S4096x512 .f32),
    (rdat (F := Ideal) m c).Leaves 7 ⟨n, hn⟩ X → ∀ (R : Fin 4096) (col : Fin 512), R.val < 256 * (n + 1) →
    X (ix2 R col) = yS m c R col := by
  intro n
  induction n with
  | zero =>
    intro hn _ X hX R col hR
    obtain ⟨Y, _, hYX⟩ := hX
    rw [rdat_after_out] at hYX
    subst hYX
    rw [outAt_early m c ⟨0, hn⟩ (by simp) Y R col, if_pos ⟨by simp, by simpa using hR⟩]
  | succ n ih =>
    intro hn h15 X hX R col hR
    obtain ⟨Y, hF, hYX⟩ := hX
    rw [rdat_after_out] at hYX
    subst hYX
    have h16 : n + 1 < 16 := lt_of_lt_of_eq hn N_0
    rw [outAt_early m c ⟨n + 1, hn⟩ h15 Y R col]
    split
    · rfl
    · next hneg =>
      rw [RDat.finds_of_pos _ (out_never_fetched _) (by simp)] at hF
      have e : (⟨(⟨n + 1, hn⟩ : Fin cfg0.N).val - 1, Nat.lt_of_le_of_lt (Nat.sub_le _ _) (⟨n + 1, hn⟩ : Fin cfg0.N).isLt⟩ : Fin cfg0.N)
          = ⟨n, Nat.lt_of_succ_lt hn⟩ := Fin.ext (by simp)
      rw [e] at hF
      rcases hF with hfl | hL
      · have h := (flush0_7 _).mp hfl
        simp only at h
        omega
      · refine ih _ (by omega) Y hL R col ?_
        simp only at hneg
        omega

/-- The output window's block index is (0, 0) at every point. -/
theorem out_index_zero (i : grid0.Coords) : ∀ a : Fin 2, cc0_transform_7 i a = 0 :=
  Fin.forall_fin_two.mpr ⟨rfl, rfl⟩

/-- The output window's block is the whole array and nothing of it is cut: writing a buffer's contents back through
    it replaces the array's contents by them. -/
theorem write_back_whole (c : Dev nD) (u : Fin cfg0.N) (G₀ : Buf (Elt Ideal) ((cfg0.win 7).arr.view.loc (c.tc : Thread nD τ)))
    (X : (cfg0.win 7).block.Idx → Elt Ideal (cfg0.win 7).elt) (i : ((cfg0.win 7).blk u).view.ty.Idx) :
    ((cfg0.win 7).blk u).view.write (Elt Ideal) G₀ ((cfg0.win 7).cut (cfg0.grid.coords u) X) Finset.univ i = X i := by
  have e : ((cfg0.win 7).blk u).view.emb i = i := by
    funext a
    apply Fin.ext
    show cc0_transform_7 (grid0.coords u) a * S4096x512.size a + 1 * (i a).val = (i a).val
    rw [out_index_zero]; omega
  have h := View.write_emb_of_mem (v := ((cfg0.win 7).blk u).view) G₀ ((cfg0.win 7).cut (cfg0.grid.coords u) X) (Finset.mem_univ i)
  rw [e] at h
  exact h

/-- Below the last point nothing is written back: the result array is as at entry. -/
theorem arrAt_below (c : Dev nD) : ∀ (n : ℕ), n ≤ 15 →
    ∀ G : Buf (Elt Ideal) ((cfg0.win 7).arr.view.loc (c.tc : Thread nD τ)),
      (rdat (F := Ideal) m c).ArrAt 7 n G ↔ G = (rdat (F := Ideal) m c).A 7
  | 0, _, G => Iff.rfl
  | n + 1, hn, G => by
    have hlt : n < cfg0.N := by rw [show cfg0.N = 16 from N_0]; omega
    have hfl : ¬(cfg0.win 7).flush ⟨n, hlt⟩ = true := fun h => by
      have h' := (flush0_7 _).mp h
      simp only at h'
      omega
    rw [RDat.ArrAt]
    simp only [dif_pos hlt, if_neg hfl]
    exact arrAt_below c n (by omega) G

/-- After the last point's write-back (the point's number kept as a variable): the whole array is overwritten by what
    the last point left in the buffer, which is the result because the point before left y in rows 0 .. 3839. -/
theorem arrAt_last (c : Dev nD) (k : ℕ) (hk : k = 15) (G : Buf (Elt Ideal) ((cfg0.win 7).arr.view.loc (c.tc : Thread nD τ)))
    (hG : (rdat (F := Ideal) m c).ArrAt 7 (k + 1) G) : G = kerOut m c := by
  have hlt : k < cfg0.N := by rw [show cfg0.N = 16 from N_0]; omega
  have hfl : (cfg0.win 7).flush ⟨k, hlt⟩ = true := (flush0_7 _).mpr (by simp only; omega)
  rw [RDat.ArrAt] at hG
  simp only [dif_pos hlt, if_pos hfl] at hG
  obtain ⟨G₀, X, -, hL, rfl⟩ := hG
  have hX : ∀ (R : Fin 4096) (col : Fin 512), X (ix2 R col) = kerOut m c (ix2 R col) := by
    obtain ⟨Y, hF, hYX⟩ := hL
    rw [rdat_after_out] at hYX
    subst hYX
    intro R col
    refine outAt_last m c ⟨k, hlt⟩ hk Y ?_ R col
    intro R' col' hR'
    rw [RDat.finds_of_pos _ (out_never_fetched _) (by simp only; omega)] at hF
    rcases hF with hfl' | hL'
    · have h' := (flush0_7 _).mp hfl'
      simp only at h'
      omega
    · exact leaves_rows_nat m c _ _ (by simp only; omega) Y hL' R' col' (by simp only; omega)
  funext i
  obtain ⟨R, col, rfl⟩ : ∃ (R : Fin 4096) (col : Fin 512), i = ix2 R col := ⟨i 0, i 1, eq_ix2 i⟩
  exact (write_back_whole c ⟨k, hlt⟩ G₀ X (ix2 R col)).trans (hX R col)

/-- What the output window's staging buffer may hold after point t has y in its first 256 (t + 1) rows (t before the last). -/
theorem leaves_rows (c : Dev nD) (t : Fin cfg0.N) (ht : t.val ≠ 15) (X : Vec Ideal S4096x512 .f32)
    (hX : (rdat (F := Ideal) m c).Leaves 7 t X) (R : Fin 4096) (col : Fin 512) (hR : R.val < 256 * (t.val + 1)) :
    X (ix2 R col) = yS m c R col := by
  obtain ⟨n, hn⟩ := t
  exact leaves_rows_nat m c n hn ht X hX R col hR

/-- What the result array may hold after every write-back is the result. -/
theorem arrAt_out (c : Dev nD) (G : Buf (Elt Ideal) ((cfg0.win 7).arr.view.loc (c.tc : Thread nD τ)))
    (hG : (rdat (F := Ideal) m c).ArrAt 7 cfg0.N G) : G = kerOut m c := by
  have key : ∀ N : ℕ, N = 15 + 1 → (rdat (F := Ideal) m c).ArrAt 7 N G → G = kerOut m c := by
    intro N hN h
    subst hN
    exact arrAt_last m c 15 rfl G h
  exact key cfg0.N N_0 hG

/-- The kernel program's run with its value: the result array at the specification's result, the arguments unchanged. -/
theorem run_value : θ_run defs (onTc (τ := τ) (main (F := Ideal))) ⟨m, fun _ => 0, ρ⟩ (fun r => ∀ c : Dev nD,
      r.2.mem ((c.tc : Thread nD τ).loc main_v3) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨arrAt_out m c _ ((h c).1 7), args_kept m r h c⟩) (run_main m ρ)

end Cert.KernelIdeal.Hand

end
-- ==== Proof.Ref.Term.lean ====
/- The reference program's result as named stages of its operations: the affine map of the
   inputs, the column mean, the column variance, and the normalised, scaled, shifted and
   clamped output. Each stage is the composition of the program's printed operations, in the
   program's order, over the same shape records and side conditions. -/
import proofs.«180622_g18880676233904_cont_8to1_729_6_alg».proof.ReferenceIdeal
import proofs.«180622_g18880676233904_cont_8to1_729_6_alg».proof.Proof.Gen.ReferenceIdeal

noncomputable section

namespace Cert.ReferenceIdeal.Hand

open Cert.ReferenceIdeal Cert.ReferenceIdeal.Facts₀ Idealize.ShloMosaic Idealize.SL.Sem

variable {F : FTy → Type} [FloatOps F]

/-- The affine stage: the first product `a2 · a0`, joined with `a1` along the columns, times
    `a3`, plus the row `a4` repeated down the rows. -/
noncomputable def yAff (a0 a1 : (⟨S4096x512, .f32⟩ : BufTy).Contents (Elt F))
    (a2 : (⟨S4096x4096, .f32⟩ : BufTy).Contents (Elt F))
    (a3 : (⟨S1024x512, .f32⟩ : BufTy).Contents (Elt F))
    (a4 : (⟨S512, .f32⟩ : BufTy).Contents (Elt F)) : (⟨S4096x512, .f32⟩ : BufTy).Contents (Elt F) :=
  (addf : (⟨S4096x512, .f32⟩ : BufTy).Contents (Elt F) → (⟨S4096x512, .f32⟩ : BufTy).Contents (Elt F) → (⟨S4096x512, .f32⟩ : BufTy).Contents (Elt F))
    (((fun l r => Host.dotGeneral dot_S4096x1024_S1024x512_S4096x512_1_0_0_1_n_n none l r) : (⟨S4096x1024, .f32⟩ : BufTy).Contents (Elt F) → (⟨S1024x512, .f32⟩ : BufTy).Contents (Elt F) → (⟨S4096x512, .f32⟩ : BufTy).Contents (Elt F))
      (((fun a b => concatenate S4096x1024 1 [⟨S4096x512, a⟩, ⟨S4096x512, b⟩] concatenates_S4096x512_S4096x512_S4096x1024_d1) : (⟨S4096x512, .f32⟩ : BufTy).Contents (Elt F) → (⟨S4096x512, .f32⟩ : BufTy).Contents (Elt F) → (⟨S4096x1024, .f32⟩ : BufTy).Contents (Elt F))
        (((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)) a2 a0)
        a1)
      a3)
    ((broadcastInDim S4096x512 ![0, 1] bcast_S1x512_S4096x512_0_1 : (⟨S1x512, .f32⟩ : BufTy).Contents (Elt F) → (⟨S4096x512, .f32⟩ : BufTy).Contents (Elt F))
      ((broadcastInDim S1x512 ![1] bcast_S512_S1x512_1 : (⟨S512, .f32⟩ : BufTy).Contents (Elt F) → (⟨S1x512, .f32⟩ : BufTy).Contents (Elt F)) a4))

/-- The column mean: the sum down the rows from zero, divided by the row count 4096. -/
noncomputable def meanOf (y : (⟨S4096x512, .f32⟩ : BufTy).Contents (Elt F)) : (⟨S512, .f32⟩ : BufTy).Contents (Elt F) :=
  (Host.divf : (⟨S512, .f32⟩ : BufTy).Contents (Elt F) → (⟨S512, .f32⟩ : BufTy).Contents (Elt F) → (⟨S512, .f32⟩ : BufTy).Contents (Elt F))
    (((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F))
      y (constant S_ .f32 0x00000000#32))
    ((broadcastInDim S512 ![] bcast_S_S512 : (⟨S_, .f32⟩ : BufTy).Contents (Elt F) → (⟨S512, .f32⟩ : BufTy).Contents (Elt F))
      (constant S_ .f32 0x45800000#32))

/-- Inside the variance: the deviation of `y` from its column mean (the mean taken as a one-row
    array, divided by 4096 there, and repeated down the rows). -/
noncomputable def varDev (y : (⟨S4096x512, .f32⟩ : BufTy).Contents (Elt F)) : (⟨S4096x512, .f32⟩ : BufTy).Contents (Elt F) :=
  (subf : (⟨S4096x512, .f32⟩ : BufTy).Contents (Elt F) → (⟨S4096x512, .f32⟩ : BufTy).Contents (Elt F) → (⟨S4096x512, .f32⟩ : BufTy).Contents (Elt F))
    y
    ((broadcastInDim S4096x512 ![0, 1] bcast_S1x512_S4096x512_0_1 : (⟨S1x512, .f32⟩ : BufTy).Contents (Elt F) → (⟨S4096x512, .f32⟩ : BufTy).Contents (Elt F))
      ((Host.divf : (⟨S1x512, .f32⟩ : BufTy).Contents (Elt F) → (⟨S1x512, .f32⟩ : BufTy).Contents (Elt F) → (⟨S1x512, .f32⟩ : BufTy).Contents (Elt F))
        ((broadcastInDim S1x512 ![1] bcast_S512_S1x512_1 : (⟨S512, .f32⟩ : BufTy).Contents (Elt F) → (⟨S1x512, .f32⟩ : BufTy).Contents (Elt F))
          (((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F))
            y (constant S_ .f32 0x00000000#32)))
        ((broadcastInDim S1x512 ![] bcast_S_S1x512 : (⟨S_, .f32⟩ : BufTy).Contents (Elt F) → (⟨S1x512, .f32⟩ : BufTy).Contents (Elt F))
          (constant S_ .f32 0x45800000#32))))

/-- Inside the variance: the divisor, the row count 4096 less the integer correction 0 read as
    a float. -/
noncomputable def varCount : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F))
    (constant S_ .f32 0x45800000#32)
    ((sitofp .f32 : (⟨S_, .i32⟩ : BufTy).Contents (Elt F) → (⟨S_, .f32⟩ : BufTy).Contents (Elt F)) (constantI S_ 32 0#32))

/-- The column variance: the sum down the rows of the squared deviations, divided by the
    divisor, kept where the divisor is positive and the not-a-number word elsewhere. -/
noncomputable def varOf (y : (⟨S4096x512, .f32⟩ : BufTy).Contents (Elt F)) : (⟨S512, .f32⟩ : BufTy).Contents (Elt F) :=
  ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F))
    ((cmpf .ogt : (⟨S_, .f32⟩ : BufTy).Contents (Elt F) → (⟨S_, .f32⟩ : BufTy).Contents (Elt F) → (⟨S_, .i1⟩ : BufTy).Contents (Elt F))
      (varCount (F := F)) (constant S_ .f32 0x00000000#32))
    ((Host.divf : (⟨S512, .f32⟩ : BufTy).Contents (Elt F) → (⟨S512, .f32⟩ : BufTy).Contents (Elt F) → (⟨S512, .f32⟩ : BufTy).Contents (Elt F))
      (((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F))
        ((mulf : (⟨S4096x512, .f32⟩ : BufTy).Contents (Elt F) → (⟨S4096x512, .f32⟩ : BufTy).Contents (Elt F) → (⟨S4096x512, .f32⟩ : BufTy).Contents (Elt F))
          (varDev y) (varDev y))
        (constant S_ .f32 0x00000000#32))
      ((broadcastInDim S512 ![] bcast_S_S512 : (⟨S_, .f32⟩ : BufTy).Contents (Elt F) → (⟨S512, .f32⟩ : BufTy).Contents (Elt F))
        (varCount (F := F))))
    ((broadcastInDim S512 ![] bcast_S_S512 : (⟨S_, .f32⟩ : BufTy).Contents (Elt F) → (⟨S512, .f32⟩ : BufTy).Contents (Elt F))
      ((id : (⟨S_, .f32⟩ : BufTy).Contents (Elt F) → (⟨S_, .f32⟩ : BufTy).Contents (Elt F)) (constant S_ .f32 0x7FC00000#32)))

/-- The normalised stage: `y` less its column mean, over the square root of the column variance
    plus the small constant, each repeated down the rows. -/
noncomputable def normOf (y : (⟨S4096x512, .f32⟩ : BufTy).Contents (Elt F)) : (⟨S4096x512, .f32⟩ : BufTy).Contents (Elt F) :=
  (Host.divf : (⟨S4096x512, .f32⟩ : BufTy).Contents (Elt F) → (⟨S4096x512, .f32⟩ : BufTy).Contents (Elt F) → (⟨S4096x512, .f32⟩ : BufTy).Contents (Elt F))
    ((subf : (⟨S4096x512, .f32⟩ : BufTy).Contents (Elt F) → (⟨S4096x512, .f32⟩ : BufTy).Contents (Elt F) → (⟨S4096x512, .f32⟩ : BufTy).Contents (Elt F))
      y
      ((broadcastInDim S4096x512 ![0, 1] bcast_S1x512_S4096x512_0_1 : (⟨S1x512, .f32⟩ : BufTy).Contents (Elt F) → (⟨S4096x512, .f32⟩ : BufTy).Contents (Elt F))
        ((broadcastInDim S1x512 ![1] bcast_S512_S1x512_1 : (⟨S512, .f32⟩ : BufTy).Contents (Elt F) → (⟨S1x512, .f32⟩ : BufTy).Contents (Elt F))
          (meanOf y))))
    ((broadcastInDim S4096x512 ![0, 1] bcast_S1x512_S4096x512_0_1 : (⟨S1x512, .f32⟩ : BufTy).Contents (Elt F) → (⟨S4096x512, .f32⟩ : BufTy).Contents (Elt F))
      ((broadcastInDim S1x512 ![1] bcast_S512_S1x512_1 : (⟨S512, .f32⟩ : BufTy).Contents (Elt F) → (⟨S1x512, .f32⟩ : BufTy).Contents (Elt F))
        ((Host.sqrt : (⟨S512, .f32⟩ : BufTy).Contents (Elt F) → (⟨S512, .f32⟩ : BufTy).Contents (Elt F))
          ((addf : (⟨S512, .f32⟩ : BufTy).Contents (Elt F) → (⟨S512, .f32⟩ : BufTy).Contents (Elt F) → (⟨S512, .f32⟩ : BufTy).Contents (Elt F))
            (varOf y)
            ((broadcastInDim S512 ![] bcast_S_S512 : (⟨S_, .f32⟩ : BufTy).Contents (Elt F) → (⟨S512, .f32⟩ : BufTy).Contents (Elt F))
              (constant S_ .f32 0x3727C5AC#32))))))

/-- The result: the normalised affine stage times the row `a5`, plus the row `a6`, each
    repeated down the rows, and the larger of that and zero. -/
noncomputable def refOut (a0 a1 : (⟨S4096x512, .f32⟩ : BufTy).Contents (Elt F))
    (a2 : (⟨S4096x4096, .f32⟩ : BufTy).Contents (Elt F))
    (a3 : (⟨S1024x512, .f32⟩ : BufTy).Contents (Elt F))
    (a4 a5 a6 : (⟨S512, .f32⟩ : BufTy).Contents (Elt F)) : (⟨S4096x512, .f32⟩ : BufTy).Contents (Elt F) :=
  (maximumf : (⟨S4096x512, .f32⟩ : BufTy).Contents (Elt F) → (⟨S4096x512, .f32⟩ : BufTy).Contents (Elt F) → (⟨S4096x512, .f32⟩ : BufTy).Contents (Elt F))
    ((addf : (⟨S4096x512, .f32⟩ : BufTy).Contents (Elt F) → (⟨S4096x512, .f32⟩ : BufTy).Contents (Elt F) → (⟨S4096x512, .f32⟩ : BufTy).Contents (Elt F))
      ((mulf : (⟨S4096x512, .f32⟩ : BufTy).Contents (Elt F) → (⟨S4096x512, .f32⟩ : BufTy).Contents (Elt F) → (⟨S4096x512, .f32⟩ : BufTy).Contents (Elt F))
        (normOf (yAff a0 a1 a2 a3 a4))
        ((broadcastInDim S4096x512 ![0, 1] bcast_S1x512_S4096x512_0_1 : (⟨S1x512, .f32⟩ : BufTy).Contents (Elt F) → (⟨S4096x512, .f32⟩ : BufTy).Contents (Elt F))
          ((broadcastInDim S1x512 ![1] bcast_S512_S1x512_1 : (⟨S512, .f32⟩ : BufTy).Contents (Elt F) → (⟨S1x512, .f32⟩ : BufTy).Contents (Elt F)) a5)))
      ((broadcastInDim S4096x512 ![0, 1] bcast_S1x512_S4096x512_0_1 : (⟨S1x512, .f32⟩ : BufTy).Contents (Elt F) → (⟨S4096x512, .f32⟩ : BufTy).Contents (Elt F))
        ((broadcastInDim S1x512 ![1] bcast_S512_S1x512_1 : (⟨S512, .f32⟩ : BufTy).Contents (Elt F) → (⟨S1x512, .f32⟩ : BufTy).Contents (Elt F)) a6)))
    ((broadcastInDim S4096x512 ![] bcast_S_S4096x512 : (⟨S_, .f32⟩ : BufTy).Contents (Elt F) → (⟨S4096x512, .f32⟩ : BufTy).Contents (Elt F))
      (constant S_ .f32 0x00000000#32))

end Cert.ReferenceIdeal.Hand

end
-- ==== Proof.Ref.Run.lean ====
/- The reference program's run: its operations as one straight line (the called functions'
   operations in place of the calls, over the calls' buffer records), and every weakly fair
   execution ending with the result buffer at the composed stages of the arguments' launch
   contents, the arguments unchanged. -/
import proofs.«180622_g18880676233904_cont_8to1_729_6_alg».proof.Proof.Ref.Term
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

section Line

variable [Cert.ReferenceIdeal.Facts]

/-- The program's 53 operations in order: twelve of the entry function, the nineteen of the
    variance function and the three of the selection it calls (over the call records'
    buffers), and the entry function's last nineteen. -/
abbrev ops : List (HloOp τ sig (Elt F)) :=
  [ binary main_arg2 main_arg0 main_v0 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v0 main_arg1 main_v1 ((fun a b => concatenate S4096x1024 1 [⟨S4096x512, a⟩, ⟨S4096x512, b⟩] concatenates_S4096x512_S4096x512_S4096x1024_d1) : (⟨S4096x512, .f32⟩ : BufTy).Contents (Elt F) → (⟨S4096x512, .f32⟩ : BufTy).Contents (Elt F) → (⟨S4096x1024, .f32⟩ : BufTy).Contents (Elt F)),
    binary main_v1 main_arg3 main_v2 ((fun l r => Host.dotGeneral dot_S4096x1024_S1024x512_S4096x512_1_0_0_1_n_n none l r) : (⟨S4096x1024, .f32⟩ : BufTy).Contents (Elt F) → (⟨S1024x512, .f32⟩ : BufTy).Contents (Elt F) → (⟨S4096x512, .f32⟩ : BufTy).Contents (Elt F)),
    unary main_arg4 main_v3 (broadcastInDim S1x512 ![1] bcast_S512_S1x512_1 : (⟨S512, .f32⟩ : BufTy).Contents (Elt F) → (⟨S1x512, .f32⟩ : BufTy).Contents (Elt F)),
    unary main_v3 main_v4 (broadcastInDim S4096x512 ![0, 1] bcast_S1x512_S4096x512_0_1 : (⟨S1x512, .f32⟩ : BufTy).Contents (Elt F) → (⟨S4096x512, .f32⟩ : BufTy).Contents (Elt F)),
    binary main_v2 main_v4 main_v5 (addf : (⟨S4096x512, .f32⟩ : BufTy).Contents (Elt F) → (⟨S4096x512, .f32⟩ : BufTy).Contents (Elt F) → (⟨S4096x512, .f32⟩ : BufTy).Contents (Elt F)),
    nullary main_cst (constant S_ .f32 0x00000000#32),
    binary main_v5 main_cst main_v6 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    nullary main_cst_0 (constant S_ .f32 0x45800000#32),
    unary main_cst_0 main_v7 (broadcastInDim S512 ![] bcast_S_S512 : (⟨S_, .f32⟩ : BufTy).Contents (Elt F) → (⟨S512, .f32⟩ : BufTy).Contents (Elt F)),
    binary main_v6 main_v7 main_v8 (Host.divf : (⟨S512, .f32⟩ : BufTy).Contents (Elt F) → (⟨S512, .f32⟩ : BufTy).Contents (Elt F) → (⟨S512, .f32⟩ : BufTy).Contents (Elt F)),
    nullary main_c (constantI S_ 32 0#32),
    TRef.nullary main_call0.cst (constant S_ .f32 0x00000000#32),
    TRef.binary (.of main_v5) main_call0.cst main_call0.v0 (fun x v => Host.reduceAdd x v reducesTo_S4096x512_S512_d0 h_S_),
    TRef.unary main_call0.v0 main_call0.v1 (broadcastInDim S1x512 ![1] bcast_S512_S1x512_1),
    TRef.nullary main_call0.cst_0 (constant S_ .f32 0x45800000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S4096x512 ![0, 1] bcast_S1x512_S4096x512_0_1),
    TRef.binary (.of main_v5) main_call0.v4 main_call0.v5 subf,
    TRef.binary main_call0.v5 main_call0.v5 main_call0.v6 mulf,
    TRef.unary (.of main_c) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4096x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2 (fun p a b => select (broadcastInDim S512 ![] bcast_S_S512 p) a b),
    unary main_v8 main_v10 (broadcastInDim S1x512 ![1] bcast_S512_S1x512_1 : (⟨S512, .f32⟩ : BufTy).Contents (Elt F) → (⟨S1x512, .f32⟩ : BufTy).Contents (Elt F)),
    unary main_v10 main_v11 (broadcastInDim S4096x512 ![0, 1] bcast_S1x512_S4096x512_0_1 : (⟨S1x512, .f32⟩ : BufTy).Contents (Elt F) → (⟨S4096x512, .f32⟩ : BufTy).Contents (Elt F)),
    binary main_v5 main_v11 main_v12 (subf : (⟨S4096x512, .f32⟩ : BufTy).Contents (Elt F) → (⟨S4096x512, .f32⟩ : BufTy).Contents (Elt F) → (⟨S4096x512, .f32⟩ : BufTy).Contents (Elt F)),
    nullary main_cst_1 (constant S_ .f32 0x3727C5AC#32),
    unary main_cst_1 main_v13 (broadcastInDim S512 ![] bcast_S_S512 : (⟨S_, .f32⟩ : BufTy).Contents (Elt F) → (⟨S512, .f32⟩ : BufTy).Contents (Elt F)),
    binary main_v9 main_v13 main_v14 (addf : (⟨S512, .f32⟩ : BufTy).Contents (Elt F) → (⟨S512, .f32⟩ : BufTy).Contents (Elt F) → (⟨S512, .f32⟩ : BufTy).Contents (Elt F)),
    unary main_v14 main_v15 (Host.sqrt : (⟨S512, .f32⟩ : BufTy).Contents (Elt F) → (⟨S512, .f32⟩ : BufTy).Contents (Elt F)),
    unary main_v15 main_v16 (broadcastInDim S1x512 ![1] bcast_S512_S1x512_1 : (⟨S512, .f32⟩ : BufTy).Contents (Elt F) → (⟨S1x512, .f32⟩ : BufTy).Contents (Elt F)),
    unary main_v16 main_v17 (broadcastInDim S4096x512 ![0, 1] bcast_S1x512_S4096x512_0_1 : (⟨S1x512, .f32⟩ : BufTy).Contents (Elt F) → (⟨S4096x512, .f32⟩ : BufTy).Contents (Elt F)),
    binary main_v12 main_v17 main_v18 (Host.divf : (⟨S4096x512, .f32⟩ : BufTy).Contents (Elt F) → (⟨S4096x512, .f32⟩ : BufTy).Contents (Elt F) → (⟨S4096x512, .f32⟩ : BufTy).Contents (Elt F)),
    unary main_arg5 main_v19 (broadcastInDim S1x512 ![1] bcast_S512_S1x512_1 : (⟨S512, .f32⟩ : BufTy).Contents (Elt F) → (⟨S1x512, .f32⟩ : BufTy).Contents (Elt F)),
    unary main_v19 main_v20 (broadcastInDim S4096x512 ![0, 1] bcast_S1x512_S4096x512_0_1 : (⟨S1x512, .f32⟩ : BufTy).Contents (Elt F) → (⟨S4096x512, .f32⟩ : BufTy).Contents (Elt F)),
    binary main_v18 main_v20 main_v21 (mulf : (⟨S4096x512, .f32⟩ : BufTy).Contents (Elt F) → (⟨S4096x512, .f32⟩ : BufTy).Contents (Elt F) → (⟨S4096x512, .f32⟩ : BufTy).Contents (Elt F)),
    unary main_arg6 main_v22 (broadcastInDim S1x512 ![1] bcast_S512_S1x512_1 : (⟨S512, .f32⟩ : BufTy).Contents (Elt F) → (⟨S1x512, .f32⟩ : BufTy).Contents (Elt F)),
    unary main_v22 main_v23 (broadcastInDim S4096x512 ![0, 1] bcast_S1x512_S4096x512_0_1 : (⟨S1x512, .f32⟩ : BufTy).Contents (Elt F) → (⟨S4096x512, .f32⟩ : BufTy).Contents (Elt F)),
    binary main_v21 main_v23 main_v24 (addf : (⟨S4096x512, .f32⟩ : BufTy).Contents (Elt F) → (⟨S4096x512, .f32⟩ : BufTy).Contents (Elt F) → (⟨S4096x512, .f32⟩ : BufTy).Contents (Elt F)),
    nullary main_cst_2 (constant S_ .f32 0x00000000#32),
    unary main_cst_2 main_v25 (broadcastInDim S4096x512 ![] bcast_S_S4096x512 : (⟨S_, .f32⟩ : BufTy).Contents (Elt F) → (⟨S4096x512, .f32⟩ : BufTy).Contents (Elt F)),
    binary main_v24 main_v25 main_v26 (maximumf : (⟨S4096x512, .f32⟩ : BufTy).Contents (Elt F) → (⟨S4096x512, .f32⟩ : BufTy).Contents (Elt F) → (⟨S4096x512, .f32⟩ : BufTy).Contents (Elt F)) ]

set_option maxRecDepth 1024 in
/-- The entry function is that straight line: the two functions' definitions unfolded at their
    calls, both sides are one chain of steps once sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨binary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

set_option maxRecDepth 8192 in
set_option maxHeartbeats 1600000 in
/-- The fold of the line at the result buffer is the composed stages of the contents at the
    seven argument buffers: each operation's result read at its own buffer is its function of
    its operands' contents, and at any other buffer what was there. -/
theorem out_eq (V : Valuation τ sig (Elt F)) :
    after ops V (main_v26 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results
  rfl

set_option maxRecDepth 8192 in
theorem arg0_eq (V : Valuation τ sig (Elt F)) :
    after ops V (main_arg0 : DevRef τ sig) = V (main_arg0 : DevRef τ sig) := by after_results_simp
set_option maxRecDepth 8192 in
theorem arg1_eq (V : Valuation τ sig (Elt F)) :
    after ops V (main_arg1 : DevRef τ sig) = V (main_arg1 : DevRef τ sig) := by after_results_simp
set_option maxRecDepth 8192 in
theorem arg2_eq (V : Valuation τ sig (Elt F)) :
    after ops V (main_arg2 : DevRef τ sig) = V (main_arg2 : DevRef τ sig) := by after_results_simp
set_option maxRecDepth 8192 in
theorem arg3_eq (V : Valuation τ sig (Elt F)) :
    after ops V (main_arg3 : DevRef τ sig) = V (main_arg3 : DevRef τ sig) := by after_results_simp
set_option maxRecDepth 8192 in
theorem arg4_eq (V : Valuation τ sig (Elt F)) :
    after ops V (main_arg4 : DevRef τ sig) = V (main_arg4 : DevRef τ sig) := by after_results_simp
set_option maxRecDepth 8192 in
theorem arg5_eq (V : Valuation τ sig (Elt F)) :
    after ops V (main_arg5 : DevRef τ sig) = V (main_arg5 : DevRef τ sig) := by after_results_simp
set_option maxRecDepth 8192 in
theorem arg6_eq (V : Valuation τ sig (Elt F)) :
    after ops V (main_arg6 : DevRef τ sig) = V (main_arg6 : DevRef τ sig) := by after_results_simp

end Line

/-- On every device, for any float values, from any memory with zero counters: every weakly
    fair execution of the entry function terminates with the result buffer at the composed
    stages of the arguments' launch contents, and the seven arguments unchanged. -/
theorem run [Cert.ReferenceIdeal.Facts] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v26) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run defs _ _).mono (fun _ h c => ⟨(h c main_v26).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.Hand

end
-- ==== Proof.Ref.Value.lean ====
/-
  The reference's result, read at row r and column c over the extended reals, is the specification's outR of the
  seven arguments read by coordinates.
-/
import proofs.«180622_g18880676233904_cont_8to1_729_6_alg».proof.Proof.Ref.Term
import proofs.«180622_g18880676233904_cont_8to1_729_6_alg».proof.Proof.Spec
import proofs.«180622_g18880676233904_cont_8to1_729_6_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.Hand

open Cert.ReferenceIdeal Cert.ReferenceIdeal.Facts₀ Idealize.ShloMosaic Idealize.ShloMosaic.ValueIdx
open scoped BigOperators

/-! ## Layout operations at a coordinate -/

/-- One row of 512 entries repeated down the 4096 rows. -/
theorem rowUp_apply (v : S1x512.Idx → EReal) (r : Fin 4096) (c : Fin 512) :
    broadcastInDim S4096x512 ![0, 1] bcast_S1x512_S4096x512_0_1 v (ix2 r c) = v (ix2 (0 : Fin 1) c) :=
  broadcastInDim_apply ![0, 1] bcast_S1x512_S4096x512_0_1 v (ix2 r c) (ix2 (0 : Fin 1) c)
    (fun a => by match a with | ⟨0, _⟩ => rfl | ⟨1, _⟩ => rfl)

/-- 512 entries laid out as one row. -/
theorem rowIn_apply (v : S512.Idx → EReal) (c : Fin 512) :
    broadcastInDim S1x512 ![1] bcast_S512_S1x512_1 v (ix2 (0 : Fin 1) c) = v (ix1 c) :=
  broadcastInDim_apply ![1] bcast_S512_S1x512_1 v (ix2 (0 : Fin 1) c) (ix1 c)
    (fun a => by match a with | ⟨0, _⟩ => rfl)

/-- A row of 512 entries repeated down the 4096 rows: entry (r, c) is entry c of the row. -/
theorem rowBcast_apply (v : S512.Idx → EReal) (r : Fin 4096) (c : Fin 512) :
    broadcastInDim S4096x512 ![0, 1] bcast_S1x512_S4096x512_0_1
        (broadcastInDim S1x512 ![1] bcast_S512_S1x512_1 v) (ix2 r c) = v (ix1 c) := by
  rw [rowUp_apply, rowIn_apply]

/-- A single number repeated along 512 positions. -/
theorem scalarBcast1_apply {α : Type} (v : S_.Idx → α) (c : Fin 512) :
    broadcastInDim S512 ![] bcast_S_S512 v (ix1 c) = v ix0 :=
  broadcastInDim_apply ![] bcast_S_S512 v (ix1 c) ix0 (fun a => a.elim0)

/-- A single number repeated along one row of 512 positions. -/
theorem scalarBcastRow_apply (v : S_.Idx → EReal) (z : Fin 1) (c : Fin 512) :
    broadcastInDim S1x512 ![] bcast_S_S1x512 v (ix2 z c) = v ix0 :=
  broadcastInDim_apply ![] bcast_S_S1x512 v (ix2 z c) ix0 (fun a => a.elim0)

/-- A single number repeated over the whole 4096 by 512 array. -/
theorem scalarBcast2_apply (v : S_.Idx → EReal) (r : Fin 4096) (c : Fin 512) :
    broadcastInDim S4096x512 ![] bcast_S_S4096x512 v (ix2 r c) = v ix0 :=
  broadcastInDim_apply ![] bcast_S_S4096x512 v (ix2 r c) ix0 (fun a => a.elim0)

/-- The two 4096 by 512 arrays joined along the columns, at a column below 512: the first array there. -/
theorem concat_apply_lo (x y : S4096x512.Idx → EReal) (r : Fin 4096) (l : Fin 1024) (h : l.val < 512) :
    concatenate S4096x1024 1 [⟨S4096x512, x⟩, ⟨S4096x512, y⟩] concatenates_S4096x512_S4096x512_S4096x1024_d1 (ix2 r l)
      = x (ix2 r ⟨l.val, h⟩) :=
  concatenate_pair_apply_left (1 : Fin 2) x y concatenates_S4096x512_S4096x512_S4096x1024_d1 (ix2 r l) rfl
    (ix2 r (⟨l.val, h⟩ : Fin 512)) (fun b => by match b with | ⟨0, _⟩ => rfl | ⟨1, _⟩ => rfl)

/-- At a column from 512 on: the second array, 512 columns to the left. -/
theorem concat_apply_hi (x y : S4096x512.Idx → EReal) (r : Fin 4096) (l : Fin 1024) (h : ¬ l.val < 512) :
    concatenate S4096x1024 1 [⟨S4096x512, x⟩, ⟨S4096x512, y⟩] concatenates_S4096x512_S4096x512_S4096x1024_d1 (ix2 r l)
      = y (ix2 r ⟨l.val - 512, by omega⟩) :=
  concatenate_pair_apply_right (1 : Fin 2) x y concatenates_S4096x512_S4096x512_S4096x1024_d1 (ix2 r l) rfl rfl
    (ix2 r (⟨l.val - 512, by omega⟩ : Fin 512))
    (fun b hb => by match b, hb with | ⟨0, _⟩, _ => rfl | ⟨1, _⟩, hb => exact absurd rfl hb)
    (by show (l.val - 512) + 512 = l.val; omega)

/-! ## The products and the column sum at a coordinate -/

/-- The 4096 by 4096 times 4096 by 512 product. -/
theorem dotA_apply (p : S4096x4096.Idx → EReal) (q : S4096x512.Idx → EReal) (r : Fin 4096) (c : Fin 512) :
    Host.dotGeneral (F := Ideal) (φ₁ := .f32) (φ₂ := .f32) dot_S4096x4096_S4096x512_S4096x512_1_0_0_1_n_n none p q (ix2 r c)
      = ∑ k : Fin 4096, p (ix2 r k) * q (ix2 k c) :=
  Cert.PlainDot.dotGeneral_apply (M := 4096) (K := 4096) (N := 512) dot_S4096x4096_S4096x512_S4096x512_1_0_0_1_n_n rfl none .single p q (ix2 r c)

/-- The 4096 by 1024 times 1024 by 512 product. -/
theorem dotW_apply (p : S4096x1024.Idx → EReal) (q : S1024x512.Idx → EReal) (r : Fin 4096) (c : Fin 512) :
    Host.dotGeneral (F := Ideal) (φ₁ := .f32) (φ₂ := .f32) dot_S4096x1024_S1024x512_S4096x512_1_0_0_1_n_n none p q (ix2 r c)
      = ∑ l : Fin 1024, p (ix2 r l) * q (ix2 l c) :=
  Cert.PlainDot.dotGeneral_apply (M := 4096) (K := 1024) (N := 512) dot_S4096x1024_S1024x512_S4096x512_1_0_0_1_n_n rfl none .single p q (ix2 r c)

/-- The host's sum down the rows from the zero word: entry c is the sum of column c. -/
theorem colSum_apply (y : S4096x512.Idx → EReal) (c : Fin 512) :
    Host.reduceAdd (F := Ideal) (φ := .f32) y (constant (F := Ideal) S_ .f32 0x00000000#32) reducesTo_S4096x512_S512_d0 h_S_ (ix1 c)
      = ∑ k : Fin 4096, y (ix2 k c) := by
  have hR : S4096x512.Reduces [0] S512 := by decide
  unfold Host.reduceAdd
  rw [Ideal.hostReduceAdd_def, Ideal.hostReduceAdd_single reducesTo_S4096x512_S512_d0 hR, constant_apply,
    Ideal.ofBits_zero_f32, zero_add]
  refine Finset.sum_congr rfl fun k _ => congrArg y (funext fun a => ?_)
  match a with
  | ⟨0, _⟩ => exact Fin.ext rfl
  | ⟨1, _⟩ => exact Fin.ext rfl

/-- The host's division and square root, entry by entry. -/
theorem hostDivf_apply {s : Shape} (a b : FVec Ideal s .f32) (i : s.Idx) : Host.divf a b i = Ideal.div (a i) (b i) := rfl

theorem hostSqrt_apply {s : Shape} (a : FVec Ideal s .f32) (i : s.Idx) : Host.sqrt a i = Ideal.sqrt (a i) := rfl

/-! ## The stages at a coordinate -/

/-- The affine stage is the specification's affine layer in the reference's grouping. -/
theorem yAff_apply (a0 a1 : (⟨S4096x512, .f32⟩ : BufTy).Contents (Elt Ideal))
    (a2 : (⟨S4096x4096, .f32⟩ : BufTy).Contents (Elt Ideal))
    (a3 : (⟨S1024x512, .f32⟩ : BufTy).Contents (Elt Ideal))
    (a4 : (⟨S512, .f32⟩ : BufTy).Contents (Elt Ideal)) (r : Fin 4096) (c : Fin 512) :
    yAff (F := Ideal) a0 a1 a2 a3 a4 (ix2 r c)
      = Cert.Spec.yR (Cert.Spec.arr2 a2) (Cert.Spec.arr2 a0) (Cert.Spec.arr2 a1) (Cert.Spec.arr2 a3) (Cert.Spec.arr1 a4) r c := by
  unfold yAff Cert.Spec.yR
  beta_reduce
  rw [addf_apply, dotW_apply, rowBcast_apply]
  refine congrArg (· + a4 (ix1 c)) (Finset.sum_congr rfl fun l _ => ?_)
  refine congrArg (· * a3 (ix2 l c)) ?_
  unfold Cert.Spec.catR
  by_cases h : l.val < 512
  · rw [dif_pos h, concat_apply_lo _ _ r l h, dotA_apply]; rfl
  · rw [dif_neg h, concat_apply_hi _ _ r l h]; rfl

/-- The column mean. -/
theorem meanOf_apply (y : (⟨S4096x512, .f32⟩ : BufTy).Contents (Elt Ideal)) (c : Fin 512) :
    meanOf (F := Ideal) y (ix1 c) = Ideal.div (∑ k : Fin 4096, y (ix2 k c)) Cert.Spec.nF := by
  unfold meanOf
  beta_reduce
  rw [hostDivf_apply, colSum_apply, scalarBcast1_apply, constant_apply]

/-- The deviation from the column mean. -/
theorem varDev_apply (y : (⟨S4096x512, .f32⟩ : BufTy).Contents (Elt Ideal)) (r : Fin 4096) (c : Fin 512) :
    varDev (F := Ideal) y (ix2 r c) = y (ix2 r c) - Ideal.div (∑ k : Fin 4096, y (ix2 k c)) Cert.Spec.nF := by
  unfold varDev
  beta_reduce
  rw [subf_apply, rowUp_apply, hostDivf_apply, rowIn_apply, colSum_apply, scalarBcastRow_apply, constant_apply]

/-- The variance's divisor is the word for 4096: the integer correction is zero. -/
theorem varCount_apply : varCount (F := Ideal) ix0 = Cert.Spec.nF := by
  unfold varCount
  rw [subf_apply, constant_apply, sitofp_apply]
  show Cert.Spec.nF - (((0#32 : BitVec 32).toInt : ℝ) : EReal) = Cert.Spec.nF
  rw [show (0#32 : BitVec 32).toInt = 0 from rfl, Int.cast_zero, EReal.coe_zero, sub_zero]

/-- The divisor is positive, so the guarded quotient is the quotient. -/
theorem nF_pos : (0 : EReal) < Cert.Spec.nF := by
  have h : Cert.Spec.nF = ((4096 : ℝ) : EReal) := by
    simp [Ideal.ofBits, Ideal.ieee, -EReal.coe_mul]; norm_num
  rw [h]
  exact_mod_cast (by norm_num : (0 : ℝ) < 4096)

theorem cmp_nF_pos : Ideal.cmp .ogt Cert.Spec.nF 0 = 1#1 := by
  show BitVec.ofBool (decide ((0 : EReal) < Cert.Spec.nF)) = 1#1
  rw [decide_eq_true nF_pos]
  rfl

/-- The column variance. -/
theorem varOf_apply (y : (⟨S4096x512, .f32⟩ : BufTy).Contents (Elt Ideal)) (c : Fin 512) :
    varOf (F := Ideal) y (ix1 c)
      = Ideal.div (∑ k : Fin 4096, varDev (F := Ideal) y (ix2 k c) * varDev (F := Ideal) y (ix2 k c)) Cert.Spec.nF := by
  unfold varOf
  beta_reduce
  rw [select_apply, scalarBcast1_apply (α := BitVec 1), cmpf_apply, varCount_apply, constant_apply, Ideal.ofBits_zero_f32, Ideal.cmpf_def, cmp_nF_pos, select_one,
    hostDivf_apply, colSum_apply, scalarBcast1_apply, varCount_apply]
  rfl

/-- The normalised stage. -/
theorem normOf_apply (y : (⟨S4096x512, .f32⟩ : BufTy).Contents (Elt Ideal)) (r : Fin 4096) (c : Fin 512) :
    normOf (F := Ideal) y (ix2 r c)
      = Ideal.div (y (ix2 r c) - meanOf (F := Ideal) y (ix1 c))
          (Ideal.sqrt (varOf (F := Ideal) y (ix1 c) + Cert.Spec.eps)) := by
  unfold normOf
  beta_reduce
  rw [hostDivf_apply, subf_apply, rowBcast_apply, rowBcast_apply, hostSqrt_apply, addf_apply, scalarBcast1_apply,
    constant_apply]

/-! ## The normalisation of any array, and the result -/

/-- For an array whose entries are those of Y, the normalised stage scaled by g, shifted by be and clamped at zero is
    the specification's normalisation of Y. -/
theorem norm_apply (y : (⟨S4096x512, .f32⟩ : BufTy).Contents (Elt Ideal)) (Y : Fin 4096 → Fin 512 → EReal)
    (hY : ∀ r c, y (ix2 r c) = Y r c) (g be : Fin 512 → EReal) (r : Fin 4096) (c : Fin 512) :
    max (normOf (F := Ideal) y (ix2 r c) * g c + be c) 0 = Cert.Spec.normR Y g be r c := by
  rw [normOf_apply, meanOf_apply, varOf_apply]
  simp only [varDev_apply, hY]
  rfl

/-- Entry (r, c) of the reference's result. -/
theorem refOut_apply (a0 a1 : (⟨S4096x512, .f32⟩ : BufTy).Contents (Elt Ideal))
    (a2 : (⟨S4096x4096, .f32⟩ : BufTy).Contents (Elt Ideal))
    (a3 : (⟨S1024x512, .f32⟩ : BufTy).Contents (Elt Ideal))
    (a4 a5 a6 : (⟨S512, .f32⟩ : BufTy).Contents (Elt Ideal)) (r : Fin 4096) (c : Fin 512) :
    refOut (F := Ideal) a0 a1 a2 a3 a4 a5 a6 (ix2 r c)
      = Cert.Spec.outR (Cert.Spec.arr2 a2) (Cert.Spec.arr2 a0) (Cert.Spec.arr2 a1) (Cert.Spec.arr2 a3)
          (Cert.Spec.arr1 a4) (Cert.Spec.arr1 a5) (Cert.Spec.arr1 a6) r c := by
  unfold refOut Cert.Spec.outR
  beta_reduce
  rw [maximumf_apply, addf_apply, mulf_apply, rowBcast_apply, rowBcast_apply, scalarBcast2_apply, constant_apply,
    Ideal.ofBits_zero_f32]
  exact norm_apply (yAff (F := Ideal) a0 a1 a2 a3 a4) _ (fun r c => yAff_apply a0 a1 a2 a3 a4 r c)
    (Cert.Spec.arr1 a5) (Cert.Spec.arr1 a6) r c

end Cert.ReferenceIdeal.Hand

end
-- ==== Proof.SpecLaw.lean ====
/-
  The two groupings and the two normalizations are one function when every input entry is a real number.
-/
import proofs.«180622_g18880676233904_cont_8to1_729_6_alg».proof.Proof.Spec

noncomputable section

namespace Cert.Spec

open Idealize.ShloMosaic

/-! ## The three printed words as real numbers -/

/-- The reference's divisor is the real 4096, -/
theorem nF_eq : nF = ((4096 : ℝ) : EReal) := by
  simp [Ideal.ofBits, Ideal.ieee, -EReal.coe_mul]; norm_num

/-- the kernel's factor is its reciprocal, -/
theorem invN_eq : invN = ((1 / 4096 : ℝ) : EReal) := by
  simp [Ideal.ofBits, Ideal.ieee, -EReal.coe_mul]; norm_num

/-- and the stabilizer is a positive real. -/
theorem eps_eq : ∃ e : ℝ, 0 < e ∧ eps = (e : EReal) := by
  simp [Ideal.ofBits, Ideal.ieee, -EReal.coe_mul]

/-! ## Finite sums of reals inside the extended reals -/

/-- The inclusion of the reals carries a finite sum to the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The affine layer over the reals -/

section
variable (A : Fin 4096 → Fin 4096 → ℝ) (X1 X2 : Fin 4096 → Fin 512 → ℝ) (V : Fin 1024 → Fin 512 → ℝ) (B : Fin 512 → ℝ)

/-- The kernel's grouping, over the reals. -/
def yKr (r : Fin 4096) (c : Fin 512) : ℝ :=
  (∑ k : Fin 4096, A r k * (∑ l : Fin 512, X1 k l * V (loW l) c) + ∑ l : Fin 512, X2 r l * V (hiW l) c) + B c

/-- The joined features, over the reals. -/
def catRr (r : Fin 4096) (l : Fin 1024) : ℝ :=
  if h : l.val < 512 then ∑ k : Fin 4096, A r k * X1 k ⟨l.val, h⟩ else X2 r ⟨l.val - 512, by omega⟩

/-- The reference's grouping, over the reals. -/
def yRr (r : Fin 4096) (c : Fin 512) : ℝ := (∑ l : Fin 1024, catRr A X1 X2 r l * V l c) + B c

/-- A sum over the 1024 rows of W is the sum over its first 512 rows plus the sum over its last 512. -/
theorem sum_split (f : Fin 1024 → ℝ) : ∑ l, f l = ∑ l : Fin 512, f (loW l) + ∑ l : Fin 512, f (hiW l) :=
  Fin.sum_univ_add (M := ℝ) (a := 512) (b := 512) f

theorem catRr_lo (r : Fin 4096) (l : Fin 512) : catRr A X1 X2 r (loW l) = ∑ k : Fin 4096, A r k * X1 k l := by
  unfold catRr
  rw [dif_pos (show (loW l).val < 512 from l.isLt)]
  rfl

theorem catRr_hi (r : Fin 4096) (l : Fin 512) : catRr A X1 X2 r (hiW l) = X2 r l := by
  unfold catRr
  rw [dif_neg (show ¬ (hiW l).val < 512 by simp [hiW])]
  congr 1
  apply Fin.ext
  simp [hiW]

/-- Over the reals the two groupings agree: distribute W1 over the aggregation and exchange the two sums. -/
theorem yKr_eq_yRr : yKr A X1 X2 V B = yRr A X1 X2 V B := by
  funext r c
  unfold yKr yRr
  rw [sum_split]
  simp only [catRr_lo, catRr_hi]
  congr 2
  simp only [Finset.sum_mul, Finset.mul_sum]
  rw [Finset.sum_comm]
  refine Finset.sum_congr rfl fun l _ => Finset.sum_congr rfl fun k _ => ?_
  ring

end

/-! ## The affine layer of real inputs is real -/

section
variable (A : Fin 4096 → Fin 4096 → ℝ) (X1 X2 : Fin 4096 → Fin 512 → ℝ) (V : Fin 1024 → Fin 512 → ℝ) (B : Fin 512 → ℝ)

theorem yK_coe :
    yK (fun i j => (A i j : EReal)) (fun i j => (X1 i j : EReal)) (fun i j => (X2 i j : EReal))
        (fun i j => (V i j : EReal)) (fun i => (B i : EReal))
      = fun r c => ((yKr A X1 X2 V B r c : ℝ) : EReal) := by
  funext r c
  simp only [yK, tK, yKr, EReal.coe_add, coe_sum, EReal.coe_mul]

theorem catR_coe (r : Fin 4096) (l : Fin 1024) :
    catR (fun i j => (A i j : EReal)) (fun i j => (X1 i j : EReal)) (fun i j => (X2 i j : EReal)) r l
      = ((catRr A X1 X2 r l : ℝ) : EReal) := by
  unfold catR catRr hR
  split_ifs with h
  · simp only [coe_sum, EReal.coe_mul]
  · rfl

theorem yR_coe :
    yR (fun i j => (A i j : EReal)) (fun i j => (X1 i j : EReal)) (fun i j => (X2 i j : EReal))
        (fun i j => (V i j : EReal)) (fun i => (B i : EReal))
      = fun r c => ((yRr A X1 X2 V B r c : ℝ) : EReal) := by
  funext r c
  simp only [yR, yRr, catR_coe, EReal.coe_add, coe_sum, EReal.coe_mul]

end

/-! ## The two normalizations of a real array -/

/-- The mean of squares less the squared mean is the mean squared deviation, over 4096 terms. -/
theorem var_eq (f : Fin 4096 → ℝ) :
    (∑ i, f i * f i) * (1 / 4096) - ((∑ i, f i) * (1 / 4096)) * ((∑ i, f i) * (1 / 4096))
      = (∑ i, (f i - (∑ j, f j) * (1 / 4096)) * (f i - (∑ j, f j) * (1 / 4096))) * (1 / 4096) := by
  generalize hS : ∑ j, f j = S
  have h : ∑ i, (f i - S * (1 / 4096)) * (f i - S * (1 / 4096))
      = (∑ i, f i * f i) - 2 * (S * (1 / 4096)) * S + 4096 * ((S * (1 / 4096)) * (S * (1 / 4096))) := by
    have h1 : ∀ i, (f i - S * (1 / 4096)) * (f i - S * (1 / 4096))
        = f i * f i - 2 * (S * (1 / 4096)) * f i + (S * (1 / 4096)) * (S * (1 / 4096)) := fun i => by ring
    simp only [h1]
    rw [Finset.sum_add_distrib, Finset.sum_sub_distrib, ← Finset.mul_sum, hS, Finset.sum_const, Finset.card_univ,
      Fintype.card_fin, nsmul_eq_mul]
    norm_num
  rw [h]
  ring

/-- The mean squared deviation is not negative. -/
theorem var_nonneg (f : Fin 4096 → ℝ) (m : ℝ) : 0 ≤ (∑ i, (f i - m) * (f i - m)) * (1 / 4096) :=
  mul_nonneg (Finset.sum_nonneg fun i _ => mul_self_nonneg _) (by norm_num)

/-- At a positive real the reciprocal square root is the reciprocal of the real square root, -/
theorem rsqrt_of_pos {v : ℝ} (hv : 0 < v) : Ideal.rsqrt (v : EReal) = (((Real.sqrt v)⁻¹ : ℝ) : EReal) := by
  rw [Ideal.rsqrt_coe, if_neg (not_lt.mpr hv.le), if_neg hv.ne']

/-- and the square root is the real square root. -/
theorem sqrt_of_pos {v : ℝ} (hv : 0 < v) : Ideal.sqrt (v : EReal) = ((Real.sqrt v : ℝ) : EReal) := by
  rw [Ideal.sqrt_coe, if_neg (not_lt.mpr hv.le)]

/-- On a real array with real scale and shift the kernel's normalization is the reference's. -/
theorem normK_eq_normR (Y : Fin 4096 → Fin 512 → ℝ) (G Be : Fin 512 → ℝ) :
    normK (fun r c => (Y r c : EReal)) (fun c => (G c : EReal)) (fun c => (Be c : EReal))
      = normR (fun r c => (Y r c : EReal)) (fun c => (G c : EReal)) (fun c => (Be c : EReal)) := by
  funext r c
  obtain ⟨e, he, hE⟩ := eps_eq
  unfold normK normR
  rw [hE, invN_eq, nF_eq]
  simp only [Ideal.div_coe (show (4096 : ℝ) ≠ 0 by norm_num)]
  simp only [← EReal.coe_mul, ← coe_sum, ← EReal.coe_sub, ← EReal.coe_add]
  have hv := var_eq (fun i => Y i c)
  beta_reduce at hv
  rw [hv]
  have hpos : 0 < (∑ i, (Y i c - (∑ j, Y j c) * (1 / 4096)) * (Y i c - (∑ j, Y j c) * (1 / 4096))) * (1 / 4096) + e :=
    add_pos_of_nonneg_of_pos (var_nonneg _ _) he
  rw [rsqrt_of_pos hpos, sqrt_of_pos hpos, Ideal.div_coe (Real.sqrt_pos.mpr hpos).ne']
  simp only [← EReal.coe_mul, ← EReal.coe_sub, ← EReal.coe_add]
  refine congrArg (fun t : ℝ => max (t : EReal) 0) ?_
  rw [one_div]
  ring

/-! ## The statement -/

/-- Over finite inputs the kernel's result and the reference's are equal entry by entry. -/
theorem outK_eq_outR (am : Fin 4096 → Fin 4096 → EReal) (x1 x2 : Fin 4096 → Fin 512 → EReal) (W : Fin 1024 → Fin 512 → EReal)
    (b g be : Fin 512 → EReal) (ham : Real2 am) (hx1 : Real2 x1) (hx2 : Real2 x2) (hW : Real2 W)
    (hb : Real1 b) (hg : Real1 g) (hbe : Real1 be) :
    outK am x1 x2 W b g be = outR am x1 x2 W b g be := by
  unfold Real2 at ham hx1 hx2 hW
  unfold Real1 at hb hg hbe
  choose A hA using ham
  choose X1 hX1 using hx1
  choose X2 hX2 using hx2
  choose V hV using hW
  choose B hB using hb
  choose G hG using hg
  choose Be hBe using hbe
  obtain rfl : am = fun i j => (A i j : EReal) := funext fun i => funext fun j => hA i j
  obtain rfl : x1 = fun i j => (X1 i j : EReal) := funext fun i => funext fun j => hX1 i j
  obtain rfl : x2 = fun i j => (X2 i j : EReal) := funext fun i => funext fun j => hX2 i j
  obtain rfl : W = fun i j => (V i j : EReal) := funext fun i => funext fun j => hV i j
  obtain rfl : b = fun i => (B i : EReal) := funext hB
  obtain rfl : g = fun i => (G i : EReal) := funext hG
  obtain rfl : be = fun i => (Be i : EReal) := funext hBe
  unfold outK outR
  rw [yK_coe, yR_coe, yKr_eq_yRr]
  exact normK_eq_normR _ G Be

end Cert.Spec

end
-- ==== Proof.Finite.lean ====
/-
  The precondition says every entry of every input array is finite; over the extended reals a finite entry is a real number.
-/
import proofs.«180622_g18880676233904_cont_8to1_729_6_alg».proof.Proof.Spec
import proofs.«180622_g18880676233904_cont_8to1_729_6_alg».proof.Pre_finite_inputs
import proofs.«180622_g18880676233904_cont_8to1_729_6_alg».proof.Proof.Gen.Pre_finite_inputs
import Idealize.ShloMosaic.Lib.ReduceAll
import Idealize.ShloMosaic.Lib.IdealHost
import Mathlib.Data.EReal.Basic

noncomputable section

namespace Cert.Finite

open Idealize.ShloMosaic Cert.Pre_finite_inputs

/-- A scalar has one index. -/
instance : Subsingleton S_.Idx := ⟨fun _ _ => funext fun d => d.elim0⟩

/-- The word 0x7F800000 is +∞. -/
theorem inf_word : Ideal.ofBits .f32 0x7F800000#32 = (⊤ : EReal) := by simp [Ideal.ofBits, Ideal.ieee]

/-- An extended real x with max x (-x) < +∞ is neither infinity, so it is a real number. -/
theorem real_of_abs_lt_top (x : EReal) (h : max x (-x) < ⊤) : ∃ a : ℝ, x = (a : EReal) := by
  induction x using EReal.rec with
  | bot => simp at h
  | coe a => exact ⟨a, rfl⟩
  | top => simp at h

/-- A one-bit word made from a truth value is 1 exactly when the value is true. -/
theorem ofBool_eq_one (b : Bool) : BitVec.ofBool b = 1#1 ↔ b = true := by cases b <;> decide

/-- One entry: where the printed comparison |x| < +∞ reads 1, the entry is a real number. -/
theorem entry {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ a : ℝ, x i = (a : EReal) := by
  have e : cmpf .olt (Host.absf x) (broadcastInDim s ![] hb (constant S_ .f32 0x7F800000#32)) i
      = Ideal.cmp .olt (max (x i) (-(x i))) (Ideal.ofBits .f32 0x7F800000#32) := by
    show Ideal.cmp .olt (max (x i) (-(x i))) (broadcastInDim s ![] hb (constant (F := Ideal) S_ .f32 0x7F800000#32) i) = _
    rw [ValueIdx.broadcastInDim_scalar_apply]; rfl
  rw [e, inf_word] at h
  unfold Ideal.cmp at h
  rw [ofBool_eq_one] at h
  exact real_of_abs_lt_top (x i) (of_decide_eq_true h)

/-- A [n0, n1] array whose jnp.all(|x| < +∞) reads 1 is real-valued, read by row and column. -/
theorem real2 {n0 n1 : Nat} (x : FVec Ideal ⟨2, ![n0, n1]⟩ .f32)
    (hb : S_.BroadcastsInDim ⟨2, ![n0, n1]⟩ (![] : Fin 0 → Fin 2)) (hr : (⟨2, ![n0, n1]⟩ : Shape).ReducesTo [0, 1] S_)
    (hu : 0 < S_.numel) (init : IVec S_ 1)
    (h : Host.reduce IntOp.andi (cmpf .olt (Host.absf x) (broadcastInDim ⟨2, ![n0, n1]⟩ ![] hb (constant S_ .f32 0x7F800000#32)))
      init hr hu ValueIdx.ix0 = 1#1) :
    Cert.Spec.Real2 (Cert.Spec.arr2 x) := fun r c =>
  entry x hb (ValueIdx.ix2 r c) (Host.reduce_andi_all _ init hr hu ValueIdx.ix0 h _)

/-- A [n] array likewise, read by position. -/
theorem real1 {n : Nat} (x : FVec Ideal ⟨1, ![n]⟩ .f32)
    (hb : S_.BroadcastsInDim ⟨1, ![n]⟩ (![] : Fin 0 → Fin 1)) (hr : (⟨1, ![n]⟩ : Shape).ReducesTo [0] S_)
    (hu : 0 < S_.numel) (init : IVec S_ 1)
    (h : Host.reduce IntOp.andi (cmpf .olt (Host.absf x) (broadcastInDim ⟨1, ![n]⟩ ![] hb (constant S_ .f32 0x7F800000#32)))
      init hr hu ValueIdx.ix0 = 1#1) :
    Cert.Spec.Real1 (Cert.Spec.arr1 x) := fun c =>
  entry x hb (ValueIdx.ix1 c) (Host.reduce_andi_all _ init hr hu ValueIdx.ix0 h _)

/-- From the printed predicate being all ones: each of the seven arrays is real-valued, read by coordinates. -/
theorem reals [Cert.Pre_finite_inputs.Facts] (a0 a1 : FVec Ideal S4096x512 .f32) (a2 : FVec Ideal S4096x4096 .f32) (a3 : FVec Ideal S1024x512 .f32)
    (a4 a5 a6 : FVec Ideal S512 .f32)
    (h : Cert.Pre_finite_inputs.fn (F := Ideal) a0 a1 a2 a3 a4 a5 a6 = fun _ => 1#1) :
    Cert.Spec.Real2 (Cert.Spec.arr2 a0) ∧ Cert.Spec.Real2 (Cert.Spec.arr2 a1) ∧ Cert.Spec.Real2 (Cert.Spec.arr2 a2)
      ∧ Cert.Spec.Real2 (Cert.Spec.arr2 a3) ∧ Cert.Spec.Real1 (Cert.Spec.arr1 a4) ∧ Cert.Spec.Real1 (Cert.Spec.arr1 a5)
      ∧ Cert.Spec.Real1 (Cert.Spec.arr1 a6) := by
  -- the printed result at its one index is a conjunction, by the word and, of seven reductions
  have e := congrFun h ValueIdx.ix0
  dsimp only [Cert.Pre_finite_inputs.fn, Cert.Pre_finite_inputs.fn_part1, andi] at e
  simp only [IntOp.andi_eq_one] at e
  obtain ⟨⟨⟨⟨⟨⟨h0, h1⟩, h2⟩, h3⟩, h4⟩, h5⟩, h6⟩ := e
  exact ⟨real2 a0 _ _ _ _ h0, real2 a1 _ _ _ _ h1, real2 a2 _ _ _ _ h2, real2 a3 _ _ _ _ h3,
    real1 a4 _ _ _ _ h4, real1 a5 _ _ _ _ h5, real1 a6 _ _ _ _ h6⟩

end Cert.Finite

end
-- ==== Proof.lean ====
/-
  The certificate of the fused exchange layer: out = relu(batchnorm(concat(am x1, x2) W + b) * gamma + beta), batch
  statistics over the 4096 rows.

  The kernel regroups the affine layer as am (x1 W1) + x2 W2 + b (W1, W2 the two halves of W's rows), computes it in
  sixteen blocks of 256 rows into an output buffer that stays resident, accumulates the column sums of y and of y squared
  block by block, and at the last block normalizes every row in place with the variance E[y^2] - E[y]^2, the reciprocal
  square root, and mean and scale folded into one multiply-add. The reference multiplies in its own order, centres
  before squaring and divides by the square root.

  Frames: both kernel programs run through one induction over the grid points (Proof/KB for the program as printed,
  Proof/KI for its idealization: the same text, generic in the float operations); the reference's run is its list of
  host operations executed in order (Proof/Ref/Run.lean). The ideal pass rewrote nothing, so the idealization claim is
  empty. Values over the extended reals: the kernel's result array is the specification's outK of the arguments
  (Proof/KI/Value.lean), the reference's is outR entry by entry (Proof/Ref/Value.lean), and over finite inputs
  (Proof/Finite.lean reads that off the precondition) the two are one function (Proof/SpecLaw.lean): the two matrix
  groupings agree by distributivity and exchange of finite sums of real numbers, the two variances by expanding the square,
  and the variance plus eps is positive, so multiplying by its reciprocal square root is dividing by its square root.
-/
import proofs.«180622_g18880676233904_cont_8to1_729_6_alg».proof.Defs
import proofs.«180622_g18880676233904_cont_8to1_729_6_alg».proof.Proof.Gen.Kernel
import proofs.«180622_g18880676233904_cont_8to1_729_6_alg».proof.Proof.Gen.KernelIdeal
import proofs.«180622_g18880676233904_cont_8to1_729_6_alg».proof.Proof.Gen.ReferenceIdeal
import proofs.«180622_g18880676233904_cont_8to1_729_6_alg».proof.Proof.Gen.Pre_finite_inputs
import proofs.«180622_g18880676233904_cont_8to1_729_6_alg».proof.Proof.KB.Main
import proofs.«180622_g18880676233904_cont_8to1_729_6_alg».proof.Proof.KI.Value
import proofs.«180622_g18880676233904_cont_8to1_729_6_alg».proof.Proof.Ref.Run
import proofs.«180622_g18880676233904_cont_8to1_729_6_alg».proof.Proof.Ref.Value
import proofs.«180622_g18880676233904_cont_8to1_729_6_alg».proof.Proof.SpecLaw
import proofs.«180622_g18880676233904_cont_8to1_729_6_alg».proof.Proof.Finite
import Idealize.ShloMosaic.Adequacy
import Idealize.ShloMosaic.Init

noncomputable section

namespace Cert.Proof

open Idealize.ShloMosaic Idealize.ShloMosaic.ValueIdx Idealize.SL.Sem

/-- The program as printed runs and keeps its arguments. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference runs and keeps its arguments: its run with the result dropped. -/
theorem frame_r : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- From memories agreeing on the seven arguments, finite by the precondition, both idealized programs end with the
    specification's result in their result arrays. -/
theorem algebraic : Cert.algebraic_KernelIdeal_ReferenceIdeal := by
  intro m ρ m' ρ' hpre hagree
  refine ⟨fun c => Cert.KernelIdeal.Hand.kerOut m c, Cert.KernelIdeal.Hand.run_value m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6⟩ := hagree c
  rw [h0, h1, h2, h3, h4, h5, h6]
  obtain ⟨f0, f1, f2, f3, f4, f5, f6⟩ := Cert.Finite.reals _ _ _ _ _ _ _ (hpre c)
  funext j
  obtain ⟨r, q, rfl⟩ : ∃ (r : Fin 4096) (q : Fin 512), j = ix2 r q := ⟨j 0, j 1, eq_ix2 j⟩
  rw [Cert.ReferenceIdeal.Hand.refOut_apply]
  exact (congrFun (congrFun (Cert.Spec.outK_eq_outR _ _ _ _ _ _ _ f2 f0 f1 f3 f4 f5 f6) r) q).symm

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
